-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S4096x1024 : Shape := ⟨2, ![4096, 1024]⟩
abbrev S1x1024 : Shape := ⟨2, ![1, 1024]⟩
abbrev S8x1x1024 : Shape := ⟨3, ![8, 1, 1024]⟩
abbrev S8 : Shape := ⟨1, ![8]⟩
abbrev S_ : Shape := ⟨0, ![]⟩
abbrev S1024 : Shape := ⟨1, ![1024]⟩
abbrev S1x1x1024 : Shape := ⟨3, ![1, 1, 1024]⟩
abbrev S1 : Shape := ⟨1, ![1]⟩
abbrev S8x1024 : Shape := ⟨2, ![8, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4096x1024, .f32⟩
  | .local _ .vmem, ⟨1, _⟩ => ⟨S1x1024, .f32⟩
  | .local _ .vmem, ⟨2, _⟩ => ⟨S8x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : Index := Scalar.indexCast v2
  let c0_65 : Index := 0#32
  let c0_66 : Index := 0#32
  ![v99.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_77 : BitVec 32 := 0#32
  let c0_i32_78 : BitVec 32 := 0#32
  ![v2.toNat, 0, 0]
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v103 : BitVec 32 := Scalar.addi v2 c1_i32_67
  let c8_i32_68 : BitVec 32 := 8#32
  let c0_i32_69 : BitVec 32 := 0#32
  let v104 : BitVec 1 := Scalar.cmpi .eq c8_i32_68 c0_i32_69
  let c1_i32_70 : BitVec 32 := 1#32
  let v105 : BitVec 32 := Scalar.select v104 c1_i32_70 c8_i32_68
  let v106 : BitVec 32 := Scalar.remsi v103 v105
  let c0_i32_72 : BitVec 32 := 0#32
  let v108 : BitVec 1 := Scalar.cmpi .slt v106 c0_i32_72
  let c0_i32_73 : BitVec 32 := 0#32
  let v109 : BitVec 1 := Scalar.cmpi .slt v105 c0_i32_73
  let v110 : BitVec 1 := Scalar.xori v108 v109
  let c0_i32_71 : BitVec 32 := 0#32
  let v107 : BitVec 1 := Scalar.cmpi .ne v106 c0_i32_71
  let v111 : BitVec 1 := Scalar.andi v110 v107
  let v112 : BitVec 32 := Scalar.addi v106 v105
  let v113 : BitVec 32 := Scalar.select v111 v112 v106
  let c1_i32_75 : BitVec 32 := 1#32
  let v114 : BitVec 32 := Scalar.muli v113 c1_i32_75
  let v115 : BitVec 32 := Scalar.addi c0_i32_76 v114
  v115.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v124 : BitVec 32 := Scalar.addi v2 c2_i32_81
  let c8_i32_82 : BitVec 32 := 8#32
  let c0_i32_83 : BitVec 32 := 0#32
  let v125 : BitVec 1 := Scalar.cmpi .eq c8_i32_82 c0_i32_83
  let c1_i32_84 : BitVec 32 := 1#32
  let v126 : BitVec 32 := Scalar.select v125 c1_i32_84 c8_i32_82
  let v127 : BitVec 32 := Scalar.remsi v124 v126
  let c0_i32_86 : BitVec 32 := 0#32
  let v129 : BitVec 1 := Scalar.cmpi .slt v127 c0_i32_86
  let c0_i32_87 : BitVec 32 := 0#32
  let v130 : BitVec 1 := Scalar.cmpi .slt v126 c0_i32_87
  let v131 : BitVec 1 := Scalar.xori v129 v130
  let c0_i32_85 : BitVec 32 := 0#32
  let v128 : BitVec 1 := Scalar.cmpi .ne v127 c0_i32_85
  let v132 : BitVec 1 := Scalar.andi v131 v128
  let v133 : BitVec 32 := Scalar.addi v127 v126
  let v134 : BitVec 32 := Scalar.select v132 v133 v127
  let c1_i32_89 : BitVec 32 := 1#32
  let v135 : BitVec 32 := Scalar.muli v134 c1_i32_89
  let v136 : BitVec 32 := Scalar.addi c0_i32_90 v135
  v136.toNat
def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v145 : BitVec 32 := Scalar.addi v2 c3_i32_95
  let c8_i32_96 : BitVec 32 := 8#32
  let c0_i32_97 : BitVec 32 := 0#32
  let v146 : BitVec 1 := Scalar.cmpi .eq c8_i32_96 c0_i32_97
  let c1_i32_98 : BitVec 32 := 1#32
  let v147 : BitVec 32 := Scalar.select v146 c1_i32_98 c8_i32_96
  let v148 : BitVec 32 := Scalar.remsi v145 v147
  let c0_i32_100 : BitVec 32 := 0#32
  let v150 : BitVec 1 := Scalar.cmpi .slt v148 c0_i32_100
  let c0_i32_101 : BitVec 32 := 0#32
  let v151 : BitVec 1 := Scalar.cmpi .slt v147 c0_i32_101
  let v152 : BitVec 1 := Scalar.xori v150 v151
  let c0_i32_99 : BitVec 32 := 0#32
  let v149 : BitVec 1 := Scalar.cmpi .ne v148 c0_i32_99
  let v153 : BitVec 1 := Scalar.andi v152 v149
  let v154 : BitVec 32 := Scalar.addi v148 v147
  let v155 : BitVec 32 := Scalar.select v153 v154 v148
  let c1_i32_103 : BitVec 32 := 1#32
  let v156 : BitVec 32 := Scalar.muli v155 c1_i32_103
  let v157 : BitVec 32 := Scalar.addi c0_i32_104 v156
  v157.toNat
def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_109 : BitVec 32 := 4#32
  let v166 : BitVec 32 := Scalar.addi v2 c4_i32_109
  let c8_i32_110 : BitVec 32 := 8#32
  let c0_i32_111 : BitVec 32 := 0#32
  let v167 : BitVec 1 := Scalar.cmpi .eq c8_i32_110 c0_i32_111
  let c1_i32_112 : BitVec 32 := 1#32
  let v168 : BitVec 32 := Scalar.select v167 c1_i32_112 c8_i32_110
  let v169 : BitVec 32 := Scalar.remsi v166 v168
  let c0_i32_114 : BitVec 32 := 0#32
  let v171 : BitVec 1 := Scalar.cmpi .slt v169 c0_i32_114
  let c0_i32_115 : BitVec 32 := 0#32
  let v172 : BitVec 1 := Scalar.cmpi .slt v168 c0_i32_115
  let v173 : BitVec 1 := Scalar.xori v171 v172
  let c0_i32_113 : BitVec 32 := 0#32
  let v170 : BitVec 1 := Scalar.cmpi .ne v169 c0_i32_113
  let v174 : BitVec 1 := Scalar.andi v173 v170
  let v175 : BitVec 32 := Scalar.addi v169 v168
  let v176 : BitVec 32 := Scalar.select v174 v175 v169
  let c1_i32_117 : BitVec 32 := 1#32
  let v177 : BitVec 32 := Scalar.muli v176 c1_i32_117
  let v178 : BitVec 32 := Scalar.addi c0_i32_118 v177
  v178.toNat
def k0_dev12 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_123 : BitVec 32 := 5#32
  let v187 : BitVec 32 := Scalar.addi v2 c5_i32_123
  let c8_i32_124 : BitVec 32 := 8#32
  let c0_i32_125 : BitVec 32 := 0#32
  let v188 : BitVec 1 := Scalar.cmpi .eq c8_i32_124 c0_i32_125
  let c1_i32_126 : BitVec 32 := 1#32
  let v189 : BitVec 32 := Scalar.select v188 c1_i32_126 c8_i32_124
  let v190 : BitVec 32 := Scalar.remsi v187 v189
  let c0_i32_128 : BitVec 32 := 0#32
  let v192 : BitVec 1 := Scalar.cmpi .slt v190 c0_i32_128
  let c0_i32_129 : BitVec 32 := 0#32
  let v193 : BitVec 1 := Scalar.cmpi .slt v189 c0_i32_129
  let v194 : BitVec 1 := Scalar.xori v192 v193
  let c0_i32_127 : BitVec 32 := 0#32
  let v191 : BitVec 1 := Scalar.cmpi .ne v190 c0_i32_127
  let v195 : BitVec 1 := Scalar.andi v194 v191
  let v196 : BitVec 32 := Scalar.addi v190 v189
  let v197 : BitVec 32 := Scalar.select v195 v196 v190
  let c1_i32_131 : BitVec 32 := 1#32
  let v198 : BitVec 32 := Scalar.muli v197 c1_i32_131
  let v199 : BitVec 32 := Scalar.addi c0_i32_132 v198
  v199.toNat
def k0_dev13 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_137 : BitVec 32 := 6#32
  let v208 : BitVec 32 := Scalar.addi v2 c6_i32_137
  let c8_i32_138 : BitVec 32 := 8#32
  let c0_i32_139 : BitVec 32 := 0#32
  let v209 : BitVec 1 := Scalar.cmpi .eq c8_i32_138 c0_i32_139
  let c1_i32_140 : BitVec 32 := 1#32
  let v210 : BitVec 32 := Scalar.select v209 c1_i32_140 c8_i32_138
  let v211 : BitVec 32 := Scalar.remsi v208 v210
  let c0_i32_142 : BitVec 32 := 0#32
  let v213 : BitVec 1 := Scalar.cmpi .slt v211 c0_i32_142
  let c0_i32_143 : BitVec 32 := 0#32
  let v214 : BitVec 1 := Scalar.cmpi .slt v210 c0_i32_143
  let v215 : BitVec 1 := Scalar.xori v213 v214
  let c0_i32_141 : BitVec 32 := 0#32
  let v212 : BitVec 1 := Scalar.cmpi .ne v211 c0_i32_141
  let v216 : BitVec 1 := Scalar.andi v215 v212
  let v217 : BitVec 32 := Scalar.addi v211 v210
  let v218 : BitVec 32 := Scalar.select v216 v217 v211
  let c1_i32_145 : BitVec 32 := 1#32
  let v219 : BitVec 32 := Scalar.muli v218 c1_i32_145
  let v220 : BitVec 32 := Scalar.addi c0_i32_146 v219
  v220.toNat
def k0_dev14 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_151 : BitVec 32 := 7#32
  let v229 : BitVec 32 := Scalar.addi v2 c7_i32_151
  let c8_i32_152 : BitVec 32 := 8#32
  let c0_i32_153 : BitVec 32 := 0#32
  let v230 : BitVec 1 := Scalar.cmpi .eq c8_i32_152 c0_i32_153
  let c1_i32_154 : BitVec 32 := 1#32
  let v231 : BitVec 32 := Scalar.select v230 c1_i32_154 c8_i32_152
  let v232 : BitVec 32 := Scalar.remsi v229 v231
  let c0_i32_156 : BitVec 32 := 0#32
  let v234 : BitVec 1 := Scalar.cmpi .slt v232 c0_i32_156
  let c0_i32_157 : BitVec 32 := 0#32
  let v235 : BitVec 1 := Scalar.cmpi .slt v231 c0_i32_157
  let v236 : BitVec 1 := Scalar.xori v234 v235
  let c0_i32_155 : BitVec 32 := 0#32
  let v233 : BitVec 1 := Scalar.cmpi .ne v232 c0_i32_155
  let v237 : BitVec 1 := Scalar.andi v236 v233
  let v238 : BitVec 32 := Scalar.addi v232 v231
  let v239 : BitVec 32 := Scalar.select v237 v238 v232
  let c1_i32_159 : BitVec 32 := 1#32
  let v240 : BitVec 32 := Scalar.muli v239 c1_i32_159
  let v241 : BitVec 32 := Scalar.addi c0_i32_160 v240
  v241.toNat
def k0_off4 (d0 : Dev nD) (c1_i32_165 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v250 : BitVec 32 := Scalar.addi v2 c1_i32_165
  let c8_i32_166 : BitVec 32 := 8#32
  let c0_i32_167 : BitVec 32 := 0#32
  let v251 : BitVec 1 := Scalar.cmpi .eq c8_i32_166 c0_i32_167
  let c1_i32_168 : BitVec 32 := 1#32
  let v252 : BitVec 32 := Scalar.select v251 c1_i32_168 c8_i32_166
  let v253 : BitVec 32 := Scalar.remsi v250 v252
  let c0_i32_170 : BitVec 32 := 0#32
  let v255 : BitVec 1 := Scalar.cmpi .slt v253 c0_i32_170
  let c0_i32_171 : BitVec 32 := 0#32
  let v256 : BitVec 1 := Scalar.cmpi .slt v252 c0_i32_171
  let v257 : BitVec 1 := Scalar.xori v255 v256
  let c0_i32_169 : BitVec 32 := 0#32
  let v254 : BitVec 1 := Scalar.cmpi .ne v253 c0_i32_169
  let v258 : BitVec 1 := Scalar.andi v257 v254
  let v259 : BitVec 32 := Scalar.addi v253 v252
  let v260 : BitVec 32 := Scalar.select v258 v259 v253
  ![v260.toNat]
def k0_off5 (d0 : Dev nD) (c1_i32_165 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v250 : BitVec 32 := Scalar.addi v2 c1_i32_165
  let c8_i32_166 : BitVec 32 := 8#32
  let c0_i32_167 : BitVec 32 := 0#32
  let v251 : BitVec 1 := Scalar.cmpi .eq c8_i32_166 c0_i32_167
  let c1_i32_168 : BitVec 32 := 1#32
  let v252 : BitVec 32 := Scalar.select v251 c1_i32_168 c8_i32_166
  let v253 : BitVec 32 := Scalar.remsi v250 v252
  let c0_i32_170 : BitVec 32 := 0#32
  let v255 : BitVec 1 := Scalar.cmpi .slt v253 c0_i32_170
  let c0_i32_171 : BitVec 32 := 0#32
  let v256 : BitVec 1 := Scalar.cmpi .slt v252 c0_i32_171
  let v257 : BitVec 1 := Scalar.xori v255 v256
  let c0_i32_169 : BitVec 32 := 0#32
  let v254 : BitVec 1 := Scalar.cmpi .ne v253 c0_i32_169
  let v258 : BitVec 1 := Scalar.andi v257 v254
  let v259 : BitVec 32 := Scalar.addi v253 v252
  let v260 : BitVec 32 := Scalar.select v258 v259 v253
  let c0_i32_175 : BitVec 32 := 0#32
  let c0_i32_176 : BitVec 32 := 0#32
  ![v260.toNat, 0, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_7 : (7#32 : BitVec 32).msb = false
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S1024 : S4096x1024.Reduces [0] S1024
  shapeCasts_S1024_S1x1024 : S1024.ShapeCasts S1x1024
  h_S1x1x1024 : 0 < S1x1x1024.numel
  shapeCasts_S1x1x1024_S1x1024 : S1x1x1024.ShapeCasts S1x1024
  shapeCasts_S1x1024_S1x1x1024 : S1x1024.ShapeCasts S1x1x1024
  inb_S8_S1_1 : ∀ a, (![1] : Fin 1 → Nat) a + S1.size a ≤ S8.size a
  squeezes_S1_S_ : S1.Squeezes S_
  squeezes_S1x1x1024_S1x1024 : S1x1x1024.Squeezes S1x1024
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S8x1x1024_S8x1x1024_0_0_0 : ∀ a, (![0, 0, 0] : Fin 3 → Nat) a + S8x1x1024.size a ≤ S8x1x1024.size a
  h_S8x1x1024 : 0 < S8x1x1024.numel
  shapeCasts_S8x1x1024_S8x1024 : S8x1x1024.ShapeCasts S8x1024
  reduces_S8x1024_S1024 : S8x1024.Reduces [0] S1024
  inb_S1x1024_S1x1024_0_0 : ∀ a, (![0, 0] : Fin 2 → Nat) a + S1x1024.size a ≤ S1x1024.size a
  h_S1x1024 : 0 < S1x1024.numel
  hcc0_scratch1 : 2 + S8.numel ≤ 18
  hcc0_scratch2 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x1x1024.size a ≤ S8x1x1024.size a
  k0_off2_inb : ∀ d0 : Dev nD, ∀ a, (k0_off2 d0) a + S1.size a ≤ S8.size a
  k0_off3_inb : ∀ d0 : Dev nD, ∀ a, (k0_off3 d0) a + S1x1x1024.size a ≤ S8x1x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off4_inb : ∀ d0 : Dev nD, ∀ (r : Fin 7), ∀ a, (k0_off4 d0 (BitVec.ofNat 32 (1 + r.val))) a + S1.size a ≤ S8.size a
  k0_off5_inb : ∀ d0 : Dev nD, ∀ (r : Fin 7), ∀ a, (k0_off5 d0 (BitVec.ofNat 32 (1 + r.val))) a + S1x1x1024.size a ≤ S8x1x1024.size a
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S32768x1024_S1024_d0 : S32768x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Spec.lean ====
/-
  What the kernel computes, as pure functions of the eight devices' blocks of the input.

  Every device first takes the column-wise maximum of its own 4096 x 1024 block (one row of 1024 numbers),
  the devices exchange these rows so that each holds all eight in an 8 x 1 x 1024 array, and each device then
  takes the column-wise maximum of the eight rows. `commVal` is that array, `outVal` the result.
-/
import proofs.«900921_g7700000000000922_dist_max_ax0_shard0_i_m4096_n1024_v7x_i8_f32_1_alg».proof.Proof.Gen.KernelIdeal.Skeleton
import Idealize.ShloMosaic.Lib.ValueIdx

noncomputable section

namespace Cert.KernelIdeal.Spec

open Cert.KernelIdeal Cert.KernelIdeal.Gen Idealize.ShloMosaic

variable {F : FTy → Type} [FloatOps F]

/-- The exchanged array: row `s` is the column-wise maximum of device `s`'s block. -/
def commVal (X : Dev nD → Vec F S4096x1024 .f32) : Vec F S8x1x1024 .f32 :=
  fun i => k0_pay2 (X (⟨(i 0).val, (i 0).isLt⟩ : Fin 8)) (ValueIdx.ix3 (0 : Fin 1) (0 : Fin 1) (⟨(i 2).val, (i 2).isLt⟩ : Fin 1024))

/-- The result on every device: the column-wise maximum of the eight rows. -/
def outVal (X : Dev nD → Vec F S4096x1024 .f32) : Vec F S1x1024 .f32 :=
  k0_pay1 (k0_pay3 (commVal X))

end Cert.KernelIdeal.Spec

end
-- ==== Proof.Proto.lean ====
import proofs.«900921_g7700000000000922_dist_max_ax0_shard0_i_m4096_n1024_v7x_i8_f32_1_alg».proof.Proof.Spec
import proofs.«900921_g7700000000000922_dist_max_ax0_shard0_i_m4096_n1024_v7x_i8_f32_1_alg».proof.Proof.Gen.KernelIdeal.Frame

import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the copy for the exchange, whose duties are named by `Fin 8` -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring of eight devices -/

/-- The device `k` places after `c`. -/
def shift (c : Dev nD) (k : Fin 8) : Dev nD := ⟨(c.val + k.val) % 8, Nat.mod_lt _ (by decide)⟩
/-- The offset that undoes `k`. -/
def neg8 (k : Fin 8) : Fin 8 := ⟨(8 - k.val) % 8, Nat.mod_lt _ (by decide)⟩
/-- The offsets 1 … 7. -/
def off (r : Fin 7) : Fin 8 := ⟨r.val + 1, by omega⟩
/-- The offset 1 … 7 back from the device that is `off r` places on: 7 … 1. -/
def rev7 (r : Fin 7) : Fin 7 := ⟨6 - r.val, by omega⟩

theorem shift_neg8 : ∀ (c : Dev nD) (k : Fin 8), shift (shift c k) (neg8 k) = c := by decide
theorem neg8_off : ∀ r : Fin 7, neg8 (off r) = off (rev7 r) := by decide
theorem rev7_rev7 : ∀ r : Fin 7, rev7 (rev7 r) = r := by decide
theorem shift_off_rev : ∀ (c : Dev nD) (r : Fin 7), shift (shift c (off r)) (off (rev7 r)) = c := by decide
theorem shift_off_ne : ∀ (c : Dev nD) (r : Fin 7), shift c (off r) ≠ c := by decide
theorem shift_off_inj : ∀ (c : Dev nD) (r r' : Fin 7), shift c (off r) = shift c (off r') → r = r' := by decide
theorem off_ne_zero : ∀ r : Fin 7, off r ≠ 0 := by decide
theorem exists_off_of_ne : ∀ (c d : Dev nD), d ≠ c → ∃ r : Fin 7, d = shift c (off r) := by decide

/-- The program's device words: the barrier signals go to the devices 1 … 7 places on, -/
theorem dev1_eq : ∀ c : Dev nD, (⟨k0_dev1 c, k0_dev1_lt c⟩ : Dev nD) = shift c (off 0) := by decide +kernel
theorem dev2_eq : ∀ c : Dev nD, (⟨k0_dev2 c, k0_dev2_lt c⟩ : Dev nD) = shift c (off 1) := by decide +kernel
theorem dev3_eq : ∀ c : Dev nD, (⟨k0_dev3 c, k0_dev3_lt c⟩ : Dev nD) = shift c (off 2) := by decide +kernel
theorem dev4_eq : ∀ c : Dev nD, (⟨k0_dev4 c, k0_dev4_lt c⟩ : Dev nD) = shift c (off 3) := by decide +kernel
theorem dev5_eq : ∀ c : Dev nD, (⟨k0_dev5 c, k0_dev5_lt c⟩ : Dev nD) = shift c (off 4) := by decide +kernel
theorem dev6_eq : ∀ c : Dev nD, (⟨k0_dev6 c, k0_dev6_lt c⟩ : Dev nD) = shift c (off 5) := by decide +kernel
theorem dev7_eq : ∀ c : Dev nD, (⟨k0_dev7 c, k0_dev7_lt c⟩ : Dev nD) = shift c (off 6) := by decide +kernel
/-- and so do the seven copies. -/
theorem dev8_eq : ∀ c : Dev nD, (⟨k0_dev8 c, k0_dev8_lt c⟩ : Dev nD) = shift c (off 0) := by decide +kernel
theorem dev9_eq : ∀ c : Dev nD, (⟨k0_dev9 c, k0_dev9_lt c⟩ : Dev nD) = shift c (off 1) := by decide +kernel
theorem dev10_eq : ∀ c : Dev nD, (⟨k0_dev10 c, k0_dev10_lt c⟩ : Dev nD) = shift c (off 2) := by decide +kernel
theorem dev11_eq : ∀ c : Dev nD, (⟨k0_dev11 c, k0_dev11_lt c⟩ : Dev nD) = shift c (off 3) := by decide +kernel
theorem dev12_eq : ∀ c : Dev nD, (⟨k0_dev12 c, k0_dev12_lt c⟩ : Dev nD) = shift c (off 4) := by decide +kernel
theorem dev13_eq : ∀ c : Dev nD, (⟨k0_dev13 c, k0_dev13_lt c⟩ : Dev nD) = shift c (off 5) := by decide +kernel
theorem dev14_eq : ∀ c : Dev nD, (⟨k0_dev14 c, k0_dev14_lt c⟩ : Dev nD) = shift c (off 6) := by decide +kernel

/-- The offsets the program computes from a word: the row, and the receive semaphore, of the device `r + 1` places on. -/
theorem off4_eq : ∀ (c : Dev nD) (r : Fin 7), k0_off4 c (BitVec.ofNat 32 (1 + r.val)) = ![(shift c (off r)).val] := by decide +kernel
theorem off5_eq : ∀ (c : Dev nD) (r : Fin 7), k0_off5 c (BitVec.ofNat 32 (1 + r.val)) = ![(shift c (off r)).val, 0, 0] := by decide +kernel

/-! ## The semaphores and the cells -/

/-- The barrier semaphore. -/
abbrev barS : Sem sig := (SemArray.scalar (sig.barrier 0 rfl) : Sems sig S_).sem
/-- The kernel's sixteen own DMA semaphores: the eight send semaphores, then the eight receive semaphores. -/
def ownSem (j : Fin 16) : DmaSem sig := ⟨2 + j.val, by have := j.isLt; show 2 + j.val < 18; omega⟩
def sendSem (k : Fin 8) : DmaSem sig := ownSem ⟨k.val, by omega⟩
def recvSem (s : Fin 8) : DmaSem sig := ownSem ⟨8 + s.val, by omega⟩

abbrev osem : Fin 16 → SemLoc sig := fun j => .dma (ownSem j)
/-- All seventeen: the barrier, then the sixteen. -/
def csem : Fin 17 → SemLoc sig := fun j => if h : j.val = 0 then .reg barS else .dma (ownSem ⟨j.val - 1, by omega⟩)
abbrev kcell (ck : Dev nD × Fin 17) : GSem nD τ sig := ((ck.1 : Thread nD τ), csem ck.2)

abbrev barCell (c : Dev nD) : GSem nD τ sig := ((c : Thread nD τ), .reg barS)
abbrev sendCell (c : Dev nD) (k : Fin 8) : GSem nD τ sig := ((c : Thread nD τ), .dma (sendSem k))
abbrev recvCell (c : Dev nD) (s : Fin 8) : GSem nD τ sig := ((c : Thread nD τ), .dma (recvSem s))
abbrev ownCell (c : Dev nD) (j : Fin 16) : GSem nD τ sig := ((c : Thread nD τ), .dma (ownSem j))

/-- The semaphores as the program slices them out of its two arrays. -/
theorem sendSem_eq_1 : ((cc0_scratch1.slice (Rect.unit (s := S8) ![1] S1.size inb_S8_S1_1)).squeeze S_ squeezes_S1_S_).sem = sendSem (off 0) := by decide
theorem sendSem_eq_2 : ((cc0_scratch1.slice (Rect.unit (s := S8) ![2] S1.size inb_S8_S1_2)).squeeze S_ squeezes_S1_S_).sem = sendSem (off 1) := by decide
theorem sendSem_eq_3 : ((cc0_scratch1.slice (Rect.unit (s := S8) ![3] S1.size inb_S8_S1_3)).squeeze S_ squeezes_S1_S_).sem = sendSem (off 2) := by decide
theorem sendSem_eq_4 : ((cc0_scratch1.slice (Rect.unit (s := S8) ![4] S1.size inb_S8_S1_4)).squeeze S_ squeezes_S1_S_).sem = sendSem (off 3) := by decide
theorem sendSem_eq_5 : ((cc0_scratch1.slice (Rect.unit (s := S8) ![5] S1.size inb_S8_S1_5)).squeeze S_ squeezes_S1_S_).sem = sendSem (off 4) := by decide
theorem sendSem_eq_6 : ((cc0_scratch1.slice (Rect.unit (s := S8) ![6] S1.size inb_S8_S1_6)).squeeze S_ squeezes_S1_S_).sem = sendSem (off 5) := by decide
theorem sendSem_eq_7 : ((cc0_scratch1.slice (Rect.unit (s := S8) ![7] S1.size inb_S8_S1_7)).squeeze S_ squeezes_S1_S_).sem = sendSem (off 6) := by decide
theorem recvSem_own_eq : ∀ c : Dev nD, ((cc0_scratch2.slice (Rect.unit (s := S8) (k0_off2 c) S1.size (k0_off2_inb c))).squeeze S_ squeezes_S1_S_).sem = recvSem c := by decide +kernel
theorem recvSem_peer_eq : ∀ (c : Dev nD) (r : Fin 7), ((cc0_scratch2.slice (Rect.unit (s := S8) (k0_off4 c (BitVec.ofNat 32 (1 + r.val))) S1.size (k0_off4_inb c r))).squeeze S_ squeezes_S1_S_).sem = recvSem (shift c (off r)) := by decide +kernel

theorem sendSem_ne_recvSem : ∀ k s : Fin 8, sendSem k ≠ recvSem s := by decide
theorem sendSem_inj : ∀ k k' : Fin 8, sendSem k = sendSem k' → k = k' := by decide
theorem recvSem_inj : ∀ s s' : Fin 8, recvSem s = recvSem s' → s = s' := by decide

/-! ## The exchanged array, row by row -/

abbrev commM : Memref sig .tc .vmem S8x1x1024 .f32 := Memref.whole cc0_scratch0
/-- Device `c`'s own row, as the program slices it. -/
abbrev ownM (c : Dev nD) : Memref sig .tc .vmem S1x1024 .f32 :=
  (commM.slice (Rect.unit (s := S8x1x1024) (k0_off3 c) S1x1x1024.size (k0_off3_inb c)) (fun _ => rfl)).squeeze S1x1024 squeezes_S1x1x1024_S1x1024
/-- The row of the device `r + 1` places on, as the program slices it. -/
abbrev peerM (c : Dev nD) (r : Fin 7) : Memref sig .tc .vmem S1x1024 .f32 :=
  (commM.slice (Rect.unit (s := S8x1x1024) (k0_off5 c (BitVec.ofNat 32 (1 + r.val))) S1x1x1024.size (k0_off5_inb c r)) (fun _ => rfl)).squeeze S1x1024 squeezes_S1x1x1024_S1x1024

/-- The units a copy of one row puts on a semaphore. -/
abbrev N : ℕ := (ownM (0 : Dev nD)).view.dmaCredit

/-- The elements of row `s` of the array. -/
def rowSet (s : Fin 8) : Finset S8x1x1024.Idx := Finset.univ.filter fun i => (i 0).val = s.val

/-- Each device's block of the input, as the region finds it in its argument array. -/
def xblk (c : Dev nD) : Vec F S4096x1024 .f32 := m ((c : Thread nD τ).loc main_arg0)
/-- The array after the exchange: the same on every device. -/
def comm : Vec F S8x1x1024 .f32 := Spec.commVal (xblk m)

/-- Rows `S` of device `p`'s array, held at share `q` with contents `f`. -/
def rowsPts (p : Dev nD) (S : Finset S8x1x1024.Idx) (q : PosShare TreeShare) (f : Vec F S8x1x1024 .f32) : sProp 𝕄 :=
  ((p : Thread nD τ).loc cc0_scratch0) ↦[S]{q} f

omit [FloatOps F] in
instance rowsPts_storable (p : Dev nD) (S) (q) (f : Vec F S8x1x1024 .f32) : BI.Storable (upEmb : UEmb _ 𝕄) (rowsPts (F := F) p S q f) := by
  unfold rowsPts; infer_instance

/-! ## The schedule: one round per cell -/

/-- What device `d`'s barrier signal hands device `c`: row `c` of `d`'s array, where `c`'s copy to `d` will land, and that
    `d`'s receive cell for it stands at round 0. -/
def barPay (c d : Dev nD) : sProp 𝕄 := iprop((∃ f, rowsPts d (rowSet c) fullShare f) ∗ reached ER (recvCell d c) 0)
/-- What the send semaphore `k` hands back: the share of the device's own row that the copy read. -/
def sendPay (c : Dev nD) (k : Fin 8) : sProp 𝕄 := rowsPts c (rowSet c) (Transfers.shareTok fullShare 8 k) (comm m)
/-- What the receive semaphore `s` hands over: row `s`, holding device `s`'s maxima. -/
def recvPay (c : Dev nD) (s : Fin 8) : sProp 𝕄 := rowsPts c (rowSet s) fullShare (comm m)

def idx8 (n : ℕ) : Fin 8 := ⟨n % 8, Nat.mod_lt _ (by decide)⟩

/-- Round 0 only. A barrier cell has one duty of one unit per OTHER device, named by the device that pays it; send
    semaphore `k ≠ 0` and receive semaphore `s ≠ c` have the one duty `0` of a row's credit; the two semaphores the
    program never uses have none. -/
def Rd : Rounds.Schedule (GSem nD τ sig) (Fin 8) 𝕄 where
  duties g r := if r = 0 ∧ g.1.2 = .tc then
      (match g.2 with
        | .reg _ => Finset.univ.erase g.1.1
        | .dma q => if (3 ≤ q.val ∧ q.val < 10) ∨ (10 ≤ q.val ∧ q.val - 10 ≠ g.1.1.val) then {0} else ∅)
    else ∅
  amount g _ _ := match g.2 with | .reg _ => 1 | .dma _ => N
  payload g _ d := match g.2 with
    | .reg _ => barPay g.1.1 d
    | .dma q => if q.val < 10 then sendPay m g.1.1 (idx8 (q.val - 2)) else recvPay m g.1.1 (idx8 (q.val - 10))
  amount_pos g _ _ _ := by
    cases g.2 with
    | reg _ => exact Nat.one_pos
    | dma _ => exact View.dmaCredit_pos _ (by decide)

instance Rd_payload_storable (g : GSem nD τ sig) (r : ℕ) (d : Fin 8) : BI.Storable (upEmb : UEmb _ 𝕄) ((Rd (F := F) m).payload g r d) := by
  show BI.Storable upEmb (match g.2 with
    | .reg _ => barPay g.1.1 d
    | .dma q => if q.val < 10 then sendPay m g.1.1 (idx8 (q.val - 2)) else recvPay m g.1.1 (idx8 (q.val - 10)))
  unfold barPay sendPay recvPay
  (repeat' split) <;> infer_instance

/-! ## The schedule's tables -/

section Sched
variable (c : Dev nD)

theorem erase_eq_map : ∀ c : Dev nD, (Finset.univ.erase c : Finset (Fin 8))
    = Finset.univ.map ⟨fun r : Fin 7 => shift c (off r), fun r r' h => shift_off_inj c r r' h⟩ := by decide

theorem idx8_send : ∀ r : Fin 7, idx8 ((sendSem (off r)).val - 2) = off r := by decide
theorem idx8_recv : ∀ s : Fin 8, idx8 ((recvSem s).val - 10) = s := by decide

theorem duties_bar : (Rd (F := F) m).duties (barCell c) 0 = Finset.univ.erase c := by dsimp only [Rd]; exact if_pos ⟨rfl, rfl⟩
theorem duties_send (r : Fin 7) : (Rd (F := F) m).duties (sendCell c (off r)) 0 = {0} := by
  dsimp only [Rd]; rw [if_pos ⟨rfl, rfl⟩]
  exact if_pos (Or.inl ⟨by show 3 ≤ 2 + (r.val + 1); omega, by show 2 + (r.val + 1) < 10; omega⟩)
theorem duties_recv (s : Fin 8) (hs : s ≠ c) : (Rd (F := F) m).duties (recvCell c s) 0 = {0} := by
  dsimp only [Rd]; rw [if_pos ⟨rfl, rfl⟩]
  exact if_pos (Or.inr ⟨by show 10 ≤ 2 + (8 + s.val); omega, by show 2 + (8 + s.val) - 10 ≠ c.val; intro h; exact hs (Fin.ext (by omega))⟩)
theorem duties_send0 : (Rd (F := F) m).duties (sendCell c 0) 0 = ∅ := by
  dsimp only [Rd]; rw [if_pos ⟨rfl, rfl⟩]
  exact if_neg (by show ¬((3 ≤ 2 + 0 ∧ 2 + 0 < 10) ∨ (10 ≤ 2 + 0 ∧ 2 + 0 - 10 ≠ c.val)); omega)
theorem duties_recv_own : (Rd (F := F) m).duties (recvCell c c) 0 = ∅ := by
  dsimp only [Rd]; rw [if_pos ⟨rfl, rfl⟩]
  exact if_neg (by show ¬((3 ≤ 2 + (8 + c.val) ∧ 2 + (8 + c.val) < 10) ∨ (10 ≤ 2 + (8 + c.val) ∧ 2 + (8 + c.val) - 10 ≠ c.val)); omega)
theorem duties_later (g : GSem nD τ sig) : ∀ r, 1 ≤ r → (Rd (F := F) m).duties g r = ∅ :=
  fun r hr => by dsimp only [Rd]; exact if_neg fun h => by omega

theorem amount_bar (d : Fin 8) : (Rd (F := F) m).amount (barCell c) 0 d = 1 := rfl
theorem amount_own (j : Fin 16) (d : Fin 8) : (Rd (F := F) m).amount (ownCell c j) 0 d = N := rfl

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ c),
    Finset.card_univ, Fintype.card_fin]
  rfl
theorem expect_send (r : Fin 7) : (Rd (F := F) m).expect (sendCell c (off r)) 0 = N := by
  unfold Schedule.expect Schedule.amountOf; rw [duties_send, Finset.sum_singleton]; rfl
theorem expect_recv (s : Fin 8) (hs : s ≠ c) : (Rd (F := F) m).expect (recvCell c s) 0 = N := by
  unfold Schedule.expect Schedule.amountOf; rw [duties_recv m c s hs, Finset.sum_singleton]; rfl

theorem payload_bar (d : Fin 8) : (Rd (F := F) m).payload (barCell c) 0 d = barPay c d := rfl
theorem payload_send (r : Fin 7) (d : Fin 8) : (Rd (F := F) m).payload (sendCell c (off r)) 0 d = sendPay m c (off r) := by
  dsimp only [Rd]
  show (if (sendSem (off r)).val < 10 then sendPay m c (idx8 ((sendSem (off r)).val - 2)) else recvPay m c (idx8 ((sendSem (off r)).val - 10))) = _
  rw [if_pos (by show 2 + (r.val + 1) < 10; omega), idx8_send]
theorem payload_recv (s : Fin 8) (d : Fin 8) : (Rd (F := F) m).payload (recvCell c s) 0 d = recvPay m c s := by
  dsimp only [Rd]
  show (if (recvSem s).val < 10 then sendPay m c (idx8 ((recvSem s).val - 2)) else recvPay m c (idx8 ((recvSem s).val - 10))) = _
  rw [if_neg (by show ¬ (2 + (8 + s.val) < 10); omega), idx8_recv]

/-- The whole of a barrier cell's round: every other device's payload, by offset. -/
theorem rest_bar : bigSep ((Rd (F := F) m).duties (barCell c) 0 \ ∅) (fun d => (Rd (F := F) m).payload (barCell c) 0 d)
    = bigSep Finset.univ fun r : Fin 7 => barPay (F := F) c (shift c (off r)) := by
  rw [Finset.sdiff_empty, duties_bar, erase_eq_map c, bigSep_map]; rfl
theorem rest_send (r : Fin 7) : bigSep ((Rd (F := F) m).duties (sendCell c (off r)) 0 \ ∅) (fun d => (Rd (F := F) m).payload (sendCell c (off r)) 0 d) = sendPay m c (off r) := by
  rw [Finset.sdiff_empty, duties_send, bigSep_singleton, payload_send]
theorem rest_recv (s : Fin 8) (hs : s ≠ c) : bigSep ((Rd (F := F) m).duties (recvCell c s) 0 \ ∅) (fun d => (Rd (F := F) m).payload (recvCell c s) 0 d) = recvPay m c s := by
  rw [Finset.sdiff_empty, duties_recv m c s hs, bigSep_singleton, payload_recv]

end Sched

/-! ## What each device owes at launch; the levels -/

/-- One unit to the barrier cell of the device `r + 1` places on. -/
def Bt (c : Dev nD) (r : Fin 7) : CellTallies nD τ sig Unit := tallyAt (barCell (shift c (off r))) () 1
/-- A row's credit to that device's receive cell for `c`. -/
def Rt (c : Dev nD) (r : Fin 7) : CellTallies nD τ sig Unit := tallyAt (recvCell (shift c (off r)) c) () N
/-- The seven copies' credits, summed so that the copies peel them in program order, -/
def owedR (c : Dev nD) : CellTallies nD τ sig Unit := Rt c 6 + Rt c 5 + Rt c 4 + Rt c 3 + Rt c 2 + Rt c 1 + Rt c 0
/-- and the seven signals' units before them. -/
def O₀ (c : Dev nD) : CellTallies nD τ sig Unit := owedR c + Bt c 6 + Bt c 5 + Bt c 4 + Bt c 3 + Bt c 2 + Bt c 1 + Bt c 0

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

/-- Every cell's invariant, under the names the launch allocated them at, and that every cell stands at round 0: shared by all. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

/-- The tokens of the duties device `c` pays: per offset, its unit on that device's barrier, its copy's landing on that
    device's receive cell, and the copy's departure on its own send cell. -/
def payToks (c : Dev nD) : sProp 𝕄 :=
  bigSep Finset.univ fun r : Fin 7 =>
    iprop(dutyTok ER (barCell (shift c (off r))) 0 c ∗ dutyTok ER (recvCell (shift c (off r)) c) 0 0 ∗ dutyTok ER (sendCell c (off r)) 0 0)
/-- What stays with device `c`: its position in each of its seventeen cells, and those tokens. -/
def linear (c : Dev nD) : sProp 𝕄 :=
  iprop((bigSep Finset.univ fun j : Fin 17 => atPos ER (kcell (c, j)) 0 ∅ 0) ∗ payToks c)
def G' (c : Dev nD) : sProp 𝕄 := iprop(∃ K, records m K ∗ linear c)
/-- The credit the launch deals device `c`: seven units on its barrier, a row's credit on each receive cell it waits on. -/
def creds (c : Dev nD) : sProp 𝕄 :=
  iprop(cred (tallyAt (barCell c) () 7) ∗ bigSep Finset.univ fun r : Fin 7 => cred (tallyAt (recvCell c (shift c (off r))) () N))
def start (c : Dev nD) : sProp 𝕄 := iprop(G' m c ∗ creds c ∗ levAts L lv)

/-- Before the body: that, and the exchanged array at some contents. -/
def Φ₀ (c : Dev nD) : sProp 𝕄 := iprop(start m c ∗ ∃ f : Buf (Elt F) ((c : Thread nD τ).loc cc0_scratch0), ((c : Thread nD τ).loc cc0_scratch0) ↦{fullShare} f)
/-- After it: the array back whole, and the sixteen own semaphores at zero, out of their cells. -/
def Φ₁ (c : Dev nD) : sProp 𝕄 :=
  iprop((∃ f : Buf (Elt F) ((c : Thread nD τ).loc cc0_scratch0), ((c : Thread nD τ).loc cc0_scratch0) ↦{fullShare} f)
    ∗ Pipeline.ownSems0 (Ix := Unit) (Name := ℕ) (U := UU) (Lvl := ℕ) (Val := Elt F) (τ := τ) osem c)

/-! ## The pipeline's proof data -/

def xstg (c : Dev nD) : (cc0_stg0_0 : Ref sig .tc).ty.Contents (Elt F) :=
  (win0_0.blk (0 : Fin 1)).view.read (Elt F) ((s₀ m ρ).mem ((c : Thread nD τ).loc main_arg0))
/-- The result on every device. -/
def outAt : (cc0_stg1_0 : Ref sig .tc).ty.Contents (Elt F) := Spec.outVal (xblk m)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto
end
-- ==== Proof.Views.lean ====
import proofs.«900921_g7700000000000922_dist_max_ax0_shard0_i_m4096_n1024_v7x_i8_f32_1_alg».proof.Proof.Spec
import proofs.«900921_g7700000000000922_dist_max_ax0_shard0_i_m4096_n1024_v7x_i8_f32_1_alg».proof.Proof.Gen.KernelIdeal.Frame
import proofs.«900921_g7700000000000922_dist_max_ax0_shard0_i_m4096_n1024_v7x_i8_f32_1_alg».proof.Proof.Proto
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Views

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Proto

local notation "𝕄" => MT nD τ sig Unit (Elt F) ℕ UU ℕ

/-! ## Where the program's row views sit in the 8 x 1 x 1024 array -/

/-- Membership in row `s`: the leading coordinate is `s`. -/
theorem mem_rowSet (s : Fin 8) (i : S8x1x1024.Idx) : i ∈ rowSet s ↔ (i 0).val = s.val := by
  unfold rowSet; rw [Finset.mem_filter]; exact ⟨fun h => h.2, fun h => ⟨Finset.mem_univ _, h⟩⟩

/-- The unit-stride rectangle of sizes 1 x 1 x 1024 at offsets `(n, 0, 0)` is the set of indices with leading coordinate `n`:
    the two trailing axes are kept whole (extents 1 and 1024), the leading one is pinned to `n`. -/
theorem unit_row_set (n : Nat) (inb : ∀ a, (![n, 0, 0] : Fin 3 → Nat) a + S1x1x1024.size a ≤ S8x1x1024.size a) :
    (Rect.unit (s := S8x1x1024) ![n, 0, 0] S1x1x1024.size inb).set
      = Finset.univ.filter fun i : S8x1x1024.Idx => (i 0).val = n := by
  ext i
  rw [Rect.mem_set_unit, Finset.mem_filter]
  have h1 : (i 1).val < 1 := (i 1).isLt
  have h2 : (i 2).val < 1024 := (i 2).isLt
  constructor
  · intro h
    have h0 : n ≤ (i 0).val ∧ (i 0).val < n + 1 := h 0
    exact ⟨Finset.mem_univ _, by omega⟩
  · rintro ⟨_, h0⟩ a
    match a with
    | ⟨0, _⟩ => show n ≤ (i 0).val ∧ (i 0).val < n + 1; omega
    | ⟨1, _⟩ => show 0 ≤ (i 1).val ∧ (i 1).val < 0 + 1; omega
    | ⟨2, _⟩ => show 0 ≤ (i 2).val ∧ (i 2).val < 0 + 1024; omega

/-- The same for a rectangle whose offsets are only known to EQUAL `(n, 0, 0)`. -/
theorem unit_row_set_of_eq {off : Fin 3 → Nat} (n : Nat) (h : off = ![n, 0, 0])
    (inb : ∀ a, off a + S1x1x1024.size a ≤ S8x1x1024.size a) :
    (Rect.unit (s := S8x1x1024) off S1x1x1024.size inb).set
      = Finset.univ.filter fun i : S8x1x1024.Idx => (i 0).val = n := by
  subst h; exact unit_row_set n inb

/-- A row view's buffer location on any device is that device's array. -/
theorem ownM_loc (c p : Dev nD) : (ownM c).view.loc (p : Thread nD τ) = (p : Thread nD τ).loc cc0_scratch0 := rfl
theorem peerM_loc (c : Dev nD) (r : Fin 7) (p : Dev nD) : (peerM c r).view.loc (p : Thread nD τ) = (p : Thread nD τ).loc cc0_scratch0 := rfl

/-- The program's own-row view covers exactly row `c`; -/
theorem ownM_set (c : Dev nD) : (ownM c).view.set = rowSet c := by
  show (((View.whole cc0_scratch0).slice (Rect.unit (s := S8x1x1024) (k0_off3 c) S1x1x1024.size (k0_off3_inb c))).reshape S1x1024 _).set = _
  rw [View.set_reshape, View.set_slice_whole]
  exact unit_row_set_of_eq c.val (k0_off3_eq c) _
/-- its view of the row of the device `r + 1` places on covers exactly that row. -/
theorem peerM_set (c : Dev nD) (r : Fin 7) : (peerM c r).view.set = rowSet (shift c (off r)) := by
  show (((View.whole cc0_scratch0).slice (Rect.unit (s := S8x1x1024) (k0_off5 c (BitVec.ofNat 32 (1 + r.val))) S1x1x1024.size (k0_off5_inb c r))).reshape S1x1024 _).set = _
  rw [View.set_reshape, View.set_slice_whole]
  exact unit_row_set_of_eq (shift c (off r)).val (off5_eq c r) _

/-- Every row view moves the same number of units. -/
theorem ownM_credit (c : Dev nD) : (ownM c).view.dmaCredit = N := rfl

/-- The eight rows are pairwise disjoint and cover the array. -/
theorem rowSet_disjoint (s s' : Fin 8) (h : s ≠ s') : Disjoint (rowSet s) (rowSet s') := by
  rw [Finset.disjoint_left]
  intro i hi hi'
  rw [mem_rowSet] at hi hi'
  exact h (Fin.ext (hi.symm.trans hi'))
theorem biUnion_rowSet : (Finset.univ : Finset (Fin 8)).biUnion rowSet = (Finset.univ : Finset S8x1x1024.Idx) := by
  ext i
  simp only [Finset.mem_biUnion, Finset.mem_univ, true_and, iff_true]
  exact ⟨⟨(i 0).val, (i 0).isLt⟩, (mem_rowSet _ _).mpr rfl⟩

/-- A copy of row `c` read from contents `fs` and landed over any contents `fd` leaves, on row `c`, what `fs` has there. -/
theorem landed_row (c : Dev nD) (fd fs : Vec F S8x1x1024 .f32) (i : S8x1x1024.Idx) (hi : i ∈ rowSet c) :
    (ownM c).view.write (Elt F) fd ((ownM c).view.read (Elt F) fs) Finset.univ i = fs i := by
  have hi' : i ∈ (ownM c).view.setOn Finset.univ := by rw [View.setOn_univ, ownM_set]; exact hi
  rw [View.write_read_eq_piecewise]
  exact Finset.piecewise_eq_of_mem _ _ _ hi'

/-- The program's store of its own row: the rectangle it writes is row `c`, -/
theorem ownStore_set (c : Dev nD) :
    (commM.access (Rect.unit (s := S8x1x1024) (k0_off1 c) S1x1x1024.size (k0_off1_inb c))).setOn Finset.univ = rowSet c := by
  rw [View.setOn_univ]
  show ((View.whole cc0_scratch0).slice (Rect.unit (s := S8x1x1024) (k0_off1 c) S1x1x1024.size (k0_off1_inb c))).set = _
  rw [View.set_slice_whole]
  exact unit_row_set_of_eq c.val (k0_off1_eq c) _

/-- The exchanged array at an element `i` of row `c` is device `c`'s row of maxima at `y = (0, 0, j)`, `j` the last coordinate of `i`. -/
theorem commVal_at (X : Dev nD → Vec F S4096x1024 .f32) (i : S8x1x1024.Idx) (c : Fin 8) (y : S1x1x1024.Idx)
    (h0 : (i 0).val = c.val) (hy0 : (y 0).val = 0) (hy1 : (y 1).val = 0) (h2 : (i 2).val = (y 2).val) :
    Spec.commVal X i = k0_pay2 (X c) y := by
  have e1 : (⟨(i 0).val, (i 0).isLt⟩ : Fin 8) = c := Fin.ext h0
  have e2 : ValueIdx.ix3 (0 : Fin 1) (0 : Fin 1) (⟨(i 2).val, (i 2).isLt⟩ : Fin 1024) = y := by
    funext a
    match a with
    | ⟨0, _⟩ => exact Fin.ext (by show 0 = (y 0).val; omega)
    | ⟨1, _⟩ => exact Fin.ext (by show 0 = (y 1).val; omega)
    | ⟨2, _⟩ => exact Fin.ext (by show (i 2).val = (y 2).val; exact h2)
  unfold Spec.commVal
  rw [e1, e2]

/-- A payload stored through the 1 x 1 x 1024 rectangle at offsets equal to `(c, 0, 0)`: the rectangle places its index `y` at
    `(c + y 0, y 1, y 2)` with `y 0 = y 1 = 0`, so the element `(c, 0, j)` of row `c` holds the payload at `(0, 0, j)`. -/
theorem store_val_of_eq (c : Dev nD) {off : Fin 3 → Nat} (hoff : off = ![c.val, 0, 0])
    (inb : ∀ a, off a + S1x1x1024.size a ≤ S8x1x1024.size a)
    (X : Dev nD → Vec F S4096x1024 .f32) (f : Vec F S8x1x1024 .f32) (i : S8x1x1024.Idx) (hi : i ∈ rowSet c) :
    View.write (Elt F) (commM.access (Rect.unit (s := S8x1x1024) off S1x1x1024.size inb)) f (k0_pay2 (X c)) Finset.univ i
      = Spec.commVal X i := by
  subst hoff
  have hi' : i ∈ (commM.access (Rect.unit (s := S8x1x1024) ![c.val, 0, 0] S1x1x1024.size inb)).set := by
    show i ∈ ((View.whole cc0_scratch0).slice (Rect.unit (s := S8x1x1024) ![c.val, 0, 0] S1x1x1024.size inb)).set
    rw [View.set_slice_whole, unit_row_set]; exact hi
  obtain ⟨y, rfl⟩ := View.exists_emb_of_mem_set _ hi'
  rw [View.write_emb_of_mem _ _ (Finset.mem_univ y)]
  have y0 : (y 0).val < 1 := (y 0).isLt
  have y1 : (y 1).val < 1 := (y 1).isLt
  refine Eq.trans ?_ (commVal_at X _ c y (by show c.val + 1 * (y 0).val = c.val; omega) (by omega) (by omega)
    (by show 0 + 1 * (y 2).val = (y 2).val; omega)).symm
  generalize k0_pay2 (X c) y = w
  exact cast_eq _ w
/-- and on that row the array then holds the exchanged array's row `c`, when `x` is device `c`'s block. -/
theorem ownStore_val (c : Dev nD) (X : Dev nD → Vec F S4096x1024 .f32) (f : Vec F S8x1x1024 .f32) (i : S8x1x1024.Idx) (hi : i ∈ rowSet c) :
    View.write (Elt F) (commM.access (Rect.unit (s := S8x1x1024) (k0_off1 c) S1x1x1024.size (k0_off1_inb c))) f (k0_pay2 (X c)) Finset.univ i
      = Spec.commVal X i :=
  store_val_of_eq c (k0_off1_eq c) (k0_off1_inb c) X f i hi

/-- Reading a whole staging buffer or the whole array through the all-zero rectangle is the contents. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The elements the program's load of its own row reads lie in row `c`: through the whole array a set of indices is itself. -/
theorem ownLoad_sub (c : Dev nD) :
    commM.view.setOn (Rect.unit (s := S8x1x1024) (k0_off1 c) S1x1x1024.size (k0_off1_inb c)).toLoadRect.set ⊆ rowSet c := by
  intro i hi
  have h : i ∈ (Rect.unit (s := S8x1x1024) (k0_off1 c) S1x1x1024.size (k0_off1_inb c)).set := by
    obtain ⟨x, hx, rfl⟩ := Finset.mem_map.mp hi; exact hx
  rw [unit_row_set_of_eq c.val (k0_off1_eq c)] at h
  exact h

/-- The block the pipeline fetches of a whole-array window is the array. -/
theorem xstg_eq (m : (ℓ : Loc nD τ sig) → Buf (Elt F) ℓ) (ρ : Dev nD → PrngReg) (c : Dev nD) : xstg m ρ c = xblk m c := by
  unfold xstg xblk
  exact Memref.read_access_unit_zero (Elt F) main_arg0 (funext fun a => by fin_cases a <;> rfl) _ _

end Cert.KernelIdeal.Views
end
-- ==== Proof.Regroup.lean ====
import proofs.«900921_g7700000000000922_dist_max_ax0_shard0_i_m4096_n1024_v7x_i8_f32_1_alg».proof.Proof.Spec
import proofs.«900921_g7700000000000922_dist_max_ax0_shard0_i_m4096_n1024_v7x_i8_f32_1_alg».proof.Proof.Gen.KernelIdeal.Frame
import proofs.«900921_g7700000000000922_dist_max_ax0_shard0_i_m4096_n1024_v7x_i8_f32_1_alg».proof.Proof.Proto
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Regroup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Proto

local notation "𝕄" => MT nD τ sig Unit (Elt F) ℕ UU ℕ

variable (m : (ℓ : Loc nD τ sig) → Buf (Elt F) ℓ)

/-! ## Conjunctions over the seven offsets, the eight rows and the seventeen cells, re-indexed -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Over the eight devices: device `c` itself, then the devices 1 … 7 places on. -/
theorem bigSep_fin8_own (c : Fin 8) (Φ : Fin 8 → sProp 𝕄) :
    bigSep Finset.univ Φ = iprop(Φ c ∗ bigSep Finset.univ fun r : Fin 7 => Φ (shift c (off r))) := by
  rw [BI.bigSep_erase (Finset.mem_univ c), erase_eq_map c, bigSep_map]
  rfl

omit [FloatOps F] in
/-- Over the eight offsets: offset 0, then the offsets 1 … 7. -/
theorem bigSep_fin8_off (Φ : Fin 8 → sProp 𝕄) :
    bigSep Finset.univ Φ = iprop(Φ 0 ∗ bigSep Finset.univ fun r : Fin 7 => Φ (off r)) := by
  rw [bigSep_univ_eq_bigSepL [0, 1, 2, 3, 4, 5, 6, 7] (by decide) (by decide) Φ, bigSep_fin7]
  rfl

/-- Where each cell sits among a device's seventeen. -/
def jsend (k : Fin 8) : Fin 17 := ⟨1 + k.val, by omega⟩
def jrecv (s : Fin 8) : Fin 17 := ⟨9 + s.val, by omega⟩
theorem kcell_bar (p : Dev nD) : kcell (p, (0 : Fin 17)) = barCell p := by
  refine congrArg (Prod.mk (p : Thread nD τ)) ?_
  unfold csem
  exact dif_pos rfl
theorem kcell_send (c : Dev nD) (k : Fin 8) : kcell (c, jsend k) = sendCell c k := by
  refine congrArg (Prod.mk (c : Thread nD τ)) ?_
  unfold csem
  rw [dif_neg (by show ¬ (1 + k.val = 0); omega)]
  exact congrArg (fun j => SemLoc.dma (ownSem j)) (Fin.ext (by show 1 + k.val - 1 = k.val; omega))
theorem kcell_recv (c : Dev nD) (s : Fin 8) : kcell (c, jrecv s) = recvCell c s := by
  refine congrArg (Prod.mk (c : Thread nD τ)) ?_
  unfold csem
  rw [dif_neg (by show ¬ (9 + s.val = 0); omega)]
  exact congrArg (fun j => SemLoc.dma (ownSem j)) (Fin.ext (by show 9 + s.val - 1 = 8 + s.val; omega))

omit [FloatOps F] in
/-- A chain over two lists one after the other is the two chains, conjoined. -/
theorem bigSepL_append {I : Type} (l₁ l₂ : List I) (Φ : I → sProp 𝕄) :
    bigSepL (l₁ ++ l₂) Φ = iprop(bigSepL l₁ Φ ∗ bigSepL l₂ Φ) := by
  induction l₁ with
  | nil => exact (equiv_iff.mp emp_sep).symm
  | cons i l ih =>
    rw [List.cons_append, bigSepL_cons, bigSepL_cons, ih]
    exact (BI.sep_assoc.antisymm BI.sep_assoc').symm

omit [FloatOps F] in
/-- A device's seventeen cells: the barrier cell, the eight send cells, the eight receive cells. -/
theorem bigSep_cells (c : Dev nD) (Ψ : GSem nD τ sig → sProp 𝕄) :
    bigSep Finset.univ (fun j : Fin 17 => Ψ (kcell (c, j)))
      = iprop(Ψ (barCell c) ∗ (bigSep Finset.univ fun k : Fin 8 => Ψ (sendCell c k)) ∗ bigSep Finset.univ fun s : Fin 8 => Ψ (recvCell c s)) := by
  rw [bigSep_univ_eq_bigSepL [0, 1, 2, 3, 4, 5, 6, 7, 8, 9, 10, 11, 12, 13, 14, 15, 16] (by decide) (by decide)
      (fun j : Fin 17 => Ψ (kcell (c, j))),
    bigSep_univ_eq_bigSepL [0, 1, 2, 3, 4, 5, 6, 7] (by decide) (by decide) (fun k : Fin 8 => Ψ (sendCell c k)),
    bigSep_univ_eq_bigSepL [0, 1, 2, 3, 4, 5, 6, 7] (by decide) (by decide) (fun s : Fin 8 => Ψ (recvCell c s)),
    show ([0, 1, 2, 3, 4, 5, 6, 7, 8, 9, 10, 11, 12, 13, 14, 15, 16] : List (Fin 17))
      = [0] ++ ([1, 2, 3, 4, 5, 6, 7, 8] ++ [9, 10, 11, 12, 13, 14, 15, 16]) from rfl,
    bigSepL_append, bigSepL_append]
  rfl

omit [FloatOps F] in
/-- Its sixteen own cells: the eight send cells, the eight receive cells. -/
theorem bigSep_own (c : Dev nD) (Ψ : GSem nD τ sig → sProp 𝕄) :
    bigSep Finset.univ (fun j : Fin 16 => Ψ (ownCell c j))
      = iprop((bigSep Finset.univ fun k : Fin 8 => Ψ (sendCell c k)) ∗ bigSep Finset.univ fun s : Fin 8 => Ψ (recvCell c s)) := by
  rw [bigSep_univ_eq_bigSepL [0, 1, 2, 3, 4, 5, 6, 7, 8, 9, 10, 11, 12, 13, 14, 15] (by decide) (by decide)
      (fun j : Fin 16 => Ψ (ownCell c j)),
    bigSep_univ_eq_bigSepL [0, 1, 2, 3, 4, 5, 6, 7] (by decide) (by decide) (fun k : Fin 8 => Ψ (sendCell c k)),
    bigSep_univ_eq_bigSepL [0, 1, 2, 3, 4, 5, 6, 7] (by decide) (by decide) (fun s : Fin 8 => Ψ (recvCell c s))]
  rw [show ([0, 1, 2, 3, 4, 5, 6, 7, 8, 9, 10, 11, 12, 13, 14, 15] : List (Fin 16))
      = [0, 1, 2, 3, 4, 5, 6, 7] ++ [8, 9, 10, 11, 12, 13, 14, 15] from rfl, bigSepL_append]
  rfl

/-! ## Closing the sixteen own cells -/

/-- The round each own cell ends at: 1 where it had its one duty, 0 where the program never uses it. -/
def sendFin (k : Fin 8) : ℕ := if k = 0 then 0 else 1
def recvFin (c s : Fin 8) : ℕ := if s = c then 0 else 1

omit [FloatOps F] in
/-- Under a persistent fact, a conjunction maps member by member. -/
theorem bigSep_under_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  refine (Entails.of_eq (bigSep_sep' S (fun _ => R) Φ).symm).trans ?_
  exact bigSep_mono h

/-- One cell's invariant out of the records. -/
theorem records_inv (K : Dev nD × Fin 17 → ℕ) (ck : Dev nD × Fin 17) : records m K ⊢ cellInv ER (Rd m) (K ck) (kcell ck) := by
  unfold records
  exact sep_elim_left.trans (bigSep_elim (Finset.mem_univ ck))

/-- A send cell past its last round closes: cell 0 has no duty at all, the others none from round 1 on. -/
theorem close_send (c : Dev nD) (K : Dev nD × Fin 17 → ℕ) (k : Fin 8) :
    iprop(records m K ∗ atPos ER (sendCell c k) (sendFin k) ∅ 0) ⊢ iprop(|={Set.univ}=> (semVal (sendCell c k) 0 : sProp 𝕄)) := by
  have hlater : ∀ r, sendFin k ≤ r → (Rd (F := F) m).duties (sendCell c k) r = ∅ := by
    intro r hr
    by_cases hk : k = 0
    · subst hk
      rcases Nat.eq_zero_or_pos r with rfl | hpos
      · exact duties_send0 m c
      · exact duties_later m _ r hpos
    · have e : sendFin k = 1 := if_neg hk
      exact duties_later m _ r (by omega)
  refine (sep_mono_left ((records_inv m K (c, jsend k)).trans (Entails.of_eq (by rw [kcell_send])))).trans ?_
  exact Rounds.cell_close ER (Rd m) (Set.mem_univ _) (fun h => h) hlater

/-- A receive cell past its last round closes: the device's own has no duty at all, the others none from round 1 on. -/
theorem close_recv (c : Dev nD) (K : Dev nD × Fin 17 → ℕ) (s : Fin 8) :
    iprop(records m K ∗ atPos ER (recvCell c s) (recvFin c s) ∅ 0) ⊢ iprop(|={Set.univ}=> (semVal (recvCell c s) 0 : sProp 𝕄)) := by
  have hlater : ∀ r, recvFin c s ≤ r → (Rd (F := F) m).duties (recvCell c s) r = ∅ := by
    intro r hr
    by_cases hs : s = c
    · subst hs
      rcases Nat.eq_zero_or_pos r with rfl | hpos
      · exact duties_recv_own m s
      · exact duties_later m _ r hpos
    · have e : recvFin c s = 1 := if_neg hs
      exact duties_later m _ r (by omega)
  refine (sep_mono_left ((records_inv m K (c, jrecv s)).trans (Entails.of_eq (by rw [kcell_recv])))).trans ?_
  exact Rounds.cell_close ER (Rd m) (Set.mem_univ _) (fun h => h) hlater

/-- Every own cell, standing past its last round with nothing taken, gives its semaphore back at zero. -/
theorem close_own (c : Dev nD) (K : Dev nD × Fin 17 → ℕ) :
    iprop(records m K ∗ (bigSep Finset.univ fun k : Fin 8 => atPos ER (sendCell c k) (sendFin k) ∅ 0)
        ∗ bigSep Finset.univ fun s : Fin 8 => atPos ER (recvCell c s) (recvFin c s) ∅ 0)
      ⊢ |={Set.univ}=> (Pipeline.ownSems0 (Ix := Unit) (Name := ℕ) (U := UU) (Lvl := ℕ) (Val := Elt F) (τ := τ) osem c : sProp 𝕄) := by
  have hS : iprop(records m K ∗ bigSep Finset.univ fun k : Fin 8 => atPos ER (sendCell c k) (sendFin k) ∅ 0)
      ⊢ iprop(|={Set.univ}=> bigSep Finset.univ fun k : Fin 8 => (semVal (sendCell c k) 0 : sProp 𝕄)) :=
    (bigSep_under_persistent (R := records m K) fun k _ => close_send m c K k).trans (bigSep_fupd _ _)
  have hR : iprop(records m K ∗ bigSep Finset.univ fun s : Fin 8 => atPos ER (recvCell c s) (recvFin c s) ∅ 0)
      ⊢ iprop(|={Set.univ}=> bigSep Finset.univ fun s : Fin 8 => (semVal (recvCell c s) 0 : sProp 𝕄)) :=
    (bigSep_under_persistent (R := records m K) fun s _ => close_recv m c K s).trans (bigSep_fupd _ _)
  have hO : (Pipeline.ownSems0 (Ix := Unit) (Name := ℕ) (U := UU) (Lvl := ℕ) (Val := Elt F) (τ := τ) osem c : sProp 𝕄)
      = iprop((bigSep Finset.univ fun k : Fin 8 => (semVal (sendCell c k) 0 : sProp 𝕄))
          ∗ bigSep Finset.univ fun s : Fin 8 => (semVal (recvCell c s) 0 : sProp 𝕄)) :=
    bigSep_own c (fun g => (semVal g 0 : sProp 𝕄))
  rw [hO]
  iintro ⟨#HR, Hs, Hr⟩
  iapply fupd_sep
  isplitl [Hs]
  · iapply hS
    isplitr
    · iexact HR
    · iexact Hs
  · iapply hR
    isplitr
    · iexact HR
    · iexact Hr

/-- One cell's invariant, and that it stands at round 0, out of the records. -/
theorem inv_at (K : Dev nD × Fin 17 → ℕ) (ck : Dev nD × Fin 17) : records m K ⊢ cellInv ER (Rd m) (K ck) (kcell ck) :=
  records_inv m K ck
theorem reached_at (K : Dev nD × Fin 17 → ℕ) (ck : Dev nD × Fin 17) : records m K ⊢ reached ER (kcell ck) 0 := by
  unfold records
  exact sep_elim_right.trans (bigSep_elim (Finset.mem_univ ck))

end Cert.KernelIdeal.Regroup
end
-- ==== Proof.Body.lean ====
import proofs.«900921_g7700000000000922_dist_max_ax0_shard0_i_m4096_n1024_v7x_i8_f32_1_alg».proof.Proof.Spec
import proofs.«900921_g7700000000000922_dist_max_ax0_shard0_i_m4096_n1024_v7x_i8_f32_1_alg».proof.Proof.Gen.KernelIdeal.Frame
import proofs.«900921_g7700000000000922_dist_max_ax0_shard0_i_m4096_n1024_v7x_i8_f32_1_alg».proof.Proof.Proto
import proofs.«900921_g7700000000000922_dist_max_ax0_shard0_i_m4096_n1024_v7x_i8_f32_1_alg».proof.Proof.Views
import proofs.«900921_g7700000000000922_dist_max_ax0_shard0_i_m4096_n1024_v7x_i8_f32_1_alg».proof.Proof.Regroup
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Proto Cert.KernelIdeal.Views Cert.KernelIdeal.Regroup

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## Small facts the body uses -/

theorem Rt_pos {c : Dev nD} {r : Fin 7} {g : GSem nD τ sig} {u : Unit} (h : 0 < Rt c r g u) : g = recvCell (shift c (off r)) c :=
  (Pipeline.tallyAt_pos h).1

/-- What a device still owes at its barrier wait is owed to receive cells only. -/
theorem owedR_pos {c : Dev nD} {g : GSem nD τ sig} {u : Unit} (h : 0 < owedR c g u) : ∃ r : Fin 7, g = recvCell (shift c (off r)) c := by
  unfold owedR at h
  rcases Pipeline.add_pos_cases h with h | h
  swap; · exact ⟨0, Rt_pos h⟩
  rcases Pipeline.add_pos_cases h with h | h
  swap; · exact ⟨1, Rt_pos h⟩
  rcases Pipeline.add_pos_cases h with h | h
  swap; · exact ⟨2, Rt_pos h⟩
  rcases Pipeline.add_pos_cases h with h | h
  swap; · exact ⟨3, Rt_pos h⟩
  rcases Pipeline.add_pos_cases h with h | h
  swap; · exact ⟨4, Rt_pos h⟩
  rcases Pipeline.add_pos_cases h with h | h
  swap; · exact ⟨5, Rt_pos h⟩
  exact ⟨6, Rt_pos h⟩

omit [FloatOps F] in
/-- The barrier cell sits below every receive cell: a device may wait on its barrier while it owes the seven copies. -/
theorem mayWait_bar (c : Dev nD) : (levAts L lv : sProp 𝕄) ⊢ MayWait (c : Thread nD τ) (.reg barS) () (owedR c) :=
  Pipeline.mayWait_of_levAts (by rw [L_tc]; exact Finset.mem_singleton_self _) (fun g u hg => by
    obtain ⟨r, rfl⟩ := owedR_pos hg
    refine ⟨by rw [L_tc]; exact Finset.mem_singleton_self _, ?_⟩
    show (1 : ℕ) < (if 10 ≤ 2 + (8 + c.val) then 2 else 0)
    rw [if_pos (by omega)]; decide)

theorem recvFin_peer (c : Dev nD) (r : Fin 7) : recvFin c (shift c (off r)) = 1 := if_neg (shift_off_ne c r)
theorem recvFin_own (c : Dev nD) : recvFin c c = 0 := if_pos rfl
theorem sendFin_off (r : Fin 7) : sendFin (off r) = 1 := if_neg (off_ne_zero r)
theorem sendFin_zero : sendFin 0 = 0 := if_pos rfl

/-- One cell's invariant and standing, by the cell's own name. -/
theorem inv_bar (K : Dev nD × Fin 17 → ℕ) (p : Dev nD) : records m K ⊢ cellInv ER (Rd m) (K (p, 0)) (barCell p) :=
  (inv_at m K (p, 0)).trans (Entails.of_eq (by rw [kcell_bar]))
theorem inv_send (K : Dev nD × Fin 17 → ℕ) (c : Dev nD) (k : Fin 8) : records m K ⊢ cellInv ER (Rd m) (K (c, jsend k)) (sendCell c k) :=
  (inv_at m K (c, jsend k)).trans (Entails.of_eq (by rw [kcell_send]))
theorem inv_recv (K : Dev nD × Fin 17 → ℕ) (c : Dev nD) (s : Fin 8) : records m K ⊢ cellInv ER (Rd m) (K (c, jrecv s)) (recvCell c s) :=
  (inv_at m K (c, jrecv s)).trans (Entails.of_eq (by rw [kcell_recv]))
theorem reached_bar (K : Dev nD × Fin 17 → ℕ) (p : Dev nD) : records m K ⊢ reached ER (barCell p) 0 :=
  (reached_at m K (p, 0)).trans (Entails.of_eq (by rw [kcell_bar]))
theorem reached_send (K : Dev nD × Fin 17 → ℕ) (c : Dev nD) (k : Fin 8) : records m K ⊢ reached ER (sendCell c k) 0 :=
  (reached_at m K (c, jsend k)).trans (Entails.of_eq (by rw [kcell_send]))
theorem reached_recv (K : Dev nD × Fin 17 → ℕ) (c : Dev nD) (s : Fin 8) : records m K ⊢ reached ER (recvCell c s) 0 :=
  (reached_at m K (c, jrecv s)).trans (Entails.of_eq (by rw [kcell_recv]))

omit [FloatOps F] in
/-- A device's array, whole, is its eight rows. -/
theorem rows_split (p : Dev nD) (q : PosShare TreeShare) (f : Vec F S8x1x1024 .f32) :
    (((p : Thread nD τ).loc cc0_scratch0) ↦{q} f : sProp 𝕄) = bigSep Finset.univ fun s : Fin 8 => rowsPts p (rowSet s) q f := by
  unfold rowsPts
  refine Eq.trans ?_ (pointsTo_biUnion (ℓ := ((p : Thread nD τ).loc cc0_scratch0)) (q := q) (f := f) Finset.univ (fun s : Fin 8 => rowSet s)
    (fun s _ s' _ h => rowSet_disjoint s s' h))
  exact congrArg (fun S => ((((p : Thread nD τ).loc cc0_scratch0) ↦[S]{q} f : sProp 𝕄))) biUnion_rowSet.symm

/-! ## One copy: device `c` sends its row to the device `r + 1` places on -/

theorem wp_send_row (c : Dev nD) (r : Fin 7) (n : Dev nD) (hn : n = shift c (off r)) (sS sR : DmaSem sig) (hS : sS = sendSem (off r)) (hR : sR = recvSem c)
    {hsc : (ownM c : Memref sig (Dev.tc n : Thread nD τ).2.kind .vmem S1x1024 .f32).view.ref.isScScratch = false}
    {hsrc : (ownM c).view.WordExact} {hdst : (ownM c).view.WordExact}
    {hsem : DmaTarget.Typed .vmem (.dma sR) (.remote (Dev.tc n : Thread nD τ) (ownM c) (.dma sS) hsc)}
    {α : Type} {Q : α → sProp 𝕄} {k : PUnit → Prog (TpuEff nD τ sig (Elt F) Λ₀ .tc) α}
    (fd : Vec F S8x1x1024 .f32) (Oin O : CellTallies nD τ sig Unit) (hO : Oin = O + Rt c r) (W : Waits sig Unit) (κ₁ κ₂ : ℕ) :
    iprop(cellInv ER (Rd m) κ₁ (sendCell c (off r)) ∗ cellInv ER (Rd m) κ₂ (recvCell (shift c (off r)) c)
        ∗ rowsPts c (rowSet c) (Transfers.shareTok fullShare 8 (off r)) (comm m) ∗ rowsPts (shift c (off r)) (rowSet c) fullShare fd
        ∗ owes (c : Thread nD τ) Oin W
        ∗ dutyTok ER (sendCell c (off r)) 0 0 ∗ reached ER (sendCell c (off r)) 0
        ∗ dutyTok ER (recvCell (shift c (off r)) c) 0 0 ∗ reached ER (recvCell (shift c (off r)) c) 0)
      ⊢ iprop(((cred (tallyAt (sendCell c (off r)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownM c) (.remote (Dev.tc n : Thread nD τ) (ownM c) (.dma sS) hsc) (.dma sR) hsrc hdst hsem) k) Q) := by
  subst hn; subst hS; subst hR; subst hO
  unfold rowsPts
  rw [← ownM_set c]
  exact Rounds.wp_send_pointsTo 𝒱₀ ER (Rd m) (c : Thread nD τ) none (c' := (shift c (off r) : Thread nD τ)) (src := ownM c) (dst := ownM c)
    (sS := .dma (sendSem (off r))) (sem := .dma (recvSem c)) (q := Transfers.shareTok fullShare 8 (off r)) (fs := comm m) (κ₁ := κ₁) (κ₂ := κ₂)
    (r₁ := 0) (r₂ := 0) (d₁ := 0) (d₂ := 0) (fd := fd)
    (by rw [duties_send]; exact Finset.mem_singleton_self _) (by rw [duties_recv m _ _ (shift_off_ne c r).symm]; exact Finset.mem_singleton_self _)
    () () N rfl rfl rfl O rfl (W := W)
    (by rw [payload_send]; unfold sendPay rowsPts; rw [ownM_set c])
    (by rw [payload_recv]; unfold recvPay rowsPts; rw [ownM_set c]
        exact Entails.of_eq (pointsTo_congr fun i hi => landed_row c fd (comm m) i hi))

/-! ## Rows of the array: the forms the rules take and give -/

omit [FloatOps F] in
theorem rows_raw (p : Dev nD) (S : Finset S8x1x1024.Idx) (q : PosShare TreeShare) (f : Vec F S8x1x1024 .f32) :
    rowsPts p S q f = ((View.loc (p : Thread nD τ) commM.view ↦[S]{q} f : sProp 𝕄)) := rfl

omit [FloatOps F] in
/-- The same through the rectangle the program's store of its own row names. -/
theorem rows_acc (c : Dev nD) (S : Finset S8x1x1024.Idx) (q : PosShare TreeShare) (f : Vec F S8x1x1024 .f32) :
    rowsPts c S q f = ((View.loc (c : Thread nD τ) (commM.access (Rect.unit (s := S8x1x1024) (k0_off1 c) S1x1x1024.size (k0_off1_inb c))) ↦[S]{q} f : sProp 𝕄)) := rfl

omit [FloatOps F] in
theorem rows_toks_split (p : Dev nD) (S : Finset S8x1x1024.Idx) (f : Vec F S8x1x1024 .f32) :
    rowsPts p S fullShare f ⊢ (iprop(rowsPts p S (Transfers.shareDrop fullShare 8) f ∗ bigSep Finset.univ fun k : Fin 8 => rowsPts p S (Transfers.shareTok fullShare 8 k) f) : sProp 𝕄) := by
  unfold rowsPts; exact Transfers.pointsTo_toks_split fullShare 8
omit [FloatOps F] in
theorem rows_toks_join (p : Dev nD) (S : Finset S8x1x1024.Idx) (f : Vec F S8x1x1024 .f32) :
    (iprop(rowsPts p S (Transfers.shareDrop fullShare 8) f ∗ bigSep Finset.univ fun k : Fin 8 => rowsPts p S (Transfers.shareTok fullShare 8 k) f) : sProp 𝕄) ⊢ rowsPts p S fullShare f := by
  unfold rowsPts; exact Transfers.pointsTo_toks_join fullShare 8

/-! ## The body -/

section Body

variable (K : Dev nD × Fin 17 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m K ∗ linear c ∗ creds c ∗ levAts L lv ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m))

theorem fetch_0 (t : Fin cfg0.N) : (cfg0.win (0 : Fin 2)).fetch t = true := by rw [fin_N t]; rfl

abbrev r2 : Rect S4096x1024 := Rect.unit (s := S4096x1024) ![0, 0] S4096x1024.size inb_S4096x1024_S4096x1024_0_0
abbrev ro : Rect S1x1024 := Rect.unit (s := S1x1024) ![0, 0] S1x1024.size inb_S1x1024_S1x1024_0_0
abbrev r3 : Rect S8x1x1024 := Rect.unit (s := S8x1x1024) ![0, 0, 0] S8x1x1024.size inb_S8x1x1024_S8x1x1024_0_0_0
abbrev rown (c : Dev nD) : Rect S8x1x1024 := Rect.unit (s := S8x1x1024) (k0_off1 c) S1x1x1024.size (k0_off1_inb c)

omit [FloatOps F] in
theorem read_x (f : (cc0_stg0_0 : Ref sig .tc).ty.Contents (Elt F)) : (Memref.whole cc0_stg0_0 : Memref sig .tc .vmem S4096x1024 .f32).view.readAt (Elt F) r2.toLoadRect f = f :=
  Memref.readAt_unit_zero (Elt F) cc0_stg0_0 hz2 _ f
omit [FloatOps F] in
theorem read_comm (f : (cc0_scratch0 : Ref sig .tc).ty.Contents (Elt F)) : (commM : Memref sig .tc .vmem S8x1x1024 .f32).view.readAt (Elt F) r3.toLoadRect f = f :=
  Memref.readAt_unit_zero (Elt F) cc0_scratch0 hz3 _ f
omit [FloatOps F] in
theorem write_out (f w : (cc0_stg1_0 : Ref sig .tc).ty.Contents (Elt F)) :
    ((Memref.whole cc0_stg1_0 : Memref sig .tc .vmem S1x1024 .f32).access ro : View sig .tc _ _ _).write (Elt F) f w Finset.univ = w :=
  Memref.write_access_unit_zero_univ (Elt F) cc0_stg1_0 hz2 _ f w

theorem recvSem_w0 (c : Dev nD) : ((cc0_scratch2.slice (Rect.unit (s := S8) (k0_off4 c 1#32) S1.size (k0_off4_inb c 0))).squeeze S_ squeezes_S1_S_).sem = recvSem (shift c (off 0)) := recvSem_peer_eq c 0
theorem recvSem_w1 (c : Dev nD) : ((cc0_scratch2.slice (Rect.unit (s := S8) (k0_off4 c 2#32) S1.size (k0_off4_inb c 1))).squeeze S_ squeezes_S1_S_).sem = recvSem (shift c (off 1)) := recvSem_peer_eq c 1
theorem recvSem_w2 (c : Dev nD) : ((cc0_scratch2.slice (Rect.unit (s := S8) (k0_off4 c 3#32) S1.size (k0_off4_inb c 2))).squeeze S_ squeezes_S1_S_).sem = recvSem (shift c (off 2)) := recvSem_peer_eq c 2
theorem recvSem_w3 (c : Dev nD) : ((cc0_scratch2.slice (Rect.unit (s := S8) (k0_off4 c 4#32) S1.size (k0_off4_inb c 3))).squeeze S_ squeezes_S1_S_).sem = recvSem (shift c (off 3)) := recvSem_peer_eq c 3
theorem recvSem_w4 (c : Dev nD) : ((cc0_scratch2.slice (Rect.unit (s := S8) (k0_off4 c 5#32) S1.size (k0_off4_inb c 4))).squeeze S_ squeezes_S1_S_).sem = recvSem (shift c (off 4)) := recvSem_peer_eq c 4
theorem recvSem_w5 (c : Dev nD) : ((cc0_scratch2.slice (Rect.unit (s := S8) (k0_off4 c 6#32) S1.size (k0_off4_inb c 5))).squeeze S_ squeezes_S1_S_).sem = recvSem (shift c (off 5)) := recvSem_peer_eq c 5
theorem recvSem_w6 (c : Dev nD) : ((cc0_scratch2.slice (Rect.unit (s := S8) (k0_off4 c 7#32) S1.size (k0_off4_inb c 6))).squeeze S_ squeezes_S1_S_).sem = recvSem (shift c (off 6)) := recvSem_peer_eq c 6

set_option maxHeartbeats 4000000 in
set_option maxRecDepth 65536 in
/-- The body on device `c`, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [semSignalWord, semWaitWord, Prog.lift, Prog.bind_op, Prog.bind_ret, Prog.pure_eq_ret, wp_deviceId]
  unfold bodyPre linear payToks creds
  iintro ⟨⟨⟨#Hrec, ⟨Hat, Htok⟩, ⟨HcB, HcR⟩, #Hlev, ⟨%f0, Hcomm⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  -- the positions, the tokens and the credit, offset by offset
  ihave Hat' := (Entails.of_eq (bigSep_cells c fun g => (atPos ER g 0 ∅ 0 : sProp 𝕄))) $$ Hat
  icases Hat' with ⟨HatB, HatS, HatR⟩
  ihave HatS' := (Entails.of_eq ((bigSep_fin8_off fun k => (atPos ER (sendCell c k) 0 ∅ 0 : sProp 𝕄)).trans (congrArg _ (bigSep_fin7 _)))) $$ HatS
  icases HatS' with ⟨HatS0, HatS_0, HatS_1, HatS_2, HatS_3, HatS_4, HatS_5, HatS_6⟩
  ihave HatR' := (Entails.of_eq ((bigSep_fin8_own c fun s => (atPos ER (recvCell c s) 0 ∅ 0 : sProp 𝕄)).trans (congrArg _ (bigSep_fin7 _)))) $$ HatR
  icases HatR' with ⟨HatRc, HatR_0, HatR_1, HatR_2, HatR_3, HatR_4, HatR_5, HatR_6⟩
  ihave Htok' := (Entails.of_eq (bigSep_fin7 _)) $$ Htok
  icases Htok' with ⟨⟨HtB_0, HtR_0, HtS_0⟩, ⟨HtB_1, HtR_1, HtS_1⟩, ⟨HtB_2, HtR_2, HtS_2⟩, ⟨HtB_3, HtR_3, HtS_3⟩, ⟨HtB_4, HtR_4, HtS_4⟩, ⟨HtB_5, HtR_5, HtS_5⟩, ⟨HtB_6, HtR_6, HtS_6⟩⟩
  ihave HcR' := (Entails.of_eq (bigSep_fin7 _)) $$ HcR
  icases HcR' with ⟨HcR_0, HcR_1, HcR_2, HcR_3, HcR_4, HcR_5, HcR_6⟩
  -- the array, row by row
  ihave Hrows := (Entails.of_eq ((rows_split c fullShare f0).trans ((bigSep_fin8_own c _).trans (congrArg _ (bigSep_fin7 _))))) $$ Hcomm
  icases Hrows with ⟨Hrow_c, Hrow_0, Hrow_1, Hrow_2, Hrow_3, Hrow_4, Hrow_5, Hrow_6⟩
  ihave #HIbp_0 := (inv_bar m K (shift c (off 0))) $$ Hrec
  ihave #HIrp_0 := (inv_recv m K (shift c (off 0)) c) $$ Hrec
  ihave #HIs_0 := (inv_send m K c (off 0)) $$ Hrec
  ihave #HIr_0 := (inv_recv m K c (shift c (off 0))) $$ Hrec
  ihave #HRbp_0 := (reached_bar m K (shift c (off 0))) $$ Hrec
  ihave #HRrp_0 := (reached_recv m K (shift c (off 0)) c) $$ Hrec
  ihave #HRs_0 := (reached_send m K c (off 0)) $$ Hrec
  ihave #HRr_0 := (reached_recv m K c (shift c (off 0))) $$ Hrec
  ihave #HIbp_1 := (inv_bar m K (shift c (off 1))) $$ Hrec
  ihave #HIrp_1 := (inv_recv m K (shift c (off 1)) c) $$ Hrec
  ihave #HIs_1 := (inv_send m K c (off 1)) $$ Hrec
  ihave #HIr_1 := (inv_recv m K c (shift c (off 1))) $$ Hrec
  ihave #HRbp_1 := (reached_bar m K (shift c (off 1))) $$ Hrec
  ihave #HRrp_1 := (reached_recv m K (shift c (off 1)) c) $$ Hrec
  ihave #HRs_1 := (reached_send m K c (off 1)) $$ Hrec
  ihave #HRr_1 := (reached_recv m K c (shift c (off 1))) $$ Hrec
  ihave #HIbp_2 := (inv_bar m K (shift c (off 2))) $$ Hrec
  ihave #HIrp_2 := (inv_recv m K (shift c (off 2)) c) $$ Hrec
  ihave #HIs_2 := (inv_send m K c (off 2)) $$ Hrec
  ihave #HIr_2 := (inv_recv m K c (shift c (off 2))) $$ Hrec
  ihave #HRbp_2 := (reached_bar m K (shift c (off 2))) $$ Hrec
  ihave #HRrp_2 := (reached_recv m K (shift c (off 2)) c) $$ Hrec
  ihave #HRs_2 := (reached_send m K c (off 2)) $$ Hrec
  ihave #HRr_2 := (reached_recv m K c (shift c (off 2))) $$ Hrec
  ihave #HIbp_3 := (inv_bar m K (shift c (off 3))) $$ Hrec
  ihave #HIrp_3 := (inv_recv m K (shift c (off 3)) c) $$ Hrec
  ihave #HIs_3 := (inv_send m K c (off 3)) $$ Hrec
  ihave #HIr_3 := (inv_recv m K c (shift c (off 3))) $$ Hrec
  ihave #HRbp_3 := (reached_bar m K (shift c (off 3))) $$ Hrec
  ihave #HRrp_3 := (reached_recv m K (shift c (off 3)) c) $$ Hrec
  ihave #HRs_3 := (reached_send m K c (off 3)) $$ Hrec
  ihave #HRr_3 := (reached_recv m K c (shift c (off 3))) $$ Hrec
  ihave #HIbp_4 := (inv_bar m K (shift c (off 4))) $$ Hrec
  ihave #HIrp_4 := (inv_recv m K (shift c (off 4)) c) $$ Hrec
  ihave #HIs_4 := (inv_send m K c (off 4)) $$ Hrec
  ihave #HIr_4 := (inv_recv m K c (shift c (off 4))) $$ Hrec
  ihave #HRbp_4 := (reached_bar m K (shift c (off 4))) $$ Hrec
  ihave #HRrp_4 := (reached_recv m K (shift c (off 4)) c) $$ Hrec
  ihave #HRs_4 := (reached_send m K c (off 4)) $$ Hrec
  ihave #HRr_4 := (reached_recv m K c (shift c (off 4))) $$ Hrec
  ihave #HIbp_5 := (inv_bar m K (shift c (off 5))) $$ Hrec
  ihave #HIrp_5 := (inv_recv m K (shift c (off 5)) c) $$ Hrec
  ihave #HIs_5 := (inv_send m K c (off 5)) $$ Hrec
  ihave #HIr_5 := (inv_recv m K c (shift c (off 5))) $$ Hrec
  ihave #HRbp_5 := (reached_bar m K (shift c (off 5))) $$ Hrec
  ihave #HRrp_5 := (reached_recv m K (shift c (off 5)) c) $$ Hrec
  ihave #HRs_5 := (reached_send m K c (off 5)) $$ Hrec
  ihave #HRr_5 := (reached_recv m K c (shift c (off 5))) $$ Hrec
  ihave #HIbp_6 := (inv_bar m K (shift c (off 6))) $$ Hrec
  ihave #HIrp_6 := (inv_recv m K (shift c (off 6)) c) $$ Hrec
  ihave #HIs_6 := (inv_send m K c (off 6)) $$ Hrec
  ihave #HIr_6 := (inv_recv m K c (shift c (off 6))) $$ Hrec
  ihave #HRbp_6 := (reached_bar m K (shift c (off 6))) $$ Hrec
  ihave #HRrp_6 := (reached_recv m K (shift c (off 6)) c) $$ Hrec
  ihave #HRs_6 := (reached_send m K c (off 6)) $$ Hrec
  ihave #HRr_6 := (reached_recv m K c (shift c (off 6))) $$ Hrec
  ihave #HIbar := (inv_bar m K c) $$ Hrec
  simp only [dev1_eq c, dev2_eq c, dev3_eq c, dev4_eq c, dev5_eq c, dev6_eq c, dev7_eq c]
  -- signal 1: to the barrier of the device 1 places on, handing it row `that device` of this array
  iapply (Rounds.wp_signal 𝒱₀ ER (Rd m) (c : Thread nD τ) none (dst := ((shift c (off 0)) : Thread nD τ)) (κ := K ((shift c (off 0)), 0))
      (d := c) (by rw [duties_bar]; exact Finset.mem_erase.mpr ⟨(shift_off_ne c 0).symm, Finset.mem_univ _⟩) ((amount_bar m (shift c (off 0)) c).trans (by decide)) () (owedR c + Bt c 6 + Bt c 5 + Bt c 4 + Bt c 3 + Bt c 2 + Bt c 1) rfl)
    $$ [HO HtB_0 Hrow_0]
  · isplitr; · iexact HIbp_0
    isplitl [HO]; · iexact HO
    isplitl [HtB_0]; · iexact HtB_0
    isplitl [Hrow_0]
    · rw [payload_bar]; unfold barPay
      isplitl [Hrow_0]; · iexists f0; iexact Hrow_0
      iexact HRr_0
    · iexact HRbp_0
  iintro HO
  -- signal 2: to the barrier of the device 2 places on, handing it row `that device` of this array
  iapply (Rounds.wp_signal 𝒱₀ ER (Rd m) (c : Thread nD τ) none (dst := ((shift c (off 1)) : Thread nD τ)) (κ := K ((shift c (off 1)), 0))
      (d := c) (by rw [duties_bar]; exact Finset.mem_erase.mpr ⟨(shift_off_ne c 1).symm, Finset.mem_univ _⟩) ((amount_bar m (shift c (off 1)) c).trans (by decide)) () (owedR c + Bt c 6 + Bt c 5 + Bt c 4 + Bt c 3 + Bt c 2) rfl)
    $$ [HO HtB_1 Hrow_1]
  · isplitr; · iexact HIbp_1
    isplitl [HO]; · iexact HO
    isplitl [HtB_1]; · iexact HtB_1
    isplitl [Hrow_1]
    · rw [payload_bar]; unfold barPay
      isplitl [Hrow_1]; · iexists f0; iexact Hrow_1
      iexact HRr_1
    · iexact HRbp_1
  iintro HO
  -- signal 3: to the barrier of the device 3 places on, handing it row `that device` of this array
  iapply (Rounds.wp_signal 𝒱₀ ER (Rd m) (c : Thread nD τ) none (dst := ((shift c (off 2)) : Thread nD τ)) (κ := K ((shift c (off 2)), 0))
      (d := c) (by rw [duties_bar]; exact Finset.mem_erase.mpr ⟨(shift_off_ne c 2).symm, Finset.mem_univ _⟩) ((amount_bar m (shift c (off 2)) c).trans (by decide)) () (owedR c + Bt c 6 + Bt c 5 + Bt c 4 + Bt c 3) rfl)
    $$ [HO HtB_2 Hrow_2]
  · isplitr; · iexact HIbp_2
    isplitl [HO]; · iexact HO
    isplitl [HtB_2]; · iexact HtB_2
    isplitl [Hrow_2]
    · rw [payload_bar]; unfold barPay
      isplitl [Hrow_2]; · iexists f0; iexact Hrow_2
      iexact HRr_2
    · iexact HRbp_2
  iintro HO
  -- signal 4: to the barrier of the device 4 places on, handing it row `that device` of this array
  iapply (Rounds.wp_signal 𝒱₀ ER (Rd m) (c : Thread nD τ) none (dst := ((shift c (off 3)) : Thread nD τ)) (κ := K ((shift c (off 3)), 0))
      (d := c) (by rw [duties_bar]; exact Finset.mem_erase.mpr ⟨(shift_off_ne c 3).symm, Finset.mem_univ _⟩) ((amount_bar m (shift c (off 3)) c).trans (by decide)) () (owedR c + Bt c 6 + Bt c 5 + Bt c 4) rfl)
    $$ [HO HtB_3 Hrow_3]
  · isplitr; · iexact HIbp_3
    isplitl [HO]; · iexact HO
    isplitl [HtB_3]; · iexact HtB_3
    isplitl [Hrow_3]
    · rw [payload_bar]; unfold barPay
      isplitl [Hrow_3]; · iexists f0; iexact Hrow_3
      iexact HRr_3
    · iexact HRbp_3
  iintro HO
  -- signal 5: to the barrier of the device 5 places on, handing it row `that device` of this array
  iapply (Rounds.wp_signal 𝒱₀ ER (Rd m) (c : Thread nD τ) none (dst := ((shift c (off 4)) : Thread nD τ)) (κ := K ((shift c (off 4)), 0))
      (d := c) (by rw [duties_bar]; exact Finset.mem_erase.mpr ⟨(shift_off_ne c 4).symm, Finset.mem_univ _⟩) ((amount_bar m (shift c (off 4)) c).trans (by decide)) () (owedR c + Bt c 6 + Bt c 5) rfl)
    $$ [HO HtB_4 Hrow_4]
  · isplitr; · iexact HIbp_4
    isplitl [HO]; · iexact HO
    isplitl [HtB_4]; · iexact HtB_4
    isplitl [Hrow_4]
    · rw [payload_bar]; unfold barPay
      isplitl [Hrow_4]; · iexists f0; iexact Hrow_4
      iexact HRr_4
    · iexact HRbp_4
  iintro HO
  -- signal 6: to the barrier of the device 6 places on, handing it row `that device` of this array
  iapply (Rounds.wp_signal 𝒱₀ ER (Rd m) (c : Thread nD τ) none (dst := ((shift c (off 5)) : Thread nD τ)) (κ := K ((shift c (off 5)), 0))
      (d := c) (by rw [duties_bar]; exact Finset.mem_erase.mpr ⟨(shift_off_ne c 5).symm, Finset.mem_univ _⟩) ((amount_bar m (shift c (off 5)) c).trans (by decide)) () (owedR c + Bt c 6) rfl)
    $$ [HO HtB_5 Hrow_5]
  · isplitr; · iexact HIbp_5
    isplitl [HO]; · iexact HO
    isplitl [HtB_5]; · iexact HtB_5
    isplitl [Hrow_5]
    · rw [payload_bar]; unfold barPay
      isplitl [Hrow_5]; · iexists f0; iexact Hrow_5
      iexact HRr_5
    · iexact HRbp_5
  iintro HO
  -- signal 7: to the barrier of the device 7 places on, handing it row `that device` of this array
  iapply (Rounds.wp_signal 𝒱₀ ER (Rd m) (c : Thread nD τ) none (dst := ((shift c (off 6)) : Thread nD τ)) (κ := K ((shift c (off 6)), 0))
      (d := c) (by rw [duties_bar]; exact Finset.mem_erase.mpr ⟨(shift_off_ne c 6).symm, Finset.mem_univ _⟩) ((amount_bar m (shift c (off 6)) c).trans (by decide)) () (owedR c) rfl)
    $$ [HO HtB_6 Hrow_6]
  · isplitr; · iexact HIbp_6
    isplitl [HO]; · iexact HO
    isplitl [HtB_6]; · iexact HtB_6
    isplitl [Hrow_6]
    · rw [payload_bar]; unfold barPay
      isplitl [Hrow_6]; · iexists f0; iexact Hrow_6
      iexact HRr_6
    · iexact HRbp_6
  iintro HO
  -- the wait for the seven other devices: each hands over its row `c`, where this device's copy to it lands
  iapply (Rounds.wp_wait_rest_token 𝒱₀ ER (Rd m) (c : Thread nD τ) none (κ := K (c, 0))
      (wpE_semWait_eq 𝒱₀ (c : Thread nD τ) none Set.univ) (Set.mem_univ _) () (O := owedR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_bar m c).trans (bigSep_fin7 _))) $$ Hpay
  unfold barPay
  icases Hp with ⟨⟨⟨%fd0, Hdst_0⟩, -⟩, ⟨⟨%fd1, Hdst_1⟩, -⟩, ⟨⟨%fd2, Hdst_2⟩, -⟩, ⟨⟨%fd3, Hdst_3⟩, -⟩, ⟨⟨%fd4, Hdst_4⟩, -⟩, ⟨⟨%fd5, Hdst_5⟩, -⟩, ⟨⟨%fd6, Hdst_6⟩, -⟩⟩
  -- the block, and this device's row of column maxima written into its own row
  iapply (wp_load 𝒱₀ (c : Thread nD τ) none Set.univ (m := (Memref.whole cc0_stg0_0 : Memref sig .tc .vmem S4096x1024 .f32)) (Finset.subset_univ _)) $$ Hx; iintro Hx
  rw [read_x]
  ihave Hrow_c := (Entails.of_eq (rows_raw c (rowSet c) fullShare f0)) $$ Hrow_c
  iapply (wp_load 𝒱₀ (c : Thread nD τ) none Set.univ (m := commM) (S := rowSet c) (ownLoad_sub c)) $$ Hrow_c; iintro Hrow_c
  iapply (wp_store 𝒱₀ (c : Thread nD τ) none Set.univ (m := commM) (r := rown c) (Mk := Finset.univ) (S := rowSet c) (by rw [ownStore_set])) $$ Hrow_c; iintro Hrow_c
  ihave Hrow_c := (Entails.of_eq (pointsTo_congr (g := Proto.comm m) fun i hi => by rw [xstg_eq]; exact ownStore_val c (xblk m) f0 i hi)) $$ Hrow_c
  ihave Hrow_c := (Entails.of_eq (rows_acc c (rowSet c) fullShare (Proto.comm m)).symm) $$ Hrow_c
  -- a share of the row for each copy to read
  ihave Hsh := (rows_toks_split c (rowSet c) (comm m)) $$ Hrow_c
  icases Hsh with ⟨Hrem, Hshs⟩
  ihave Hshs' := (Entails.of_eq ((bigSep_fin8_off _).trans (congrArg _ (bigSep_fin7 _)))) $$ Hshs
  icases Hshs' with ⟨Hsrc0, Hsrc_0, Hsrc_1, Hsrc_2, Hsrc_3, Hsrc_4, Hsrc_5, Hsrc_6⟩
  -- copy 1: the row to the device 1 places on
  iapply (wp_send_row m c 0 _ (dev8_eq c) _ _ sendSem_eq_1 (recvSem_own_eq c) fd0 _ (Rt c 6 + Rt c 5 + Rt c 4 + Rt c 3 + Rt c 2 + Rt c 1) rfl _ (K (c, jsend (off 0))) (K ((shift c (off 0)), jrecv c)))
    $$ [Hsrc_0 Hdst_0 HO HtS_0 HtR_0]
  · isplitr; · iexact HIs_0
    isplitr; · iexact HIrp_0
    isplitl [Hsrc_0]; · iexact Hsrc_0
    isplitl [Hdst_0]; · iexact Hdst_0
    isplitl [HO]; · iexact HO
    isplitl [HtS_0]; · iexact HtS_0
    isplitr; · iexact HRs_0
    isplitl [HtR_0]; · iexact HtR_0
    iexact HRrp_0
  iintro ⟨HcS_0, HO⟩
  -- copy 2: the row to the device 2 places on
  iapply (wp_send_row m c 1 _ (dev9_eq c) _ _ sendSem_eq_2 (recvSem_own_eq c) fd1 _ (Rt c 6 + Rt c 5 + Rt c 4 + Rt c 3 + Rt c 2) rfl _ (K (c, jsend (off 1))) (K ((shift c (off 1)), jrecv c)))
    $$ [Hsrc_1 Hdst_1 HO HtS_1 HtR_1]
  · isplitr; · iexact HIs_1
    isplitr; · iexact HIrp_1
    isplitl [Hsrc_1]; · iexact Hsrc_1
    isplitl [Hdst_1]; · iexact Hdst_1
    isplitl [HO]; · iexact HO
    isplitl [HtS_1]; · iexact HtS_1
    isplitr; · iexact HRs_1
    isplitl [HtR_1]; · iexact HtR_1
    iexact HRrp_1
  iintro ⟨HcS_1, HO⟩
  -- copy 3: the row to the device 3 places on
  iapply (wp_send_row m c 2 _ (dev10_eq c) _ _ sendSem_eq_3 (recvSem_own_eq c) fd2 _ (Rt c 6 + Rt c 5 + Rt c 4 + Rt c 3) rfl _ (K (c, jsend (off 2))) (K ((shift c (off 2)), jrecv c)))
    $$ [Hsrc_2 Hdst_2 HO HtS_2 HtR_2]
  · isplitr; · iexact HIs_2
    isplitr; · iexact HIrp_2
    isplitl [Hsrc_2]; · iexact Hsrc_2
    isplitl [Hdst_2]; · iexact Hdst_2
    isplitl [HO]; · iexact HO
    isplitl [HtS_2]; · iexact HtS_2
    isplitr; · iexact HRs_2
    isplitl [HtR_2]; · iexact HtR_2
    iexact HRrp_2
  iintro ⟨HcS_2, HO⟩
  -- copy 4: the row to the device 4 places on
  iapply (wp_send_row m c 3 _ (dev11_eq c) _ _ sendSem_eq_4 (recvSem_own_eq c) fd3 _ (Rt c 6 + Rt c 5 + Rt c 4) rfl _ (K (c, jsend (off 3))) (K ((shift c (off 3)), jrecv c)))
    $$ [Hsrc_3 Hdst_3 HO HtS_3 HtR_3]
  · isplitr; · iexact HIs_3
    isplitr; · iexact HIrp_3
    isplitl [Hsrc_3]; · iexact Hsrc_3
    isplitl [Hdst_3]; · iexact Hdst_3
    isplitl [HO]; · iexact HO
    isplitl [HtS_3]; · iexact HtS_3
    isplitr; · iexact HRs_3
    isplitl [HtR_3]; · iexact HtR_3
    iexact HRrp_3
  iintro ⟨HcS_3, HO⟩
  -- copy 5: the row to the device 5 places on
  iapply (wp_send_row m c 4 _ (dev12_eq c) _ _ sendSem_eq_5 (recvSem_own_eq c) fd4 _ (Rt c 6 + Rt c 5) rfl _ (K (c, jsend (off 4))) (K ((shift c (off 4)), jrecv c)))
    $$ [Hsrc_4 Hdst_4 HO HtS_4 HtR_4]
  · isplitr; · iexact HIs_4
    isplitr; · iexact HIrp_4
    isplitl [Hsrc_4]; · iexact Hsrc_4
    isplitl [Hdst_4]; · iexact Hdst_4
    isplitl [HO]; · iexact HO
    isplitl [HtS_4]; · iexact HtS_4
    isplitr; · iexact HRs_4
    isplitl [HtR_4]; · iexact HtR_4
    iexact HRrp_4
  iintro ⟨HcS_4, HO⟩
  -- copy 6: the row to the device 6 places on
  iapply (wp_send_row m c 5 _ (dev13_eq c) _ _ sendSem_eq_6 (recvSem_own_eq c) fd5 _ (Rt c 6) rfl _ (K (c, jsend (off 5))) (K ((shift c (off 5)), jrecv c)))
    $$ [Hsrc_5 Hdst_5 HO HtS_5 HtR_5]
  · isplitr; · iexact HIs_5
    isplitr; · iexact HIrp_5
    isplitl [Hsrc_5]; · iexact Hsrc_5
    isplitl [Hdst_5]; · iexact Hdst_5
    isplitl [HO]; · iexact HO
    isplitl [HtS_5]; · iexact HtS_5
    isplitr; · iexact HRs_5
    isplitl [HtR_5]; · iexact HtR_5
    iexact HRrp_5
  iintro ⟨HcS_5, HO⟩
  -- copy 7: the row to the device 7 places on
  iapply (wp_send_row m c 6 _ (dev14_eq c) _ _ sendSem_eq_7 (recvSem_own_eq c) fd6 _ (0) (zero_add _).symm _ (K (c, jsend (off 6))) (K ((shift c (off 6)), jrecv c)))
    $$ [Hsrc_6 Hdst_6 HO HtS_6 HtR_6]
  · isplitr; · iexact HIs_6
    isplitr; · iexact HIrp_6
    isplitl [Hsrc_6]; · iexact Hsrc_6
    isplitl [Hdst_6]; · iexact Hdst_6
    isplitl [HO]; · iexact HO
    isplitl [HtS_6]; · iexact HtS_6
    isplitr; · iexact HRs_6
    isplitl [HtR_6]; · iexact HtR_6
    iexact HRrp_6
  iintro ⟨HcS_6, HO⟩
  simp only [recvSem_w0 c, recvSem_w1 c, recvSem_w2 c, recvSem_w3 c, recvSem_w4 c, recvSem_w5 c, recvSem_w6 c]
  -- the wait for the row of the device 1 places on
  iapply (Rounds.wp_wait_rest_token 𝒱₀ ER (Rd m) (c : Thread nD τ) none (κ := K (c, jrecv (shift c (off 0))))
      (wpE_waitDma2_eq 𝒱₀ (c : Thread nD τ) none Set.univ) (Set.mem_univ _) () (O := 0) (R := 0) (m := 0) (T := ∅)
      (by rw [Nat.zero_add, expect_recv m c _ (shift_off_ne c 0)] <;> rfl)) $$ [HcR_0 HO HatR_0]
  · isplitr; · iexact HIr_0
    isplitl [HcR_0]; · iexact HcR_0
    isplitl [HO]; · iexact HO
    isplitr; · rw [MayWait_zero]; iempintro
    iexact HatR_0
  iintro ⟨HO, HatR_0, -, Hpay⟩
  ihave Hrow_0 := (Entails.of_eq (rest_recv m c _ (shift_off_ne c 0))) $$ Hpay
  -- the wait for the row of the device 2 places on
  iapply (Rounds.wp_wait_rest_token 𝒱₀ ER (Rd m) (c : Thread nD τ) none (κ := K (c, jrecv (shift c (off 1))))
      (wpE_waitDma2_eq 𝒱₀ (c : Thread nD τ) none Set.univ) (Set.mem_univ _) () (O := 0) (R := 0) (m := 0) (T := ∅)
      (by rw [Nat.zero_add, expect_recv m c _ (shift_off_ne c 1)] <;> rfl)) $$ [HcR_1 HO HatR_1]
  · isplitr; · iexact HIr_1
    isplitl [HcR_1]; · iexact HcR_1
    isplitl [HO]; · iexact HO
    isplitr; · rw [MayWait_zero]; iempintro
    iexact HatR_1
  iintro ⟨HO, HatR_1, -, Hpay⟩
  ihave Hrow_1 := (Entails.of_eq (rest_recv m c _ (shift_off_ne c 1))) $$ Hpay
  -- the wait for the row of the device 3 places on
  iapply (Rounds.wp_wait_rest_token 𝒱₀ ER (Rd m) (c : Thread nD τ) none (κ := K (c, jrecv (shift c (off 2))))
      (wpE_waitDma2_eq 𝒱₀ (c : Thread nD τ) none Set.univ) (Set.mem_univ _) () (O := 0) (R := 0) (m := 0) (T := ∅)
      (by rw [Nat.zero_add, expect_recv m c _ (shift_off_ne c 2)] <;> rfl)) $$ [HcR_2 HO HatR_2]
  · isplitr; · iexact HIr_2
    isplitl [HcR_2]; · iexact HcR_2
    isplitl [HO]; · iexact HO
    isplitr; · rw [MayWait_zero]; iempintro
    iexact HatR_2
  iintro ⟨HO, HatR_2, -, Hpay⟩
  ihave Hrow_2 := (Entails.of_eq (rest_recv m c _ (shift_off_ne c 2))) $$ Hpay
  -- the wait for the row of the device 4 places on
  iapply (Rounds.wp_wait_rest_token 𝒱₀ ER (Rd m) (c : Thread nD τ) none (κ := K (c, jrecv (shift c (off 3))))
      (wpE_waitDma2_eq 𝒱₀ (c : Thread nD τ) none Set.univ) (Set.mem_univ _) () (O := 0) (R := 0) (m := 0) (T := ∅)
      (by rw [Nat.zero_add, expect_recv m c _ (shift_off_ne c 3)] <;> rfl)) $$ [HcR_3 HO HatR_3]
  · isplitr; · iexact HIr_3
    isplitl [HcR_3]; · iexact HcR_3
    isplitl [HO]; · iexact HO
    isplitr; · rw [MayWait_zero]; iempintro
    iexact HatR_3
  iintro ⟨HO, HatR_3, -, Hpay⟩
  ihave Hrow_3 := (Entails.of_eq (rest_recv m c _ (shift_off_ne c 3))) $$ Hpay
  -- the wait for the row of the device 5 places on
  iapply (Rounds.wp_wait_rest_token 𝒱₀ ER (Rd m) (c : Thread nD τ) none (κ := K (c, jrecv (shift c (off 4))))
      (wpE_waitDma2_eq 𝒱₀ (c : Thread nD τ) none Set.univ) (Set.mem_univ _) () (O := 0) (R := 0) (m := 0) (T := ∅)
      (by rw [Nat.zero_add, expect_recv m c _ (shift_off_ne c 4)] <;> rfl)) $$ [HcR_4 HO HatR_4]
  · isplitr; · iexact HIr_4
    isplitl [HcR_4]; · iexact HcR_4
    isplitl [HO]; · iexact HO
    isplitr; · rw [MayWait_zero]; iempintro
    iexact HatR_4
  iintro ⟨HO, HatR_4, -, Hpay⟩
  ihave Hrow_4 := (Entails.of_eq (rest_recv m c _ (shift_off_ne c 4))) $$ Hpay
  -- the wait for the row of the device 6 places on
  iapply (Rounds.wp_wait_rest_token 𝒱₀ ER (Rd m) (c : Thread nD τ) none (κ := K (c, jrecv (shift c (off 5))))
      (wpE_waitDma2_eq 𝒱₀ (c : Thread nD τ) none Set.univ) (Set.mem_univ _) () (O := 0) (R := 0) (m := 0) (T := ∅)
      (by rw [Nat.zero_add, expect_recv m c _ (shift_off_ne c 5)] <;> rfl)) $$ [HcR_5 HO HatR_5]
  · isplitr; · iexact HIr_5
    isplitl [HcR_5]; · iexact HcR_5
    isplitl [HO]; · iexact HO
    isplitr; · rw [MayWait_zero]; iempintro
    iexact HatR_5
  iintro ⟨HO, HatR_5, -, Hpay⟩
  ihave Hrow_5 := (Entails.of_eq (rest_recv m c _ (shift_off_ne c 5))) $$ Hpay
  -- the wait for the row of the device 7 places on
  iapply (Rounds.wp_wait_rest_token 𝒱₀ ER (Rd m) (c : Thread nD τ) none (κ := K (c, jrecv (shift c (off 6))))
      (wpE_waitDma2_eq 𝒱₀ (c : Thread nD τ) none Set.univ) (Set.mem_univ _) () (O := 0) (R := 0) (m := 0) (T := ∅)
      (by rw [Nat.zero_add, expect_recv m c _ (shift_off_ne c 6)] <;> rfl)) $$ [HcR_6 HO HatR_6]
  · isplitr; · iexact HIr_6
    isplitl [HcR_6]; · iexact HcR_6
    isplitl [HO]; · iexact HO
    isplitr; · rw [MayWait_zero]; iempintro
    iexact HatR_6
  iintro ⟨HO, HatR_6, -, Hpay⟩
  ihave Hrow_6 := (Entails.of_eq (rest_recv m c _ (shift_off_ne c 6))) $$ Hpay
  rw [sendSem_eq_1, sendSem_eq_2, sendSem_eq_3, sendSem_eq_4, sendSem_eq_5, sendSem_eq_6, sendSem_eq_7]
  -- copy 1 has left: its share of the row back
  iapply (Rounds.wp_wait_rest_token 𝒱₀ ER (Rd m) (c : Thread nD τ) none (κ := K (c, jsend (off 0)))
      (wpE_waitDma2_eq 𝒱₀ (c : Thread nD τ) none Set.univ) (Set.mem_univ _) () (O := 0) (R := 0) (m := 0) (T := ∅)
      (by rw [Nat.zero_add, expect_send m c 0] <;> rfl)) $$ [HcS_0 HO HatS_0]
  · isplitr; · iexact HIs_0
    isplitl [HcS_0]; · iexact HcS_0
    isplitl [HO]; · iexact HO
    isplitr; · rw [MayWait_zero]; iempintro
    iexact HatS_0
  iintro ⟨HO, HatS_0, -, Hpay⟩
  ihave Hsrc_0 := (Entails.of_eq (rest_send m c 0)) $$ Hpay
  -- copy 2 has left: its share of the row back
  iapply (Rounds.wp_wait_rest_token 𝒱₀ ER (Rd m) (c : Thread nD τ) none (κ := K (c, jsend (off 1)))
      (wpE_waitDma2_eq 𝒱₀ (c : Thread nD τ) none Set.univ) (Set.mem_univ _) () (O := 0) (R := 0) (m := 0) (T := ∅)
      (by rw [Nat.zero_add, expect_send m c 1] <;> rfl)) $$ [HcS_1 HO HatS_1]
  · isplitr; · iexact HIs_1
    isplitl [HcS_1]; · iexact HcS_1
    isplitl [HO]; · iexact HO
    isplitr; · rw [MayWait_zero]; iempintro
    iexact HatS_1
  iintro ⟨HO, HatS_1, -, Hpay⟩
  ihave Hsrc_1 := (Entails.of_eq (rest_send m c 1)) $$ Hpay
  -- copy 3 has left: its share of the row back
  iapply (Rounds.wp_wait_rest_token 𝒱₀ ER (Rd m) (c : Thread nD τ) none (κ := K (c, jsend (off 2)))
      (wpE_waitDma2_eq 𝒱₀ (c : Thread nD τ) none Set.univ) (Set.mem_univ _) () (O := 0) (R := 0) (m := 0) (T := ∅)
      (by rw [Nat.zero_add, expect_send m c 2] <;> rfl)) $$ [HcS_2 HO HatS_2]
  · isplitr; · iexact HIs_2
    isplitl [HcS_2]; · iexact HcS_2
    isplitl [HO]; · iexact HO
    isplitr; · rw [MayWait_zero]; iempintro
    iexact HatS_2
  iintro ⟨HO, HatS_2, -, Hpay⟩
  ihave Hsrc_2 := (Entails.of_eq (rest_send m c 2)) $$ Hpay
  -- copy 4 has left: its share of the row back
  iapply (Rounds.wp_wait_rest_token 𝒱₀ ER (Rd m) (c : Thread nD τ) none (κ := K (c, jsend (off 3)))
      (wpE_waitDma2_eq 𝒱₀ (c : Thread nD τ) none Set.univ) (Set.mem_univ _) () (O := 0) (R := 0) (m := 0) (T := ∅)
      (by rw [Nat.zero_add, expect_send m c 3] <;> rfl)) $$ [HcS_3 HO HatS_3]
  · isplitr; · iexact HIs_3
    isplitl [HcS_3]; · iexact HcS_3
    isplitl [HO]; · iexact HO
    isplitr; · rw [MayWait_zero]; iempintro
    iexact HatS_3
  iintro ⟨HO, HatS_3, -, Hpay⟩
  ihave Hsrc_3 := (Entails.of_eq (rest_send m c 3)) $$ Hpay
  -- copy 5 has left: its share of the row back
  iapply (Rounds.wp_wait_rest_token 𝒱₀ ER (Rd m) (c : Thread nD τ) none (κ := K (c, jsend (off 4)))
      (wpE_waitDma2_eq 𝒱₀ (c : Thread nD τ) none Set.univ) (Set.mem_univ _) () (O := 0) (R := 0) (m := 0) (T := ∅)
      (by rw [Nat.zero_add, expect_send m c 4] <;> rfl)) $$ [HcS_4 HO HatS_4]
  · isplitr; · iexact HIs_4
    isplitl [HcS_4]; · iexact HcS_4
    isplitl [HO]; · iexact HO
    isplitr; · rw [MayWait_zero]; iempintro
    iexact HatS_4
  iintro ⟨HO, HatS_4, -, Hpay⟩
  ihave Hsrc_4 := (Entails.of_eq (rest_send m c 4)) $$ Hpay
  -- copy 6 has left: its share of the row back
  iapply (Rounds.wp_wait_rest_token 𝒱₀ ER (Rd m) (c : Thread nD τ) none (κ := K (c, jsend (off 5)))
      (wpE_waitDma2_eq 𝒱₀ (c : Thread nD τ) none Set.univ) (Set.mem_univ _) () (O := 0) (R := 0) (m := 0) (T := ∅)
      (by rw [Nat.zero_add, expect_send m c 5] <;> rfl)) $$ [HcS_5 HO HatS_5]
  · isplitr; · iexact HIs_5
    isplitl [HcS_5]; · iexact HcS_5
    isplitl [HO]; · iexact HO
    isplitr; · rw [MayWait_zero]; iempintro
    iexact HatS_5
  iintro ⟨HO, HatS_5, -, Hpay⟩
  ihave Hsrc_5 := (Entails.of_eq (rest_send m c 5)) $$ Hpay
  -- copy 7 has left: its share of the row back
  iapply (Rounds.wp_wait_rest_token 𝒱₀ ER (Rd m) (c : Thread nD τ) none (κ := K (c, jsend (off 6)))
      (wpE_waitDma2_eq 𝒱₀ (c : Thread nD τ) none Set.univ) (Set.mem_univ _) () (O := 0) (R := 0) (m := 0) (T := ∅)
      (by rw [Nat.zero_add, expect_send m c 6] <;> rfl)) $$ [HcS_6 HO HatS_6]
  · isplitr; · iexact HIs_6
    isplitl [HcS_6]; · iexact HcS_6
    isplitl [HO]; · iexact HO
    isplitr; · rw [MayWait_zero]; iempintro
    iexact HatS_6
  iintro ⟨HO, HatS_6, -, Hpay⟩
  ihave Hsrc_6 := (Entails.of_eq (rest_send m c 6)) $$ Hpay
  unfold sendPay recvPay
  -- the shares joined, the eight rows joined: the array whole, holding every device's maxima
  ihave Hrow_c := (Entails.of_eq ((bigSep_fin8_off (fun k : Fin 8 => (rowsPts c (rowSet c) (Transfers.shareTok fullShare 8 k) (comm m) : sProp 𝕄))).trans (congrArg _ (bigSep_fin7 _))).symm) $$ [Hsrc0 Hsrc_0 Hsrc_1 Hsrc_2 Hsrc_3 Hsrc_4 Hsrc_5 Hsrc_6]
  · isplitl [Hsrc0]; · iexact Hsrc0
    isplitl [Hsrc_0]; · iexact Hsrc_0
    isplitl [Hsrc_1]; · iexact Hsrc_1
    isplitl [Hsrc_2]; · iexact Hsrc_2
    isplitl [Hsrc_3]; · iexact Hsrc_3
    isplitl [Hsrc_4]; · iexact Hsrc_4
    isplitl [Hsrc_5]; · iexact Hsrc_5
    iexact Hsrc_6
  ihave Hrow_c := (rows_toks_join c (rowSet c) (comm m)) $$ [Hrem Hrow_c]
  · isplitl [Hrem]; · iexact Hrem
    iexact Hrow_c
  ihave Hcomm := (Entails.of_eq ((rows_split c fullShare (comm m)).trans ((bigSep_fin8_own c _).trans (congrArg _ (bigSep_fin7 _)))).symm) $$ [Hrow_c Hrow_0 Hrow_1 Hrow_2 Hrow_3 Hrow_4 Hrow_5 Hrow_6]
  · isplitl [Hrow_c]; · iexact Hrow_c
    isplitl [Hrow_0]; · iexact Hrow_0
    isplitl [Hrow_1]; · iexact Hrow_1
    isplitl [Hrow_2]; · iexact Hrow_2
    isplitl [Hrow_3]; · iexact Hrow_3
    isplitl [Hrow_4]; · iexact Hrow_4
    isplitl [Hrow_5]; · iexact Hrow_5
    iexact Hrow_6
  -- the maximum over the eight rows, stored as the result
  iapply (wp_load 𝒱₀ (c : Thread nD τ) none Set.univ (m := commM) (Finset.subset_univ _)) $$ Hcomm; iintro Hcomm
  rw [read_comm]
  iapply (wp_load 𝒱₀ (c : Thread nD τ) none Set.univ (m := (Memref.whole cc0_stg1_0 : Memref sig .tc .vmem S1x1024 .f32)) (Finset.subset_univ _)) $$ Hout; iintro Hout
  iapply (wp_store 𝒱₀ (c : Thread nD τ) none Set.univ (m := (Memref.whole cc0_stg1_0 : Memref sig .tc .vmem S1x1024 .f32)) (r := ro) (Mk := Finset.univ) (Finset.subset_univ _)) $$ Hout; iintro Hout
  rw [write_out, wp_ret]
  rw [show Proto.comm m = Spec.commVal (xblk m) from rfl]
  -- the sixteen own cells closed: their semaphores at zero are the device's again
  imod (close_own m c K) $$ [HatS0 HatS_0 HatS_1 HatS_2 HatS_3 HatS_4 HatS_5 HatS_6 HatRc HatR_0 HatR_1 HatR_2 HatR_3 HatR_4 HatR_5 HatR_6] with Hown
  · isplitr; · iexact Hrec
    isplitl [HatS0 HatS_0 HatS_1 HatS_2 HatS_3 HatS_4 HatS_5 HatS_6]
    · rw [bigSep_fin8_off, bigSep_fin7]; simp only [sendFin_zero, sendFin_off]
      isplitl [HatS0]; · iexact HatS0
      isplitl [HatS_0]; · iexact HatS_0
      isplitl [HatS_1]; · iexact HatS_1
      isplitl [HatS_2]; · iexact HatS_2
      isplitl [HatS_3]; · iexact HatS_3
      isplitl [HatS_4]; · iexact HatS_4
      isplitl [HatS_5]; · iexact HatS_5
      iexact HatS_6
    · rw [bigSep_fin8_own c, bigSep_fin7]; simp only [recvFin_own, recvFin_peer]
      isplitl [HatRc]; · iexact HatRc
      isplitl [HatR_0]; · iexact HatR_0
      isplitl [HatR_1]; · iexact HatR_1
      isplitl [HatR_2]; · iexact HatR_2
      isplitl [HatR_3]; · iexact HatR_3
      isplitl [HatR_4]; · iexact HatR_4
      isplitl [HatR_5]; · iexact HatR_5
      iexact HatR_6
  imodintro
  iapply Hk
  unfold bodyPost Φ₁ Dat.owesAt Pipeline.owesWithin
  rw [show (dats m ρ 0 c).owed t₀.succ = 0 from rfl]
  isplitl [Hcomm Hown]
  · isplitl [Hcomm]; · iexists _; iexact Hcomm
    iexact Hown
  isplitl [HO]
  · iexists _
    isplitr
    on_goal 2 => iexact HO
    ipureintro; exact fun _ _ => Or.inl trivial
  isplitl [Hx]
  · iexists _; isplitr; · (ipureintro; rfl)
    iexact Hx
  iexists _; isplitr; · (ipureintro; unfold outAt Spec.outVal; rfl)
  iexact Hout

end Body

/-! ## The library's body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The body obligation on device `c`: the names of the cells' invariants opened, the rest handed to `sound_body`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start G'
  iintro ⟨⟨⟨⟨%K, Hrec, Hlin⟩, Hcr, Hlev⟩, Hscr⟩, Ho, Hx, Hout⟩
  iapply (sound_body m ρ K c fun _ => bodyPost m ρ c)
  unfold bodyPre
  isplitr []
  · isplitl [Hrec Hlin Hcr Hlev Hscr]
    · isplitl [Hrec]; · iexact Hrec
      isplitl [Hlin]; · iexact Hlin
      isplitl [Hcr]; · iexact Hcr
      isplitl [Hlev]; · iexact Hlev
      iexact Hscr
    isplitl [Ho]; · iexact Ho
    isplitl [Hx] <;> iassumption
  · iintro H; iexact H

/-- info: 'Cert.KernelIdeal.Body.body_obligation' depends on axioms: [propext, Classical.choice, Quot.sound] -/
#guard_msgs in #print axioms body_obligation

end Cert.KernelIdeal.Body
end
-- ==== Proof.Launch.lean ====
import proofs.«900921_g7700000000000922_dist_max_ax0_shard0_i_m4096_n1024_v7x_i8_f32_1_alg».proof.Proof.Proto
import proofs.«900921_g7700000000000922_dist_max_ax0_shard0_i_m4096_n1024_v7x_i8_f32_1_alg».proof.Proof.Gen.KernelIdeal.Launch
import proofs.«900921_g7700000000000922_dist_max_ax0_shard0_i_m4096_n1024_v7x_i8_f32_1_alg».proof.Proof.Gen.KernelIdeal.Frame

import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch funds -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- A device's own cells' duty tokens as minted, per offset: the barrier duty that the device so many places on pays, the
    send cell's one duty, and the one duty of the receive cell for that device. -/
def tokOf (x : Dev nD × Fin 7 × Fin 3) : GSem nD τ sig × ℕ × Fin 8 := match x.2.2 with
  | 0 => (barCell x.1, 0, shift x.1 (off x.2.1))
  | 1 => (sendCell x.1 (off x.2.1), 0, 0)
  | 2 => (recvCell x.1 (shift x.1 (off x.2.1)), 0, 0)

theorem tokOf_dev : ∀ x : Dev nD × Fin 7 × Fin 3, (tokOf x).1.1.1 = x.1 := by
  rintro ⟨c, r, j⟩; fin_cases j <;> rfl

theorem tokOf_inj_at : ∀ (c : Dev nD) (x y : Fin 7 × Fin 3), ((tokOf (c, x)).1.2, (tokOf (c, x)).2.2) = ((tokOf (c, y)).1.2, (tokOf (c, y)).2.2) → x = y := by
  decide +kernel

theorem tokOf_injective : Function.Injective tokOf := by
  rintro ⟨c, x⟩ ⟨c', y⟩ h
  have h1 : c = c' := by
    have := congrArg (fun t : GSem nD τ sig × ℕ × Fin 8 => t.1.1.1) h
    rw [tokOf_dev, tokOf_dev] at this; exact this
  subst h1
  have : x = y := tokOf_inj_at c x y (by rw [h])
  subst this; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun r : Fin 7 =>
    iprop(dutyTok ER (barCell c) 0 (shift c (off r)) ∗ dutyTok ER (sendCell c (off r)) 0 0 ∗ dutyTok ER (recvCell c (shift c (off r))) 0 0)

/-- What the launch element deals device `c`. -/
def G (c : Dev nD) : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0)) ∗ toks c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    exact bigSep_congr fun r _ => by rw [bigSep_fin3]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants allocated, and the ghost state regrouped -/

theorem csem_zero : csem 0 = .reg barS := rfl
theorem csem_succ : ∀ j : Fin 16, csem j.succ = osem j := by decide
theorem erase_zero : (Finset.univ.erase (0 : Fin 17)) = Finset.univ.map ⟨Fin.succ, Fin.succ_injective 16⟩ := by decide

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [unscopedSems0_eq, bigSep_univ_at (fun k : Fin 17 => (semVal (kcell (c, k)) 0 : sProp 𝕄)) 0, erase_zero, bigSep_map]
  have h : (bigSep Finset.univ fun j : Fin 16 => (semVal (kcell (c, (⟨Fin.succ, Fin.succ_injective 16⟩ : Fin 16 ↪ Fin 17) j)) 0 : sProp 𝕄))
      = Pipeline.ownSems0 (Ix := Unit) (Name := ℕ) (U := UU) (Lvl := ℕ) (Val := Elt F) (τ := τ) osem c := by
    unfold Pipeline.ownSems0
    exact bigSep_congr fun j _ => by show semVal ((c : Thread nD τ), csem j.succ) 0 = _; rw [csem_succ]
  rw [h]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Offsets dealt round the ring: the pair (device, offset) seen from the device that many places on. -/
def deal : Dev nD × Fin 7 ≃ Dev nD × Fin 7 where
  toFun x := (shift x.1 (off x.2), rev7 x.2)
  invFun x := (shift x.1 (off x.2), rev7 x.2)
  left_inv := by intro x; revert x; decide
  right_inv := by intro x; revert x; decide

theorem deal_sep (Φ : Dev nD × Fin 7 → sProp 𝕄) :
    (bigSep Finset.univ fun c : Dev nD => bigSep Finset.univ fun r : Fin 7 => Φ (c, r))
      = bigSep Finset.univ fun d : Dev nD => bigSep Finset.univ fun r : Fin 7 => Φ (shift d (off r), rev7 r) := by
  rw [← bigSep_univ_prod, bigSep_univ_equiv deal Φ, bigSep_univ_prod]; rfl

/-- The tokens dealt round the ring: the barrier duty a device pays and the landing of its copy go to it from the device
    whose cells they are; the departure stays. -/
theorem toks_around : (bigSep Finset.univ fun c : Dev nD => (toks c : sProp 𝕄)) ⊢ bigSep Finset.univ fun c : Dev nD => payToks c := by
  have hA : (bigSep Finset.univ fun c : Dev nD => bigSep Finset.univ fun r : Fin 7 => (dutyTok ER (barCell c) 0 (shift c (off r)) : sProp 𝕄))
      = bigSep Finset.univ fun d : Dev nD => bigSep Finset.univ fun r : Fin 7 => dutyTok ER (barCell (shift d (off r))) 0 d := by
    rw [deal_sep (fun x => (dutyTok ER (barCell x.1) 0 (shift x.1 (off x.2)) : sProp 𝕄))]
    exact bigSep_congr fun d _ => bigSep_congr fun r _ => by rw [shift_off_rev]
  have hC : (bigSep Finset.univ fun c : Dev nD => bigSep Finset.univ fun r : Fin 7 => (dutyTok ER (recvCell c (shift c (off r))) 0 0 : sProp 𝕄))
      = bigSep Finset.univ fun d : Dev nD => bigSep Finset.univ fun r : Fin 7 => dutyTok ER (recvCell (shift d (off r)) d) 0 0 := by
    rw [deal_sep (fun x => (dutyTok ER (recvCell x.1 (shift x.1 (off x.2))) 0 0 : sProp 𝕄))]
    exact bigSep_congr fun d _ => bigSep_congr fun r _ => by rw [shift_off_rev]
  unfold toks payToks
  simp only [bigSep_sep']
  rw [hA, hC]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 17 → ℕ) (c : Dev nD) : iprop(records m K ∗ linear c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {s s' : Fin 8} : Iff (recvCell a s = recvCell b s') (a = b ∧ s = s') :=
  ⟨fun h => ⟨Fin.ext (congrArg (fun g : GSem nD τ sig => g.1.1.val) h), recvSem_inj s s' (SemLoc.dma.inj (congrArg Prod.snd h))⟩,
    fun h => by rw [h.1, h.2]⟩
theorem recv_ne_bar {s : Fin 8} : (SemLoc.dma (recvSem s) : SemLoc sig) ≠ .reg barS := fun h => by cases h

theorem Rt_bar (d c : Dev nD) (r : Fin 7) : Rt d r (barCell c) () = 0 := by
  unfold Rt; rw [tallyAt_apply, if_neg]; rintro ⟨h, -⟩; exact recv_ne_bar (congrArg Prod.snd h).symm
theorem Bt_recv (d c : Dev nD) (s : Fin 8) (r : Fin 7) : Bt d r (recvCell c s) () = 0 := by
  unfold Bt; rw [tallyAt_apply, if_neg]; rintro ⟨h, -⟩; exact recv_ne_bar (congrArg Prod.snd h)
theorem Bt_bar (d c : Dev nD) (r : Fin 7) : Bt d r (barCell c) () = if c = shift d (off r) then 1 else 0 := by
  unfold Bt; rw [tallyAt_apply]
  by_cases h : c = shift d (off r)
  · rw [if_pos ⟨by rw [h], rfl⟩, if_pos h]
  · rw [if_neg (fun h' => h (bar_eq_iff.mp h'.1)), if_neg h]
theorem Rt_recv (d c : Dev nD) (s : Fin 8) (r : Fin 7) : Rt d r (recvCell c s) () = if c = shift d (off r) ∧ s = d then N else 0 := by
  unfold Rt; rw [tallyAt_apply]
  by_cases h : c = shift d (off r) ∧ s = d
  · rw [if_pos ⟨by rw [h.1, h.2], rfl⟩, if_pos h]
  · rw [if_neg (fun h' => h (recv_eq_iff.mp h'.1)), if_neg h]

theorem bar_sum : ∀ d c : Dev nD,
    0 + 0 + 0 + 0 + 0 + 0 + 0 + (if c = shift d (off 6) then 1 else 0) + (if c = shift d (off 5) then 1 else 0) + (if c = shift d (off 4) then 1 else 0)
      + (if c = shift d (off 3) then 1 else 0) + (if c = shift d (off 2) then 1 else 0) + (if c = shift d (off 1) then 1 else 0)
      + (if c = shift d (off 0) then 1 else 0) = (if d = c then 0 else 1 : ℕ) := by decide

theorem recv_sum_one : ∀ d c s : Dev nD,
    (if c = shift d (off 6) ∧ s = d then 1 else 0) + (if c = shift d (off 5) ∧ s = d then 1 else 0) + (if c = shift d (off 4) ∧ s = d then 1 else 0)
      + (if c = shift d (off 3) ∧ s = d then 1 else 0) + (if c = shift d (off 2) ∧ s = d then 1 else 0) + (if c = shift d (off 1) ∧ s = d then 1 else 0)
      + (if c = shift d (off 0) ∧ s = d then 1 else 0) + 0 + 0 + 0 + 0 + 0 + 0 + 0 = (if s = d then (if d = c then 0 else 1) else 0 : ℕ) := by decide

theorem recv_sum (n : ℕ) (d c s : Dev nD) :
    (if c = shift d (off 6) ∧ s = d then n else 0) + (if c = shift d (off 5) ∧ s = d then n else 0) + (if c = shift d (off 4) ∧ s = d then n else 0)
      + (if c = shift d (off 3) ∧ s = d then n else 0) + (if c = shift d (off 2) ∧ s = d then n else 0) + (if c = shift d (off 1) ∧ s = d then n else 0)
      + (if c = shift d (off 0) ∧ s = d then n else 0) + 0 + 0 + 0 + 0 + 0 + 0 + 0 = (if s = d then (if d = c then 0 else n) else 0 : ℕ) := by
  have key := congrArg (fun k => n * k) (recv_sum_one d c s)
  simp only [Nat.mul_add, mul_ite, Nat.mul_one, Nat.mul_zero] at key
  exact key

/-- What device `d` owes device `c`'s barrier cell: a unit, unless it is `c` itself. -/
theorem owed_bar (d c : Dev nD) : O₀ d (barCell c) () = if d = c then 0 else 1 := by
  unfold O₀ owedR
  simp only [Pi.add_apply, Finsupp.add_apply, Rt_bar, Bt_bar]
  exact bar_sum d c

/-- What device `d` owes device `c`'s receive cell `s`: a row's credit when `d` is `s` and not `c`. -/
theorem owed_recv (d c : Dev nD) (s : Fin 8) : O₀ d (recvCell c s) () = if s = d then (if d = c then 0 else N) else 0 := by
  unfold O₀ owedR
  simp only [Pi.add_apply, Finsupp.add_apply, Rt_recv, Bt_recv]
  exact recv_sum N d c s

theorem sum_others : ∀ c : Dev nD, (∑ d : Dev nD, if d = c then 0 else 1) = 7 := by decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_recv (c : Dev nD) (s : Fin 8) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq Finset.univ s fun d => if d = c then 0 else N, if_pos (Finset.mem_univ _), if_neg hs]

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map ⟨fun r : Fin 7 => (SemLoc.dma (recvSem (shift c (off r))) : SemLoc sig),
      fun r r' h => shift_off_inj c r r' (recvSem_inj _ _ (SemLoc.dma.inj h))⟩) ?_).trans ?_
  · intro x hx
    rw [Finset.mem_map] at hx
    obtain ⟨r, -, rfl⟩ := hx
    exact Finset.mem_erase.mpr ⟨recv_ne_bar, Finset.mem_univ _⟩
  · rw [bigSep_map]
    exact Entails.of_eq (bigSep_congr fun r _ => congrArg cred (launch_recv c (shift c (off r)) (shift_off_ne c r)))

/-! ## The levels -/

theorem recv_ge : ∀ s : Fin 8, 10 ≤ (recvSem s).val := by decide

theorem Bt_pos {c : Dev nD} {r : Fin 7} {g : GSem nD τ sig} {i : Unit} (h : 0 < Bt c r g i) : i ∈ L g ∧ 0 < lv g i := by
  unfold Bt at h
  obtain ⟨rfl, rfl⟩ := Pipeline.tallyAt_pos h
  exact ⟨by rw [L_tc]; exact Finset.mem_singleton_self _, Nat.one_pos⟩
theorem Rt_pos {c : Dev nD} {r : Fin 7} {g : GSem nD τ sig} {i : Unit} (h : 0 < Rt c r g i) : i ∈ L g ∧ 0 < lv g i := by
  unfold Rt at h
  obtain ⟨rfl, rfl⟩ := Pipeline.tallyAt_pos h
  refine ⟨by rw [L_tc]; exact Finset.mem_singleton_self _, ?_⟩
  show 0 < (if 10 ≤ (recvSem c).val then 2 else 0)
  rw [if_pos (recv_ge c)]; decide

/-- Everything a device owes at launch is a barrier cell or a receive cell: above level 0. -/
theorem O₀_pos {c : Dev nD} {g : GSem nD τ sig} {i : Unit} (h : 0 < O₀ c g i) : i ∈ L g ∧ 0 < lv g i := by
  unfold O₀ owedR at h
  repeat (rcases Pipeline.add_pos_cases h with h | h; swap; first | exact Bt_pos h | exact Rt_pos h)
  first | exact Bt_pos h | exact Rt_pos h

/-- A wait on a level-0 semaphore (the pipeline's staging semaphores are such) is below all of it. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g i hg => by
      have hp := O₀_pos hg
      refine ⟨hp.1, ?_⟩
      show (if 10 ≤ q.val then 2 else 0) < lv g i
      rw [if_neg (by omega)]; exact hp.2
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Hz⟩
  isplitr; · iempintro
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: given each device's
    body, every weakly fair execution of the program — the eight kernels meeting on the barrier semaphore, then each
    copying its row to the seven others — terminates, and every final state has each device's arrays at the computed
    contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

end Cert.KernelIdeal.Launch
end
-- ==== Proof.WSpec.lean ====
/-
  What the kernel computes, as pure functions of the eight devices' blocks of the input.

  Every device first takes the column-wise maximum of its own 4096 x 1024 block (one row of 1024 numbers),
  the devices exchange these rows so that each holds all eight in an 8 x 1 x 1024 array, and each device then
  takes the column-wise maximum of the eight rows. `commVal` is that array, `outVal` the result.
-/
import proofs.«900921_g7700000000000922_dist_max_ax0_shard0_i_m4096_n1024_v7x_i8_f32_1_alg».proof.Proof.Gen.Kernel.Skeleton
import Idealize.ShloMosaic.Lib.ValueIdx

noncomputable section

namespace Cert.Kernel.Spec

open Cert.Kernel Cert.Kernel.Gen Idealize.ShloMosaic

variable {F : FTy → Type} [FloatOps F]

/-- The exchanged array: row `s` is the column-wise maximum of device `s`'s block. -/
def commVal (X : Dev nD → Vec F S4096x1024 .f32) : Vec F S8x1x1024 .f32 :=
  fun i => k0_pay2 (X (⟨(i 0).val, (i 0).isLt⟩ : Fin 8)) (ValueIdx.ix3 (0 : Fin 1) (0 : Fin 1) (⟨(i 2).val, (i 2).isLt⟩ : Fin 1024))

/-- The result on every device: the column-wise maximum of the eight rows. -/
def outVal (X : Dev nD → Vec F S4096x1024 .f32) : Vec F S1x1024 .f32 :=
  k0_pay1 (k0_pay3 (commVal X))

end Cert.Kernel.Spec

end
-- ==== Proof.WProto.lean ====
import proofs.«900921_g7700000000000922_dist_max_ax0_shard0_i_m4096_n1024_v7x_i8_f32_1_alg».proof.Proof.WSpec
import proofs.«900921_g7700000000000922_dist_max_ax0_shard0_i_m4096_n1024_v7x_i8_f32_1_alg».proof.Proof.Gen.Kernel.Frame

import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the copy for the exchange, whose duties are named by `Fin 8` -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring of eight devices -/

/-- The device `k` places after `c`. -/
def shift (c : Dev nD) (k : Fin 8) : Dev nD := ⟨(c.val + k.val) % 8, Nat.mod_lt _ (by decide)⟩
/-- The offset that undoes `k`. -/
def neg8 (k : Fin 8) : Fin 8 := ⟨(8 - k.val) % 8, Nat.mod_lt _ (by decide)⟩
/-- The offsets 1 … 7. -/
def off (r : Fin 7) : Fin 8 := ⟨r.val + 1, by omega⟩
/-- The offset 1 … 7 back from the device that is `off r` places on: 7 … 1. -/
def rev7 (r : Fin 7) : Fin 7 := ⟨6 - r.val, by omega⟩

theorem shift_neg8 : ∀ (c : Dev nD) (k : Fin 8), shift (shift c k) (neg8 k) = c := by decide
theorem neg8_off : ∀ r : Fin 7, neg8 (off r) = off (rev7 r) := by decide
theorem rev7_rev7 : ∀ r : Fin 7, rev7 (rev7 r) = r := by decide
theorem shift_off_rev : ∀ (c : Dev nD) (r : Fin 7), shift (shift c (off r)) (off (rev7 r)) = c := by decide
theorem shift_off_ne : ∀ (c : Dev nD) (r : Fin 7), shift c (off r) ≠ c := by decide
theorem shift_off_inj : ∀ (c : Dev nD) (r r' : Fin 7), shift c (off r) = shift c (off r') → r = r' := by decide
theorem off_ne_zero : ∀ r : Fin 7, off r ≠ 0 := by decide
theorem exists_off_of_ne : ∀ (c d : Dev nD), d ≠ c → ∃ r : Fin 7, d = shift c (off r) := by decide

/-- The program's device words: the barrier signals go to the devices 1 … 7 places on, -/
theorem dev1_eq : ∀ c : Dev nD, (⟨k0_dev1 c, k0_dev1_lt c⟩ : Dev nD) = shift c (off 0) := by decide +kernel
theorem dev2_eq : ∀ c : Dev nD, (⟨k0_dev2 c, k0_dev2_lt c⟩ : Dev nD) = shift c (off 1) := by decide +kernel
theorem dev3_eq : ∀ c : Dev nD, (⟨k0_dev3 c, k0_dev3_lt c⟩ : Dev nD) = shift c (off 2) := by decide +kernel
theorem dev4_eq : ∀ c : Dev nD, (⟨k0_dev4 c, k0_dev4_lt c⟩ : Dev nD) = shift c (off 3) := by decide +kernel
theorem dev5_eq : ∀ c : Dev nD, (⟨k0_dev5 c, k0_dev5_lt c⟩ : Dev nD) = shift c (off 4) := by decide +kernel
theorem dev6_eq : ∀ c : Dev nD, (⟨k0_dev6 c, k0_dev6_lt c⟩ : Dev nD) = shift c (off 5) := by decide +kernel
theorem dev7_eq : ∀ c : Dev nD, (⟨k0_dev7 c, k0_dev7_lt c⟩ : Dev nD) = shift c (off 6) := by decide +kernel
/-- and so do the seven copies. -/
theorem dev8_eq : ∀ c : Dev nD, (⟨k0_dev8 c, k0_dev8_lt c⟩ : Dev nD) = shift c (off 0) := by decide +kernel
theorem dev9_eq : ∀ c : Dev nD, (⟨k0_dev9 c, k0_dev9_lt c⟩ : Dev nD) = shift c (off 1) := by decide +kernel
theorem dev10_eq : ∀ c : Dev nD, (⟨k0_dev10 c, k0_dev10_lt c⟩ : Dev nD) = shift c (off 2) := by decide +kernel
theorem dev11_eq : ∀ c : Dev nD, (⟨k0_dev11 c, k0_dev11_lt c⟩ : Dev nD) = shift c (off 3) := by decide +kernel
theorem dev12_eq : ∀ c : Dev nD, (⟨k0_dev12 c, k0_dev12_lt c⟩ : Dev nD) = shift c (off 4) := by decide +kernel
theorem dev13_eq : ∀ c : Dev nD, (⟨k0_dev13 c, k0_dev13_lt c⟩ : Dev nD) = shift c (off 5) := by decide +kernel
theorem dev14_eq : ∀ c : Dev nD, (⟨k0_dev14 c, k0_dev14_lt c⟩ : Dev nD) = shift c (off 6) := by decide +kernel

/-- The offsets the program computes from a word: the row, and the receive semaphore, of the device `r + 1` places on. -/
theorem off4_eq : ∀ (c : Dev nD) (r : Fin 7), k0_off4 c (BitVec.ofNat 32 (1 + r.val)) = ![(shift c (off r)).val] := by decide +kernel
theorem off5_eq : ∀ (c : Dev nD) (r : Fin 7), k0_off5 c (BitVec.ofNat 32 (1 + r.val)) = ![(shift c (off r)).val, 0, 0] := by decide +kernel

/-! ## The semaphores and the cells -/

/-- The barrier semaphore. -/
abbrev barS : Sem sig := (SemArray.scalar (sig.barrier 0 rfl) : Sems sig S_).sem
/-- The kernel's sixteen own DMA semaphores: the eight send semaphores, then the eight receive semaphores. -/
def ownSem (j : Fin 16) : DmaSem sig := ⟨2 + j.val, by have := j.isLt; show 2 + j.val < 18; omega⟩
def sendSem (k : Fin 8) : DmaSem sig := ownSem ⟨k.val, by omega⟩
def recvSem (s : Fin 8) : DmaSem sig := ownSem ⟨8 + s.val, by omega⟩

abbrev osem : Fin 16 → SemLoc sig := fun j => .dma (ownSem j)
/-- All seventeen: the barrier, then the sixteen. -/
def csem : Fin 17 → SemLoc sig := fun j => if h : j.val = 0 then .reg barS else .dma (ownSem ⟨j.val - 1, by omega⟩)
abbrev kcell (ck : Dev nD × Fin 17) : GSem nD τ sig := ((ck.1 : Thread nD τ), csem ck.2)

abbrev barCell (c : Dev nD) : GSem nD τ sig := ((c : Thread nD τ), .reg barS)
abbrev sendCell (c : Dev nD) (k : Fin 8) : GSem nD τ sig := ((c : Thread nD τ), .dma (sendSem k))
abbrev recvCell (c : Dev nD) (s : Fin 8) : GSem nD τ sig := ((c : Thread nD τ), .dma (recvSem s))
abbrev ownCell (c : Dev nD) (j : Fin 16) : GSem nD τ sig := ((c : Thread nD τ), .dma (ownSem j))

/-- The semaphores as the program slices them out of its two arrays. -/
theorem sendSem_eq_1 : ((cc0_scratch1.slice (Rect.unit (s := S8) ![1] S1.size inb_S8_S1_1)).squeeze S_ squeezes_S1_S_).sem = sendSem (off 0) := by decide
theorem sendSem_eq_2 : ((cc0_scratch1.slice (Rect.unit (s := S8) ![2] S1.size inb_S8_S1_2)).squeeze S_ squeezes_S1_S_).sem = sendSem (off 1) := by decide
theorem sendSem_eq_3 : ((cc0_scratch1.slice (Rect.unit (s := S8) ![3] S1.size inb_S8_S1_3)).squeeze S_ squeezes_S1_S_).sem = sendSem (off 2) := by decide
theorem sendSem_eq_4 : ((cc0_scratch1.slice (Rect.unit (s := S8) ![4] S1.size inb_S8_S1_4)).squeeze S_ squeezes_S1_S_).sem = sendSem (off 3) := by decide
theorem sendSem_eq_5 : ((cc0_scratch1.slice (Rect.unit (s := S8) ![5] S1.size inb_S8_S1_5)).squeeze S_ squeezes_S1_S_).sem = sendSem (off 4) := by decide
theorem sendSem_eq_6 : ((cc0_scratch1.slice (Rect.unit (s := S8) ![6] S1.size inb_S8_S1_6)).squeeze S_ squeezes_S1_S_).sem = sendSem (off 5) := by decide
theorem sendSem_eq_7 : ((cc0_scratch1.slice (Rect.unit (s := S8) ![7] S1.size inb_S8_S1_7)).squeeze S_ squeezes_S1_S_).sem = sendSem (off 6) := by decide
theorem recvSem_own_eq : ∀ c : Dev nD, ((cc0_scratch2.slice (Rect.unit (s := S8) (k0_off2 c) S1.size (k0_off2_inb c))).squeeze S_ squeezes_S1_S_).sem = recvSem c := by decide +kernel
theorem recvSem_peer_eq : ∀ (c : Dev nD) (r : Fin 7), ((cc0_scratch2.slice (Rect.unit (s := S8) (k0_off4 c (BitVec.ofNat 32 (1 + r.val))) S1.size (k0_off4_inb c r))).squeeze S_ squeezes_S1_S_).sem = recvSem (shift c (off r)) := by decide +kernel

theorem sendSem_ne_recvSem : ∀ k s : Fin 8, sendSem k ≠ recvSem s := by decide
theorem sendSem_inj : ∀ k k' : Fin 8, sendSem k = sendSem k' → k = k' := by decide
theorem recvSem_inj : ∀ s s' : Fin 8, recvSem s = recvSem s' → s = s' := by decide

/-! ## The exchanged array, row by row -/

abbrev commM : Memref sig .tc .vmem S8x1x1024 .f32 := Memref.whole cc0_scratch0
/-- Device `c`'s own row, as the program slices it. -/
abbrev ownM (c : Dev nD) : Memref sig .tc .vmem S1x1024 .f32 :=
  (commM.slice (Rect.unit (s := S8x1x1024) (k0_off3 c) S1x1x1024.size (k0_off3_inb c)) (fun _ => rfl)).squeeze S1x1024 squeezes_S1x1x1024_S1x1024
/-- The row of the device `r + 1` places on, as the program slices it. -/
abbrev peerM (c : Dev nD) (r : Fin 7) : Memref sig .tc .vmem S1x1024 .f32 :=
  (commM.slice (Rect.unit (s := S8x1x1024) (k0_off5 c (BitVec.ofNat 32 (1 + r.val))) S1x1x1024.size (k0_off5_inb c r)) (fun _ => rfl)).squeeze S1x1024 squeezes_S1x1x1024_S1x1024

/-- The units a copy of one row puts on a semaphore. -/
abbrev N : ℕ := (ownM (0 : Dev nD)).view.dmaCredit

/-- The elements of row `s` of the array. -/
def rowSet (s : Fin 8) : Finset S8x1x1024.Idx := Finset.univ.filter fun i => (i 0).val = s.val

/-- Each device's block of the input, as the region finds it in its argument array. -/
def xblk (c : Dev nD) : Vec F S4096x1024 .f32 := m ((c : Thread nD τ).loc main_arg0)
/-- The array after the exchange: the same on every device. -/
def comm : Vec F S8x1x1024 .f32 := Spec.commVal (xblk m)

/-- Rows `S` of device `p`'s array, held at share `q` with contents `f`. -/
def rowsPts (p : Dev nD) (S : Finset S8x1x1024.Idx) (q : PosShare TreeShare) (f : Vec F S8x1x1024 .f32) : sProp 𝕄 :=
  ((p : Thread nD τ).loc cc0_scratch0) ↦[S]{q} f

omit [FloatOps F] in
instance rowsPts_storable (p : Dev nD) (S) (q) (f : Vec F S8x1x1024 .f32) : BI.Storable (upEmb : UEmb _ 𝕄) (rowsPts (F := F) p S q f) := by
  unfold rowsPts; infer_instance

/-! ## The schedule: one round per cell -/

/-- What device `d`'s barrier signal hands device `c`: row `c` of `d`'s array, where `c`'s copy to `d` will land, and that
    `d`'s receive cell for it stands at round 0. -/
def barPay (c d : Dev nD) : sProp 𝕄 := iprop((∃ f, rowsPts d (rowSet c) fullShare f) ∗ reached ER (recvCell d c) 0)
/-- What the send semaphore `k` hands back: the share of the device's own row that the copy read. -/
def sendPay (c : Dev nD) (k : Fin 8) : sProp 𝕄 := rowsPts c (rowSet c) (Transfers.shareTok fullShare 8 k) (comm m)
/-- What the receive semaphore `s` hands over: row `s`, holding device `s`'s maxima. -/
def recvPay (c : Dev nD) (s : Fin 8) : sProp 𝕄 := rowsPts c (rowSet s) fullShare (comm m)

def idx8 (n : ℕ) : Fin 8 := ⟨n % 8, Nat.mod_lt _ (by decide)⟩

/-- Round 0 only. A barrier cell has one duty of one unit per OTHER device, named by the device that pays it; send
    semaphore `k ≠ 0` and receive semaphore `s ≠ c` have the one duty `0` of a row's credit; the two semaphores the
    program never uses have none. -/
def Rd : Rounds.Schedule (GSem nD τ sig) (Fin 8) 𝕄 where
  duties g r := if r = 0 ∧ g.1.2 = .tc then
      (match g.2 with
        | .reg _ => Finset.univ.erase g.1.1
        | .dma q => if (3 ≤ q.val ∧ q.val < 10) ∨ (10 ≤ q.val ∧ q.val - 10 ≠ g.1.1.val) then {0} else ∅)
    else ∅
  amount g _ _ := match g.2 with | .reg _ => 1 | .dma _ => N
  payload g _ d := match g.2 with
    | .reg _ => barPay g.1.1 d
    | .dma q => if q.val < 10 then sendPay m g.1.1 (idx8 (q.val - 2)) else recvPay m g.1.1 (idx8 (q.val - 10))
  amount_pos g _ _ _ := by
    cases g.2 with
    | reg _ => exact Nat.one_pos
    | dma _ => exact View.dmaCredit_pos _ (by decide)

instance Rd_payload_storable (g : GSem nD τ sig) (r : ℕ) (d : Fin 8) : BI.Storable (upEmb : UEmb _ 𝕄) ((Rd (F := F) m).payload g r d) := by
  show BI.Storable upEmb (match g.2 with
    | .reg _ => barPay g.1.1 d
    | .dma q => if q.val < 10 then sendPay m g.1.1 (idx8 (q.val - 2)) else recvPay m g.1.1 (idx8 (q.val - 10)))
  unfold barPay sendPay recvPay
  (repeat' split) <;> infer_instance

/-! ## The schedule's tables -/

section Sched
variable (c : Dev nD)

theorem erase_eq_map : ∀ c : Dev nD, (Finset.univ.erase c : Finset (Fin 8))
    = Finset.univ.map ⟨fun r : Fin 7 => shift c (off r), fun r r' h => shift_off_inj c r r' h⟩ := by decide

theorem idx8_send : ∀ r : Fin 7, idx8 ((sendSem (off r)).val - 2) = off r := by decide
theorem idx8_recv : ∀ s : Fin 8, idx8 ((recvSem s).val - 10) = s := by decide

theorem duties_bar : (Rd (F := F) m).duties (barCell c) 0 = Finset.univ.erase c := by dsimp only [Rd]; exact if_pos ⟨rfl, rfl⟩
theorem duties_send (r : Fin 7) : (Rd (F := F) m).duties (sendCell c (off r)) 0 = {0} := by
  dsimp only [Rd]; rw [if_pos ⟨rfl, rfl⟩]
  exact if_pos (Or.inl ⟨by show 3 ≤ 2 + (r.val + 1); omega, by show 2 + (r.val + 1) < 10; omega⟩)
theorem duties_recv (s : Fin 8) (hs : s ≠ c) : (Rd (F := F) m).duties (recvCell c s) 0 = {0} := by
  dsimp only [Rd]; rw [if_pos ⟨rfl, rfl⟩]
  exact if_pos (Or.inr ⟨by show 10 ≤ 2 + (8 + s.val); omega, by show 2 + (8 + s.val) - 10 ≠ c.val; intro h; exact hs (Fin.ext (by omega))⟩)
theorem duties_send0 : (Rd (F := F) m).duties (sendCell c 0) 0 = ∅ := by
  dsimp only [Rd]; rw [if_pos ⟨rfl, rfl⟩]
  exact if_neg (by show ¬((3 ≤ 2 + 0 ∧ 2 + 0 < 10) ∨ (10 ≤ 2 + 0 ∧ 2 + 0 - 10 ≠ c.val)); omega)
theorem duties_recv_own : (Rd (F := F) m).duties (recvCell c c) 0 = ∅ := by
  dsimp only [Rd]; rw [if_pos ⟨rfl, rfl⟩]
  exact if_neg (by show ¬((3 ≤ 2 + (8 + c.val) ∧ 2 + (8 + c.val) < 10) ∨ (10 ≤ 2 + (8 + c.val) ∧ 2 + (8 + c.val) - 10 ≠ c.val)); omega)
theorem duties_later (g : GSem nD τ sig) : ∀ r, 1 ≤ r → (Rd (F := F) m).duties g r = ∅ :=
  fun r hr => by dsimp only [Rd]; exact if_neg fun h => by omega

theorem amount_bar (d : Fin 8) : (Rd (F := F) m).amount (barCell c) 0 d = 1 := rfl
theorem amount_own (j : Fin 16) (d : Fin 8) : (Rd (F := F) m).amount (ownCell c j) 0 d = N := rfl

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ c),
    Finset.card_univ, Fintype.card_fin]
  rfl
theorem expect_send (r : Fin 7) : (Rd (F := F) m).expect (sendCell c (off r)) 0 = N := by
  unfold Schedule.expect Schedule.amountOf; rw [duties_send, Finset.sum_singleton]; rfl
theorem expect_recv (s : Fin 8) (hs : s ≠ c) : (Rd (F := F) m).expect (recvCell c s) 0 = N := by
  unfold Schedule.expect Schedule.amountOf; rw [duties_recv m c s hs, Finset.sum_singleton]; rfl

theorem payload_bar (d : Fin 8) : (Rd (F := F) m).payload (barCell c) 0 d = barPay c d := rfl
theorem payload_send (r : Fin 7) (d : Fin 8) : (Rd (F := F) m).payload (sendCell c (off r)) 0 d = sendPay m c (off r) := by
  dsimp only [Rd]
  show (if (sendSem (off r)).val < 10 then sendPay m c (idx8 ((sendSem (off r)).val - 2)) else recvPay m c (idx8 ((sendSem (off r)).val - 10))) = _
  rw [if_pos (by show 2 + (r.val + 1) < 10; omega), idx8_send]
theorem payload_recv (s : Fin 8) (d : Fin 8) : (Rd (F := F) m).payload (recvCell c s) 0 d = recvPay m c s := by
  dsimp only [Rd]
  show (if (recvSem s).val < 10 then sendPay m c (idx8 ((recvSem s).val - 2)) else recvPay m c (idx8 ((recvSem s).val - 10))) = _
  rw [if_neg (by show ¬ (2 + (8 + s.val) < 10); omega), idx8_recv]

/-- The whole of a barrier cell's round: every other device's payload, by offset. -/
theorem rest_bar : bigSep ((Rd (F := F) m).duties (barCell c) 0 \ ∅) (fun d => (Rd (F := F) m).payload (barCell c) 0 d)
    = bigSep Finset.univ fun r : Fin 7 => barPay (F := F) c (shift c (off r)) := by
  rw [Finset.sdiff_empty, duties_bar, erase_eq_map c, bigSep_map]; rfl
theorem rest_send (r : Fin 7) : bigSep ((Rd (F := F) m).duties (sendCell c (off r)) 0 \ ∅) (fun d => (Rd (F := F) m).payload (sendCell c (off r)) 0 d) = sendPay m c (off r) := by
  rw [Finset.sdiff_empty, duties_send, bigSep_singleton, payload_send]
theorem rest_recv (s : Fin 8) (hs : s ≠ c) : bigSep ((Rd (F := F) m).duties (recvCell c s) 0 \ ∅) (fun d => (Rd (F := F) m).payload (recvCell c s) 0 d) = recvPay m c s := by
  rw [Finset.sdiff_empty, duties_recv m c s hs, bigSep_singleton, payload_recv]

end Sched

/-! ## What each device owes at launch; the levels -/

/-- One unit to the barrier cell of the device `r + 1` places on. -/
def Bt (c : Dev nD) (r : Fin 7) : CellTallies nD τ sig Unit := tallyAt (barCell (shift c (off r))) () 1
/-- A row's credit to that device's receive cell for `c`. -/
def Rt (c : Dev nD) (r : Fin 7) : CellTallies nD τ sig Unit := tallyAt (recvCell (shift c (off r)) c) () N
/-- The seven copies' credits, summed so that the copies peel them in program order, -/
def owedR (c : Dev nD) : CellTallies nD τ sig Unit := Rt c 6 + Rt c 5 + Rt c 4 + Rt c 3 + Rt c 2 + Rt c 1 + Rt c 0
/-- and the seven signals' units before them. -/
def O₀ (c : Dev nD) : CellTallies nD τ sig Unit := owedR c + Bt c 6 + Bt c 5 + Bt c 4 + Bt c 3 + Bt c 2 + Bt c 1 + Bt c 0

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

/-- Every cell's invariant, under the names the launch allocated them at, and that every cell stands at round 0: shared by all. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

/-- The tokens of the duties device `c` pays: per offset, its unit on that device's barrier, its copy's landing on that
    device's receive cell, and the copy's departure on its own send cell. -/
def payToks (c : Dev nD) : sProp 𝕄 :=
  bigSep Finset.univ fun r : Fin 7 =>
    iprop(dutyTok ER (barCell (shift c (off r))) 0 c ∗ dutyTok ER (recvCell (shift c (off r)) c) 0 0 ∗ dutyTok ER (sendCell c (off r)) 0 0)
/-- What stays with device `c`: its position in each of its seventeen cells, and those tokens. -/
def linear (c : Dev nD) : sProp 𝕄 :=
  iprop((bigSep Finset.univ fun j : Fin 17 => atPos ER (kcell (c, j)) 0 ∅ 0) ∗ payToks c)
def G' (c : Dev nD) : sProp 𝕄 := iprop(∃ K, records m K ∗ linear c)
/-- The credit the launch deals device `c`: seven units on its barrier, a row's credit on each receive cell it waits on. -/
def creds (c : Dev nD) : sProp 𝕄 :=
  iprop(cred (tallyAt (barCell c) () 7) ∗ bigSep Finset.univ fun r : Fin 7 => cred (tallyAt (recvCell c (shift c (off r))) () N))
def start (c : Dev nD) : sProp 𝕄 := iprop(G' m c ∗ creds c ∗ levAts L lv)

/-- Before the body: that, and the exchanged array at some contents. -/
def Φ₀ (c : Dev nD) : sProp 𝕄 := iprop(start m c ∗ ∃ f : Buf (Elt F) ((c : Thread nD τ).loc cc0_scratch0), ((c : Thread nD τ).loc cc0_scratch0) ↦{fullShare} f)
/-- After it: the array back whole, and the sixteen own semaphores at zero, out of their cells. -/
def Φ₁ (c : Dev nD) : sProp 𝕄 :=
  iprop((∃ f : Buf (Elt F) ((c : Thread nD τ).loc cc0_scratch0), ((c : Thread nD τ).loc cc0_scratch0) ↦{fullShare} f)
    ∗ Pipeline.ownSems0 (Ix := Unit) (Name := ℕ) (U := UU) (Lvl := ℕ) (Val := Elt F) (τ := τ) osem c)

/-! ## The pipeline's proof data -/

def xstg (c : Dev nD) : (cc0_stg0_0 : Ref sig .tc).ty.Contents (Elt F) :=
  (win0_0.blk (0 : Fin 1)).view.read (Elt F) ((s₀ m ρ).mem ((c : Thread nD τ).loc main_arg0))
/-- The result on every device. -/
def outAt : (cc0_stg1_0 : Ref sig .tc).ty.Contents (Elt F) := Spec.outVal (xblk m)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Proto
end
-- ==== Proof.WViews.lean ====
import proofs.«900921_g7700000000000922_dist_max_ax0_shard0_i_m4096_n1024_v7x_i8_f32_1_alg».proof.Proof.WSpec
import proofs.«900921_g7700000000000922_dist_max_ax0_shard0_i_m4096_n1024_v7x_i8_f32_1_alg».proof.Proof.Gen.Kernel.Frame
import proofs.«900921_g7700000000000922_dist_max_ax0_shard0_i_m4096_n1024_v7x_i8_f32_1_alg».proof.Proof.WProto
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Views

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Proto

local notation "𝕄" => MT nD τ sig Unit (Elt F) ℕ UU ℕ

/-! ## Where the program's row views sit in the 8 x 1 x 1024 array -/

/-- Membership in row `s`: the leading coordinate is `s`. -/
theorem mem_rowSet (s : Fin 8) (i : S8x1x1024.Idx) : i ∈ rowSet s ↔ (i 0).val = s.val := by
  unfold rowSet; rw [Finset.mem_filter]; exact ⟨fun h => h.2, fun h => ⟨Finset.mem_univ _, h⟩⟩

/-- The unit-stride rectangle of sizes 1 x 1 x 1024 at offsets `(n, 0, 0)` is the set of indices with leading coordinate `n`:
    the two trailing axes are kept whole (extents 1 and 1024), the leading one is pinned to `n`. -/
theorem unit_row_set (n : Nat) (inb : ∀ a, (![n, 0, 0] : Fin 3 → Nat) a + S1x1x1024.size a ≤ S8x1x1024.size a) :
    (Rect.unit (s := S8x1x1024) ![n, 0, 0] S1x1x1024.size inb).set
      = Finset.univ.filter fun i : S8x1x1024.Idx => (i 0).val = n := by
  ext i
  rw [Rect.mem_set_unit, Finset.mem_filter]
  have h1 : (i 1).val < 1 := (i 1).isLt
  have h2 : (i 2).val < 1024 := (i 2).isLt
  constructor
  · intro h
    have h0 : n ≤ (i 0).val ∧ (i 0).val < n + 1 := h 0
    exact ⟨Finset.mem_univ _, by omega⟩
  · rintro ⟨_, h0⟩ a
    match a with
    | ⟨0, _⟩ => show n ≤ (i 0).val ∧ (i 0).val < n + 1; omega
    | ⟨1, _⟩ => show 0 ≤ (i 1).val ∧ (i 1).val < 0 + 1; omega
    | ⟨2, _⟩ => show 0 ≤ (i 2).val ∧ (i 2).val < 0 + 1024; omega

/-- The same for a rectangle whose offsets are only known to EQUAL `(n, 0, 0)`. -/
theorem unit_row_set_of_eq {off : Fin 3 → Nat} (n : Nat) (h : off = ![n, 0, 0])
    (inb : ∀ a, off a + S1x1x1024.size a ≤ S8x1x1024.size a) :
    (Rect.unit (s := S8x1x1024) off S1x1x1024.size inb).set
      = Finset.univ.filter fun i : S8x1x1024.Idx => (i 0).val = n := by
  subst h; exact unit_row_set n inb

/-- A row view's buffer location on any device is that device's array. -/
theorem ownM_loc (c p : Dev nD) : (ownM c).view.loc (p : Thread nD τ) = (p : Thread nD τ).loc cc0_scratch0 := rfl
theorem peerM_loc (c : Dev nD) (r : Fin 7) (p : Dev nD) : (peerM c r).view.loc (p : Thread nD τ) = (p : Thread nD τ).loc cc0_scratch0 := rfl

/-- The program's own-row view covers exactly row `c`; -/
theorem ownM_set (c : Dev nD) : (ownM c).view.set = rowSet c := by
  show (((View.whole cc0_scratch0).slice (Rect.unit (s := S8x1x1024) (k0_off3 c) S1x1x1024.size (k0_off3_inb c))).reshape S1x1024 _).set = _
  rw [View.set_reshape, View.set_slice_whole]
  exact unit_row_set_of_eq c.val (k0_off3_eq c) _
/-- its view of the row of the device `r + 1` places on covers exactly that row. -/
theorem peerM_set (c : Dev nD) (r : Fin 7) : (peerM c r).view.set = rowSet (shift c (off r)) := by
  show (((View.whole cc0_scratch0).slice (Rect.unit (s := S8x1x1024) (k0_off5 c (BitVec.ofNat 32 (1 + r.val))) S1x1x1024.size (k0_off5_inb c r))).reshape S1x1024 _).set = _
  rw [View.set_reshape, View.set_slice_whole]
  exact unit_row_set_of_eq (shift c (off r)).val (off5_eq c r) _

/-- Every row view moves the same number of units. -/
theorem ownM_credit (c : Dev nD) : (ownM c).view.dmaCredit = N := rfl

/-- The eight rows are pairwise disjoint and cover the array. -/
theorem rowSet_disjoint (s s' : Fin 8) (h : s ≠ s') : Disjoint (rowSet s) (rowSet s') := by
  rw [Finset.disjoint_left]
  intro i hi hi'
  rw [mem_rowSet] at hi hi'
  exact h (Fin.ext (hi.symm.trans hi'))
theorem biUnion_rowSet : (Finset.univ : Finset (Fin 8)).biUnion rowSet = (Finset.univ : Finset S8x1x1024.Idx) := by
  ext i
  simp only [Finset.mem_biUnion, Finset.mem_univ, true_and, iff_true]
  exact ⟨⟨(i 0).val, (i 0).isLt⟩, (mem_rowSet _ _).mpr rfl⟩

/-- A copy of row `c` read from contents `fs` and landed over any contents `fd` leaves, on row `c`, what `fs` has there. -/
theorem landed_row (c : Dev nD) (fd fs : Vec F S8x1x1024 .f32) (i : S8x1x1024.Idx) (hi : i ∈ rowSet c) :
    (ownM c).view.write (Elt F) fd ((ownM c).view.read (Elt F) fs) Finset.univ i = fs i := by
  have hi' : i ∈ (ownM c).view.setOn Finset.univ := by rw [View.setOn_univ, ownM_set]; exact hi
  rw [View.write_read_eq_piecewise]
  exact Finset.piecewise_eq_of_mem _ _ _ hi'

/-- The program's store of its own row: the rectangle it writes is row `c`, -/
theorem ownStore_set (c : Dev nD) :
    (commM.access (Rect.unit (s := S8x1x1024) (k0_off1 c) S1x1x1024.size (k0_off1_inb c))).setOn Finset.univ = rowSet c := by
  rw [View.setOn_univ]
  show ((View.whole cc0_scratch0).slice (Rect.unit (s := S8x1x1024) (k0_off1 c) S1x1x1024.size (k0_off1_inb c))).set = _
  rw [View.set_slice_whole]
  exact unit_row_set_of_eq c.val (k0_off1_eq c) _

/-- The exchanged array at an element `i` of row `c` is device `c`'s row of maxima at `y = (0, 0, j)`, `j` the last coordinate of `i`. -/
theorem commVal_at (X : Dev nD → Vec F S4096x1024 .f32) (i : S8x1x1024.Idx) (c : Fin 8) (y : S1x1x1024.Idx)
    (h0 : (i 0).val = c.val) (hy0 : (y 0).val = 0) (hy1 : (y 1).val = 0) (h2 : (i 2).val = (y 2).val) :
    Spec.commVal X i = k0_pay2 (X c) y := by
  have e1 : (⟨(i 0).val, (i 0).isLt⟩ : Fin 8) = c := Fin.ext h0
  have e2 : ValueIdx.ix3 (0 : Fin 1) (0 : Fin 1) (⟨(i 2).val, (i 2).isLt⟩ : Fin 1024) = y := by
    funext a
    match a with
    | ⟨0, _⟩ => exact Fin.ext (by show 0 = (y 0).val; omega)
    | ⟨1, _⟩ => exact Fin.ext (by show 0 = (y 1).val; omega)
    | ⟨2, _⟩ => exact Fin.ext (by show (i 2).val = (y 2).val; exact h2)
  unfold Spec.commVal
  rw [e1, e2]

/-- A payload stored through the 1 x 1 x 1024 rectangle at offsets equal to `(c, 0, 0)`: the rectangle places its index `y` at
    `(c + y 0, y 1, y 2)` with `y 0 = y 1 = 0`, so the element `(c, 0, j)` of row `c` holds the payload at `(0, 0, j)`. -/
theorem store_val_of_eq (c : Dev nD) {off : Fin 3 → Nat} (hoff : off = ![c.val, 0, 0])
    (inb : ∀ a, off a + S1x1x1024.size a ≤ S8x1x1024.size a)
    (X : Dev nD → Vec F S4096x1024 .f32) (f : Vec F S8x1x1024 .f32) (i : S8x1x1024.Idx) (hi : i ∈ rowSet c) :
    View.write (Elt F) (commM.access (Rect.unit (s := S8x1x1024) off S1x1x1024.size inb)) f (k0_pay2 (X c)) Finset.univ i
      = Spec.commVal X i := by
  subst hoff
  have hi' : i ∈ (commM.access (Rect.unit (s := S8x1x1024) ![c.val, 0, 0] S1x1x1024.size inb)).set := by
    show i ∈ ((View.whole cc0_scratch0).slice (Rect.unit (s := S8x1x1024) ![c.val, 0, 0] S1x1x1024.size inb)).set
    rw [View.set_slice_whole, unit_row_set]; exact hi
  obtain ⟨y, rfl⟩ := View.exists_emb_of_mem_set _ hi'
  rw [View.write_emb_of_mem _ _ (Finset.mem_univ y)]
  have y0 : (y 0).val < 1 := (y 0).isLt
  have y1 : (y 1).val < 1 := (y 1).isLt
  refine Eq.trans ?_ (commVal_at X _ c y (by show c.val + 1 * (y 0).val = c.val; omega) (by omega) (by omega)
    (by show 0 + 1 * (y 2).val = (y 2).val; omega)).symm
  generalize k0_pay2 (X c) y = w
  exact cast_eq _ w
/-- and on that row the array then holds the exchanged array's row `c`, when `x` is device `c`'s block. -/
theorem ownStore_val (c : Dev nD) (X : Dev nD → Vec F S4096x1024 .f32) (f : Vec F S8x1x1024 .f32) (i : S8x1x1024.Idx) (hi : i ∈ rowSet c) :
    View.write (Elt F) (commM.access (Rect.unit (s := S8x1x1024) (k0_off1 c) S1x1x1024.size (k0_off1_inb c))) f (k0_pay2 (X c)) Finset.univ i
      = Spec.commVal X i :=
  store_val_of_eq c (k0_off1_eq c) (k0_off1_inb c) X f i hi

/-- Reading a whole staging buffer or the whole array through the all-zero rectangle is the contents. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The elements the program's load of its own row reads lie in row `c`: through the whole array a set of indices is itself. -/
theorem ownLoad_sub (c : Dev nD) :
    commM.view.setOn (Rect.unit (s := S8x1x1024) (k0_off1 c) S1x1x1024.size (k0_off1_inb c)).toLoadRect.set ⊆ rowSet c := by
  intro i hi
  have h : i ∈ (Rect.unit (s := S8x1x1024) (k0_off1 c) S1x1x1024.size (k0_off1_inb c)).set := by
    obtain ⟨x, hx, rfl⟩ := Finset.mem_map.mp hi; exact hx
  rw [unit_row_set_of_eq c.val (k0_off1_eq c)] at h
  exact h

/-- The block the pipeline fetches of a whole-array window is the array. -/
theorem xstg_eq (m : (ℓ : Loc nD τ sig) → Buf (Elt F) ℓ) (ρ : Dev nD → PrngReg) (c : Dev nD) : xstg m ρ c = xblk m c := by
  unfold xstg xblk
  exact Memref.read_access_unit_zero (Elt F) main_arg0 (funext fun a => by fin_cases a <;> rfl) _ _

end Cert.Kernel.Views
end
-- ==== Proof.WRegroup.lean ====
import proofs.«900921_g7700000000000922_dist_max_ax0_shard0_i_m4096_n1024_v7x_i8_f32_1_alg».proof.Proof.WSpec
import proofs.«900921_g7700000000000922_dist_max_ax0_shard0_i_m4096_n1024_v7x_i8_f32_1_alg».proof.Proof.Gen.Kernel.Frame
import proofs.«900921_g7700000000000922_dist_max_ax0_shard0_i_m4096_n1024_v7x_i8_f32_1_alg».proof.Proof.WProto
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Regroup

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Proto

local notation "𝕄" => MT nD τ sig Unit (Elt F) ℕ UU ℕ

variable (m : (ℓ : Loc nD τ sig) → Buf (Elt F) ℓ)

/-! ## Conjunctions over the seven offsets, the eight rows and the seventeen cells, re-indexed -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Over the eight devices: device `c` itself, then the devices 1 … 7 places on. -/
theorem bigSep_fin8_own (c : Fin 8) (Φ : Fin 8 → sProp 𝕄) :
    bigSep Finset.univ Φ = iprop(Φ c ∗ bigSep Finset.univ fun r : Fin 7 => Φ (shift c (off r))) := by
  rw [BI.bigSep_erase (Finset.mem_univ c), erase_eq_map c, bigSep_map]
  rfl

omit [FloatOps F] in
/-- Over the eight offsets: offset 0, then the offsets 1 … 7. -/
theorem bigSep_fin8_off (Φ : Fin 8 → sProp 𝕄) :
    bigSep Finset.univ Φ = iprop(Φ 0 ∗ bigSep Finset.univ fun r : Fin 7 => Φ (off r)) := by
  rw [bigSep_univ_eq_bigSepL [0, 1, 2, 3, 4, 5, 6, 7] (by decide) (by decide) Φ, bigSep_fin7]
  rfl

/-- Where each cell sits among a device's seventeen. -/
def jsend (k : Fin 8) : Fin 17 := ⟨1 + k.val, by omega⟩
def jrecv (s : Fin 8) : Fin 17 := ⟨9 + s.val, by omega⟩
theorem kcell_bar (p : Dev nD) : kcell (p, (0 : Fin 17)) = barCell p := by
  refine congrArg (Prod.mk (p : Thread nD τ)) ?_
  unfold csem
  exact dif_pos rfl
theorem kcell_send (c : Dev nD) (k : Fin 8) : kcell (c, jsend k) = sendCell c k := by
  refine congrArg (Prod.mk (c : Thread nD τ)) ?_
  unfold csem
  rw [dif_neg (by show ¬ (1 + k.val = 0); omega)]
  exact congrArg (fun j => SemLoc.dma (ownSem j)) (Fin.ext (by show 1 + k.val - 1 = k.val; omega))
theorem kcell_recv (c : Dev nD) (s : Fin 8) : kcell (c, jrecv s) = recvCell c s := by
  refine congrArg (Prod.mk (c : Thread nD τ)) ?_
  unfold csem
  rw [dif_neg (by show ¬ (9 + s.val = 0); omega)]
  exact congrArg (fun j => SemLoc.dma (ownSem j)) (Fin.ext (by show 9 + s.val - 1 = 8 + s.val; omega))

omit [FloatOps F] in
/-- A chain over two lists one after the other is the two chains, conjoined. -/
theorem bigSepL_append {I : Type} (l₁ l₂ : List I) (Φ : I → sProp 𝕄) :
    bigSepL (l₁ ++ l₂) Φ = iprop(bigSepL l₁ Φ ∗ bigSepL l₂ Φ) := by
  induction l₁ with
  | nil => exact (equiv_iff.mp emp_sep).symm
  | cons i l ih =>
    rw [List.cons_append, bigSepL_cons, bigSepL_cons, ih]
    exact (BI.sep_assoc.antisymm BI.sep_assoc').symm

omit [FloatOps F] in
/-- A device's seventeen cells: the barrier cell, the eight send cells, the eight receive cells. -/
theorem bigSep_cells (c : Dev nD) (Ψ : GSem nD τ sig → sProp 𝕄) :
    bigSep Finset.univ (fun j : Fin 17 => Ψ (kcell (c, j)))
      = iprop(Ψ (barCell c) ∗ (bigSep Finset.univ fun k : Fin 8 => Ψ (sendCell c k)) ∗ bigSep Finset.univ fun s : Fin 8 => Ψ (recvCell c s)) := by
  rw [bigSep_univ_eq_bigSepL [0, 1, 2, 3, 4, 5, 6, 7, 8, 9, 10, 11, 12, 13, 14, 15, 16] (by decide) (by decide)
      (fun j : Fin 17 => Ψ (kcell (c, j))),
    bigSep_univ_eq_bigSepL [0, 1, 2, 3, 4, 5, 6, 7] (by decide) (by decide) (fun k : Fin 8 => Ψ (sendCell c k)),
    bigSep_univ_eq_bigSepL [0, 1, 2, 3, 4, 5, 6, 7] (by decide) (by decide) (fun s : Fin 8 => Ψ (recvCell c s)),
    show ([0, 1, 2, 3, 4, 5, 6, 7, 8, 9, 10, 11, 12, 13, 14, 15, 16] : List (Fin 17))
      = [0] ++ ([1, 2, 3, 4, 5, 6, 7, 8] ++ [9, 10, 11, 12, 13, 14, 15, 16]) from rfl,
    bigSepL_append, bigSepL_append]
  rfl

omit [FloatOps F] in
/-- Its sixteen own cells: the eight send cells, the eight receive cells. -/
theorem bigSep_own (c : Dev nD) (Ψ : GSem nD τ sig → sProp 𝕄) :
    bigSep Finset.univ (fun j : Fin 16 => Ψ (ownCell c j))
      = iprop((bigSep Finset.univ fun k : Fin 8 => Ψ (sendCell c k)) ∗ bigSep Finset.univ fun s : Fin 8 => Ψ (recvCell c s)) := by
  rw [bigSep_univ_eq_bigSepL [0, 1, 2, 3, 4, 5, 6, 7, 8, 9, 10, 11, 12, 13, 14, 15] (by decide) (by decide)
      (fun j : Fin 16 => Ψ (ownCell c j)),
    bigSep_univ_eq_bigSepL [0, 1, 2, 3, 4, 5, 6, 7] (by decide) (by decide) (fun k : Fin 8 => Ψ (sendCell c k)),
    bigSep_univ_eq_bigSepL [0, 1, 2, 3, 4, 5, 6, 7] (by decide) (by decide) (fun s : Fin 8 => Ψ (recvCell c s))]
  rw [show ([0, 1, 2, 3, 4, 5, 6, 7, 8, 9, 10, 11, 12, 13, 14, 15] : List (Fin 16))
      = [0, 1, 2, 3, 4, 5, 6, 7] ++ [8, 9, 10, 11, 12, 13, 14, 15] from rfl, bigSepL_append]
  rfl

/-! ## Closing the sixteen own cells -/

/-- The round each own cell ends at: 1 where it had its one duty, 0 where the program never uses it. -/
def sendFin (k : Fin 8) : ℕ := if k = 0 then 0 else 1
def recvFin (c s : Fin 8) : ℕ := if s = c then 0 else 1

omit [FloatOps F] in
/-- Under a persistent fact, a conjunction maps member by member. -/
theorem bigSep_under_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  refine (Entails.of_eq (bigSep_sep' S (fun _ => R) Φ).symm).trans ?_
  exact bigSep_mono h

/-- One cell's invariant out of the records. -/
theorem records_inv (K : Dev nD × Fin 17 → ℕ) (ck : Dev nD × Fin 17) : records m K ⊢ cellInv ER (Rd m) (K ck) (kcell ck) := by
  unfold records
  exact sep_elim_left.trans (bigSep_elim (Finset.mem_univ ck))

/-- A send cell past its last round closes: cell 0 has no duty at all, the others none from round 1 on. -/
theorem close_send (c : Dev nD) (K : Dev nD × Fin 17 → ℕ) (k : Fin 8) :
    iprop(records m K ∗ atPos ER (sendCell c k) (sendFin k) ∅ 0) ⊢ iprop(|={Set.univ}=> (semVal (sendCell c k) 0 : sProp 𝕄)) := by
  have hlater : ∀ r, sendFin k ≤ r → (Rd (F := F) m).duties (sendCell c k) r = ∅ := by
    intro r hr
    by_cases hk : k = 0
    · subst hk
      rcases Nat.eq_zero_or_pos r with rfl | hpos
      · exact duties_send0 m c
      · exact duties_later m _ r hpos
    · have e : sendFin k = 1 := if_neg hk
      exact duties_later m _ r (by omega)
  refine (sep_mono_left ((records_inv m K (c, jsend k)).trans (Entails.of_eq (by rw [kcell_send])))).trans ?_
  exact Rounds.cell_close ER (Rd m) (Set.mem_univ _) (fun h => h) hlater

/-- A receive cell past its last round closes: the device's own has no duty at all, the others none from round 1 on. -/
theorem close_recv (c : Dev nD) (K : Dev nD × Fin 17 → ℕ) (s : Fin 8) :
    iprop(records m K ∗ atPos ER (recvCell c s) (recvFin c s) ∅ 0) ⊢ iprop(|={Set.univ}=> (semVal (recvCell c s) 0 : sProp 𝕄)) := by
  have hlater : ∀ r, recvFin c s ≤ r → (Rd (F := F) m).duties (recvCell c s) r = ∅ := by
    intro r hr
    by_cases hs : s = c
    · subst hs
      rcases Nat.eq_zero_or_pos r with rfl | hpos
      · exact duties_recv_own m s
      · exact duties_later m _ r hpos
    · have e : recvFin c s = 1 := if_neg hs
      exact duties_later m _ r (by omega)
  refine (sep_mono_left ((records_inv m K (c, jrecv s)).trans (Entails.of_eq (by rw [kcell_recv])))).trans ?_
  exact Rounds.cell_close ER (Rd m) (Set.mem_univ _) (fun h => h) hlater

/-- Every own cell, standing past its last round with nothing taken, gives its semaphore back at zero. -/
theorem close_own (c : Dev nD) (K : Dev nD × Fin 17 → ℕ) :
    iprop(records m K ∗ (bigSep Finset.univ fun k : Fin 8 => atPos ER (sendCell c k) (sendFin k) ∅ 0)
        ∗ bigSep Finset.univ fun s : Fin 8 => atPos ER (recvCell c s) (recvFin c s) ∅ 0)
      ⊢ |={Set.univ}=> (Pipeline.ownSems0 (Ix := Unit) (Name := ℕ) (U := UU) (Lvl := ℕ) (Val := Elt F) (τ := τ) osem c : sProp 𝕄) := by
  have hS : iprop(records m K ∗ bigSep Finset.univ fun k : Fin 8 => atPos ER (sendCell c k) (sendFin k) ∅ 0)
      ⊢ iprop(|={Set.univ}=> bigSep Finset.univ fun k : Fin 8 => (semVal (sendCell c k) 0 : sProp 𝕄)) :=
    (bigSep_under_persistent (R := records m K) fun k _ => close_send m c K k).trans (bigSep_fupd _ _)
  have hR : iprop(records m K ∗ bigSep Finset.univ fun s : Fin 8 => atPos ER (recvCell c s) (recvFin c s) ∅ 0)
      ⊢ iprop(|={Set.univ}=> bigSep Finset.univ fun s : Fin 8 => (semVal (recvCell c s) 0 : sProp 𝕄)) :=
    (bigSep_under_persistent (R := records m K) fun s _ => close_recv m c K s).trans (bigSep_fupd _ _)
  have hO : (Pipeline.ownSems0 (Ix := Unit) (Name := ℕ) (U := UU) (Lvl := ℕ) (Val := Elt F) (τ := τ) osem c : sProp 𝕄)
      = iprop((bigSep Finset.univ fun k : Fin 8 => (semVal (sendCell c k) 0 : sProp 𝕄))
          ∗ bigSep Finset.univ fun s : Fin 8 => (semVal (recvCell c s) 0 : sProp 𝕄)) :=
    bigSep_own c (fun g => (semVal g 0 : sProp 𝕄))
  rw [hO]
  iintro ⟨#HR, Hs, Hr⟩
  iapply fupd_sep
  isplitl [Hs]
  · iapply hS
    isplitr
    · iexact HR
    · iexact Hs
  · iapply hR
    isplitr
    · iexact HR
    · iexact Hr

/-- One cell's invariant, and that it stands at round 0, out of the records. -/
theorem inv_at (K : Dev nD × Fin 17 → ℕ) (ck : Dev nD × Fin 17) : records m K ⊢ cellInv ER (Rd m) (K ck) (kcell ck) :=
  records_inv m K ck
theorem reached_at (K : Dev nD × Fin 17 → ℕ) (ck : Dev nD × Fin 17) : records m K ⊢ reached ER (kcell ck) 0 := by
  unfold records
  exact sep_elim_right.trans (bigSep_elim (Finset.mem_univ ck))

end Cert.Kernel.Regroup
end
-- ==== Proof.WBody.lean ====
import proofs.«900921_g7700000000000922_dist_max_ax0_shard0_i_m4096_n1024_v7x_i8_f32_1_alg».proof.Proof.WSpec
import proofs.«900921_g7700000000000922_dist_max_ax0_shard0_i_m4096_n1024_v7x_i8_f32_1_alg».proof.Proof.Gen.Kernel.Frame
import proofs.«900921_g7700000000000922_dist_max_ax0_shard0_i_m4096_n1024_v7x_i8_f32_1_alg».proof.Proof.WProto
import proofs.«900921_g7700000000000922_dist_max_ax0_shard0_i_m4096_n1024_v7x_i8_f32_1_alg».proof.Proof.WViews
import proofs.«900921_g7700000000000922_dist_max_ax0_shard0_i_m4096_n1024_v7x_i8_f32_1_alg».proof.Proof.WRegroup
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Proto Cert.Kernel.Views Cert.Kernel.Regroup

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## Small facts the body uses -/

theorem Rt_pos {c : Dev nD} {r : Fin 7} {g : GSem nD τ sig} {u : Unit} (h : 0 < Rt c r g u) : g = recvCell (shift c (off r)) c :=
  (Pipeline.tallyAt_pos h).1

/-- What a device still owes at its barrier wait is owed to receive cells only. -/
theorem owedR_pos {c : Dev nD} {g : GSem nD τ sig} {u : Unit} (h : 0 < owedR c g u) : ∃ r : Fin 7, g = recvCell (shift c (off r)) c := by
  unfold owedR at h
  rcases Pipeline.add_pos_cases h with h | h
  swap; · exact ⟨0, Rt_pos h⟩
  rcases Pipeline.add_pos_cases h with h | h
  swap; · exact ⟨1, Rt_pos h⟩
  rcases Pipeline.add_pos_cases h with h | h
  swap; · exact ⟨2, Rt_pos h⟩
  rcases Pipeline.add_pos_cases h with h | h
  swap; · exact ⟨3, Rt_pos h⟩
  rcases Pipeline.add_pos_cases h with h | h
  swap; · exact ⟨4, Rt_pos h⟩
  rcases Pipeline.add_pos_cases h with h | h
  swap; · exact ⟨5, Rt_pos h⟩
  exact ⟨6, Rt_pos h⟩

omit [FloatOps F] in
/-- The barrier cell sits below every receive cell: a device may wait on its barrier while it owes the seven copies. -/
theorem mayWait_bar (c : Dev nD) : (levAts L lv : sProp 𝕄) ⊢ MayWait (c : Thread nD τ) (.reg barS) () (owedR c) :=
  Pipeline.mayWait_of_levAts (by rw [L_tc]; exact Finset.mem_singleton_self _) (fun g u hg => by
    obtain ⟨r, rfl⟩ := owedR_pos hg
    refine ⟨by rw [L_tc]; exact Finset.mem_singleton_self _, ?_⟩
    show (1 : ℕ) < (if 10 ≤ 2 + (8 + c.val) then 2 else 0)
    rw [if_pos (by omega)]; decide)

theorem recvFin_peer (c : Dev nD) (r : Fin 7) : recvFin c (shift c (off r)) = 1 := if_neg (shift_off_ne c r)
theorem recvFin_own (c : Dev nD) : recvFin c c = 0 := if_pos rfl
theorem sendFin_off (r : Fin 7) : sendFin (off r) = 1 := if_neg (off_ne_zero r)
theorem sendFin_zero : sendFin 0 = 0 := if_pos rfl

/-- One cell's invariant and standing, by the cell's own name. -/
theorem inv_bar (K : Dev nD × Fin 17 → ℕ) (p : Dev nD) : records m K ⊢ cellInv ER (Rd m) (K (p, 0)) (barCell p) :=
  (inv_at m K (p, 0)).trans (Entails.of_eq (by rw [kcell_bar]))
theorem inv_send (K : Dev nD × Fin 17 → ℕ) (c : Dev nD) (k : Fin 8) : records m K ⊢ cellInv ER (Rd m) (K (c, jsend k)) (sendCell c k) :=
  (inv_at m K (c, jsend k)).trans (Entails.of_eq (by rw [kcell_send]))
theorem inv_recv (K : Dev nD × Fin 17 → ℕ) (c : Dev nD) (s : Fin 8) : records m K ⊢ cellInv ER (Rd m) (K (c, jrecv s)) (recvCell c s) :=
  (inv_at m K (c, jrecv s)).trans (Entails.of_eq (by rw [kcell_recv]))
theorem reached_bar (K : Dev nD × Fin 17 → ℕ) (p : Dev nD) : records m K ⊢ reached ER (barCell p) 0 :=
  (reached_at m K (p, 0)).trans (Entails.of_eq (by rw [kcell_bar]))
theorem reached_send (K : Dev nD × Fin 17 → ℕ) (c : Dev nD) (k : Fin 8) : records m K ⊢ reached ER (sendCell c k) 0 :=
  (reached_at m K (c, jsend k)).trans (Entails.of_eq (by rw [kcell_send]))
theorem reached_recv (K : Dev nD × Fin 17 → ℕ) (c : Dev nD) (s : Fin 8) : records m K ⊢ reached ER (recvCell c s) 0 :=
  (reached_at m K (c, jrecv s)).trans (Entails.of_eq (by rw [kcell_recv]))

omit [FloatOps F] in
/-- A device's array, whole, is its eight rows. -/
theorem rows_split (p : Dev nD) (q : PosShare TreeShare) (f : Vec F S8x1x1024 .f32) :
    (((p : Thread nD τ).loc cc0_scratch0) ↦{q} f : sProp 𝕄) = bigSep Finset.univ fun s : Fin 8 => rowsPts p (rowSet s) q f := by
  unfold rowsPts
  refine Eq.trans ?_ (pointsTo_biUnion (ℓ := ((p : Thread nD τ).loc cc0_scratch0)) (q := q) (f := f) Finset.univ (fun s : Fin 8 => rowSet s)
    (fun s _ s' _ h => rowSet_disjoint s s' h))
  exact congrArg (fun S => ((((p : Thread nD τ).loc cc0_scratch0) ↦[S]{q} f : sProp 𝕄))) biUnion_rowSet.symm

/-! ## One copy: device `c` sends its row to the device `r + 1` places on -/

theorem wp_send_row (c : Dev nD) (r : Fin 7) (n : Dev nD) (hn : n = shift c (off r)) (sS sR : DmaSem sig) (hS : sS = sendSem (off r)) (hR : sR = recvSem c)
    {hsc : (ownM c : Memref sig (Dev.tc n : Thread nD τ).2.kind .vmem S1x1024 .f32).view.ref.isScScratch = false}
    {hsrc : (ownM c).view.WordExact} {hdst : (ownM c).view.WordExact}
    {hsem : DmaTarget.Typed .vmem (.dma sR) (.remote (Dev.tc n : Thread nD τ) (ownM c) (.dma sS) hsc)}
    {α : Type} {Q : α → sProp 𝕄} {k : PUnit → Prog (TpuEff nD τ sig (Elt F) Λ₀ .tc) α}
    (fd : Vec F S8x1x1024 .f32) (Oin O : CellTallies nD τ sig Unit) (hO : Oin = O + Rt c r) (W : Waits sig Unit) (κ₁ κ₂ : ℕ) :
    iprop(cellInv ER (Rd m) κ₁ (sendCell c (off r)) ∗ cellInv ER (Rd m) κ₂ (recvCell (shift c (off r)) c)
        ∗ rowsPts c (rowSet c) (Transfers.shareTok fullShare 8 (off r)) (comm m) ∗ rowsPts (shift c (off r)) (rowSet c) fullShare fd
        ∗ owes (c : Thread nD τ) Oin W
        ∗ dutyTok ER (sendCell c (off r)) 0 0 ∗ reached ER (sendCell c (off r)) 0
        ∗ dutyTok ER (recvCell (shift c (off r)) c) 0 0 ∗ reached ER (recvCell (shift c (off r)) c) 0)
      ⊢ iprop(((cred (tallyAt (sendCell c (off r)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownM c) (.remote (Dev.tc n : Thread nD τ) (ownM c) (.dma sS) hsc) (.dma sR) hsrc hdst hsem) k) Q) := by
  subst hn; subst hS; subst hR; subst hO
  unfold rowsPts
  rw [← ownM_set c]
  exact Rounds.wp_send_pointsTo 𝒱₀ ER (Rd m) (c : Thread nD τ) none (c' := (shift c (off r) : Thread nD τ)) (src := ownM c) (dst := ownM c)
    (sS := .dma (sendSem (off r))) (sem := .dma (recvSem c)) (q := Transfers.shareTok fullShare 8 (off r)) (fs := comm m) (κ₁ := κ₁) (κ₂ := κ₂)
    (r₁ := 0) (r₂ := 0) (d₁ := 0) (d₂ := 0) (fd := fd)
    (by rw [duties_send]; exact Finset.mem_singleton_self _) (by rw [duties_recv m _ _ (shift_off_ne c r).symm]; exact Finset.mem_singleton_self _)
    () () N rfl rfl rfl O rfl (W := W)
    (by rw [payload_send]; unfold sendPay rowsPts; rw [ownM_set c])
    (by rw [payload_recv]; unfold recvPay rowsPts; rw [ownM_set c]
        exact Entails.of_eq (pointsTo_congr fun i hi => landed_row c fd (comm m) i hi))

/-! ## Rows of the array: the forms the rules take and give -/

omit [FloatOps F] in
theorem rows_raw (p : Dev nD) (S : Finset S8x1x1024.Idx) (q : PosShare TreeShare) (f : Vec F S8x1x1024 .f32) :
    rowsPts p S q f = ((View.loc (p : Thread nD τ) commM.view ↦[S]{q} f : sProp 𝕄)) := rfl

omit [FloatOps F] in
/-- The same through the rectangle the program's store of its own row names. -/
theorem rows_acc (c : Dev nD) (S : Finset S8x1x1024.Idx) (q : PosShare TreeShare) (f : Vec F S8x1x1024 .f32) :
    rowsPts c S q f = ((View.loc (c : Thread nD τ) (commM.access (Rect.unit (s := S8x1x1024) (k0_off1 c) S1x1x1024.size (k0_off1_inb c))) ↦[S]{q} f : sProp 𝕄)) := rfl

omit [FloatOps F] in
theorem rows_toks_split (p : Dev nD) (S : Finset S8x1x1024.Idx) (f : Vec F S8x1x1024 .f32) :
    rowsPts p S fullShare f ⊢ (iprop(rowsPts p S (Transfers.shareDrop fullShare 8) f ∗ bigSep Finset.univ fun k : Fin 8 => rowsPts p S (Transfers.shareTok fullShare 8 k) f) : sProp 𝕄) := by
  unfold rowsPts; exact Transfers.pointsTo_toks_split fullShare 8
omit [FloatOps F] in
theorem rows_toks_join (p : Dev nD) (S : Finset S8x1x1024.Idx) (f : Vec F S8x1x1024 .f32) :
    (iprop(rowsPts p S (Transfers.shareDrop fullShare 8) f ∗ bigSep Finset.univ fun k : Fin 8 => rowsPts p S (Transfers.shareTok fullShare 8 k) f) : sProp 𝕄) ⊢ rowsPts p S fullShare f := by
  unfold rowsPts; exact Transfers.pointsTo_toks_join fullShare 8

/-! ## The body -/

section Body

variable (K : Dev nD × Fin 17 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m K ∗ linear c ∗ creds c ∗ levAts L lv ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m))

theorem fetch_0 (t : Fin cfg0.N) : (cfg0.win (0 : Fin 2)).fetch t = true := by rw [fin_N t]; rfl

abbrev r2 : Rect S4096x1024 := Rect.unit (s := S4096x1024) ![0, 0] S4096x1024.size inb_S4096x1024_S4096x1024_0_0
abbrev ro : Rect S1x1024 := Rect.unit (s := S1x1024) ![0, 0] S1x1024.size inb_S1x1024_S1x1024_0_0
abbrev r3 : Rect S8x1x1024 := Rect.unit (s := S8x1x1024) ![0, 0, 0] S8x1x1024.size inb_S8x1x1024_S8x1x1024_0_0_0
abbrev rown (c : Dev nD) : Rect S8x1x1024 := Rect.unit (s := S8x1x1024) (k0_off1 c) S1x1x1024.size (k0_off1_inb c)

omit [FloatOps F] in
theorem read_x (f : (cc0_stg0_0 : Ref sig .tc).ty.Contents (Elt F)) : (Memref.whole cc0_stg0_0 : Memref sig .tc .vmem S4096x1024 .f32).view.readAt (Elt F) r2.toLoadRect f = f :=
  Memref.readAt_unit_zero (Elt F) cc0_stg0_0 hz2 _ f
omit [FloatOps F] in
theorem read_comm (f : (cc0_scratch0 : Ref sig .tc).ty.Contents (Elt F)) : (commM : Memref sig .tc .vmem S8x1x1024 .f32).view.readAt (Elt F) r3.toLoadRect f = f :=
  Memref.readAt_unit_zero (Elt F) cc0_scratch0 hz3 _ f
omit [FloatOps F] in
theorem write_out (f w : (cc0_stg1_0 : Ref sig .tc).ty.Contents (Elt F)) :
    ((Memref.whole cc0_stg1_0 : Memref sig .tc .vmem S1x1024 .f32).access ro : View sig .tc _ _ _).write (Elt F) f w Finset.univ = w :=
  Memref.write_access_unit_zero_univ (Elt F) cc0_stg1_0 hz2 _ f w

theorem recvSem_w0 (c : Dev nD) : ((cc0_scratch2.slice (Rect.unit (s := S8) (k0_off4 c 1#32) S1.size (k0_off4_inb c 0))).squeeze S_ squeezes_S1_S_).sem = recvSem (shift c (off 0)) := recvSem_peer_eq c 0
theorem recvSem_w1 (c : Dev nD) : ((cc0_scratch2.slice (Rect.unit (s := S8) (k0_off4 c 2#32) S1.size (k0_off4_inb c 1))).squeeze S_ squeezes_S1_S_).sem = recvSem (shift c (off 1)) := recvSem_peer_eq c 1
theorem recvSem_w2 (c : Dev nD) : ((cc0_scratch2.slice (Rect.unit (s := S8) (k0_off4 c 3#32) S1.size (k0_off4_inb c 2))).squeeze S_ squeezes_S1_S_).sem = recvSem (shift c (off 2)) := recvSem_peer_eq c 2
theorem recvSem_w3 (c : Dev nD) : ((cc0_scratch2.slice (Rect.unit (s := S8) (k0_off4 c 4#32) S1.size (k0_off4_inb c 3))).squeeze S_ squeezes_S1_S_).sem = recvSem (shift c (off 3)) := recvSem_peer_eq c 3
theorem recvSem_w4 (c : Dev nD) : ((cc0_scratch2.slice (Rect.unit (s := S8) (k0_off4 c 5#32) S1.size (k0_off4_inb c 4))).squeeze S_ squeezes_S1_S_).sem = recvSem (shift c (off 4)) := recvSem_peer_eq c 4
theorem recvSem_w5 (c : Dev nD) : ((cc0_scratch2.slice (Rect.unit (s := S8) (k0_off4 c 6#32) S1.size (k0_off4_inb c 5))).squeeze S_ squeezes_S1_S_).sem = recvSem (shift c (off 5)) := recvSem_peer_eq c 5
theorem recvSem_w6 (c : Dev nD) : ((cc0_scratch2.slice (Rect.unit (s := S8) (k0_off4 c 7#32) S1.size (k0_off4_inb c 6))).squeeze S_ squeezes_S1_S_).sem = recvSem (shift c (off 6)) := recvSem_peer_eq c 6

set_option maxHeartbeats 4000000 in
set_option maxRecDepth 65536 in
/-- The body on device `c`, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [semSignalWord, semWaitWord, Prog.lift, Prog.bind_op, Prog.bind_ret, Prog.pure_eq_ret, wp_deviceId]
  unfold bodyPre linear payToks creds
  iintro ⟨⟨⟨#Hrec, ⟨Hat, Htok⟩, ⟨HcB, HcR⟩, #Hlev, ⟨%f0, Hcomm⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  -- the positions, the tokens and the credit, offset by offset
  ihave Hat' := (Entails.of_eq (bigSep_cells c fun g => (atPos ER g 0 ∅ 0 : sProp 𝕄))) $$ Hat
  icases Hat' with ⟨HatB, HatS, HatR⟩
  ihave HatS' := (Entails.of_eq ((bigSep_fin8_off fun k => (atPos ER (sendCell c k) 0 ∅ 0 : sProp 𝕄)).trans (congrArg _ (bigSep_fin7 _)))) $$ HatS
  icases HatS' with ⟨HatS0, HatS_0, HatS_1, HatS_2, HatS_3, HatS_4, HatS_5, HatS_6⟩
  ihave HatR' := (Entails.of_eq ((bigSep_fin8_own c fun s => (atPos ER (recvCell c s) 0 ∅ 0 : sProp 𝕄)).trans (congrArg _ (bigSep_fin7 _)))) $$ HatR
  icases HatR' with ⟨HatRc, HatR_0, HatR_1, HatR_2, HatR_3, HatR_4, HatR_5, HatR_6⟩
  ihave Htok' := (Entails.of_eq (bigSep_fin7 _)) $$ Htok
  icases Htok' with ⟨⟨HtB_0, HtR_0, HtS_0⟩, ⟨HtB_1, HtR_1, HtS_1⟩, ⟨HtB_2, HtR_2, HtS_2⟩, ⟨HtB_3, HtR_3, HtS_3⟩, ⟨HtB_4, HtR_4, HtS_4⟩, ⟨HtB_5, HtR_5, HtS_5⟩, ⟨HtB_6, HtR_6, HtS_6⟩⟩
  ihave HcR' := (Entails.of_eq (bigSep_fin7 _)) $$ HcR
  icases HcR' with ⟨HcR_0, HcR_1, HcR_2, HcR_3, HcR_4, HcR_5, HcR_6⟩
  -- the array, row by row
  ihave Hrows := (Entails.of_eq ((rows_split c fullShare f0).trans ((bigSep_fin8_own c _).trans (congrArg _ (bigSep_fin7 _))))) $$ Hcomm
  icases Hrows with ⟨Hrow_c, Hrow_0, Hrow_1, Hrow_2, Hrow_3, Hrow_4, Hrow_5, Hrow_6⟩
  ihave #HIbp_0 := (inv_bar m K (shift c (off 0))) $$ Hrec
  ihave #HIrp_0 := (inv_recv m K (shift c (off 0)) c) $$ Hrec
  ihave #HIs_0 := (inv_send m K c (off 0)) $$ Hrec
  ihave #HIr_0 := (inv_recv m K c (shift c (off 0))) $$ Hrec
  ihave #HRbp_0 := (reached_bar m K (shift c (off 0))) $$ Hrec
  ihave #HRrp_0 := (reached_recv m K (shift c (off 0)) c) $$ Hrec
  ihave #HRs_0 := (reached_send m K c (off 0)) $$ Hrec
  ihave #HRr_0 := (reached_recv m K c (shift c (off 0))) $$ Hrec
  ihave #HIbp_1 := (inv_bar m K (shift c (off 1))) $$ Hrec
  ihave #HIrp_1 := (inv_recv m K (shift c (off 1)) c) $$ Hrec
  ihave #HIs_1 := (inv_send m K c (off 1)) $$ Hrec
  ihave #HIr_1 := (inv_recv m K c (shift c (off 1))) $$ Hrec
  ihave #HRbp_1 := (reached_bar m K (shift c (off 1))) $$ Hrec
  ihave #HRrp_1 := (reached_recv m K (shift c (off 1)) c) $$ Hrec
  ihave #HRs_1 := (reached_send m K c (off 1)) $$ Hrec
  ihave #HRr_1 := (reached_recv m K c (shift c (off 1))) $$ Hrec
  ihave #HIbp_2 := (inv_bar m K (shift c (off 2))) $$ Hrec
  ihave #HIrp_2 := (inv_recv m K (shift c (off 2)) c) $$ Hrec
  ihave #HIs_2 := (inv_send m K c (off 2)) $$ Hrec
  ihave #HIr_2 := (inv_recv m K c (shift c (off 2))) $$ Hrec
  ihave #HRbp_2 := (reached_bar m K (shift c (off 2))) $$ Hrec
  ihave #HRrp_2 := (reached_recv m K (shift c (off 2)) c) $$ Hrec
  ihave #HRs_2 := (reached_send m K c (off 2)) $$ Hrec
  ihave #HRr_2 := (reached_recv m K c (shift c (off 2))) $$ Hrec
  ihave #HIbp_3 := (inv_bar m K (shift c (off 3))) $$ Hrec
  ihave #HIrp_3 := (inv_recv m K (shift c (off 3)) c) $$ Hrec
  ihave #HIs_3 := (inv_send m K c (off 3)) $$ Hrec
  ihave #HIr_3 := (inv_recv m K c (shift c (off 3))) $$ Hrec
  ihave #HRbp_3 := (reached_bar m K (shift c (off 3))) $$ Hrec
  ihave #HRrp_3 := (reached_recv m K (shift c (off 3)) c) $$ Hrec
  ihave #HRs_3 := (reached_send m K c (off 3)) $$ Hrec
  ihave #HRr_3 := (reached_recv m K c (shift c (off 3))) $$ Hrec
  ihave #HIbp_4 := (inv_bar m K (shift c (off 4))) $$ Hrec
  ihave #HIrp_4 := (inv_recv m K (shift c (off 4)) c) $$ Hrec
  ihave #HIs_4 := (inv_send m K c (off 4)) $$ Hrec
  ihave #HIr_4 := (inv_recv m K c (shift c (off 4))) $$ Hrec
  ihave #HRbp_4 := (reached_bar m K (shift c (off 4))) $$ Hrec
  ihave #HRrp_4 := (reached_recv m K (shift c (off 4)) c) $$ Hrec
  ihave #HRs_4 := (reached_send m K c (off 4)) $$ Hrec
  ihave #HRr_4 := (reached_recv m K c (shift c (off 4))) $$ Hrec
  ihave #HIbp_5 := (inv_bar m K (shift c (off 5))) $$ Hrec
  ihave #HIrp_5 := (inv_recv m K (shift c (off 5)) c) $$ Hrec
  ihave #HIs_5 := (inv_send m K c (off 5)) $$ Hrec
  ihave #HIr_5 := (inv_recv m K c (shift c (off 5))) $$ Hrec
  ihave #HRbp_5 := (reached_bar m K (shift c (off 5))) $$ Hrec
  ihave #HRrp_5 := (reached_recv m K (shift c (off 5)) c) $$ Hrec
  ihave #HRs_5 := (reached_send m K c (off 5)) $$ Hrec
  ihave #HRr_5 := (reached_recv m K c (shift c (off 5))) $$ Hrec
  ihave #HIbp_6 := (inv_bar m K (shift c (off 6))) $$ Hrec
  ihave #HIrp_6 := (inv_recv m K (shift c (off 6)) c) $$ Hrec
  ihave #HIs_6 := (inv_send m K c (off 6)) $$ Hrec
  ihave #HIr_6 := (inv_recv m K c (shift c (off 6))) $$ Hrec
  ihave #HRbp_6 := (reached_bar m K (shift c (off 6))) $$ Hrec
  ihave #HRrp_6 := (reached_recv m K (shift c (off 6)) c) $$ Hrec
  ihave #HRs_6 := (reached_send m K c (off 6)) $$ Hrec
  ihave #HRr_6 := (reached_recv m K c (shift c (off 6))) $$ Hrec
  ihave #HIbar := (inv_bar m K c) $$ Hrec
  simp only [dev1_eq c, dev2_eq c, dev3_eq c, dev4_eq c, dev5_eq c, dev6_eq c, dev7_eq c]
  -- signal 1: to the barrier of the device 1 places on, handing it row `that device` of this array
  iapply (Rounds.wp_signal 𝒱₀ ER (Rd m) (c : Thread nD τ) none (dst := ((shift c (off 0)) : Thread nD τ)) (κ := K ((shift c (off 0)), 0))
      (d := c) (by rw [duties_bar]; exact Finset.mem_erase.mpr ⟨(shift_off_ne c 0).symm, Finset.mem_univ _⟩) ((amount_bar m (shift c (off 0)) c).trans (by decide)) () (owedR c + Bt c 6 + Bt c 5 + Bt c 4 + Bt c 3 + Bt c 2 + Bt c 1) rfl)
    $$ [HO HtB_0 Hrow_0]
  · isplitr; · iexact HIbp_0
    isplitl [HO]; · iexact HO
    isplitl [HtB_0]; · iexact HtB_0
    isplitl [Hrow_0]
    · rw [payload_bar]; unfold barPay
      isplitl [Hrow_0]; · iexists f0; iexact Hrow_0
      iexact HRr_0
    · iexact HRbp_0
  iintro HO
  -- signal 2: to the barrier of the device 2 places on, handing it row `that device` of this array
  iapply (Rounds.wp_signal 𝒱₀ ER (Rd m) (c : Thread nD τ) none (dst := ((shift c (off 1)) : Thread nD τ)) (κ := K ((shift c (off 1)), 0))
      (d := c) (by rw [duties_bar]; exact Finset.mem_erase.mpr ⟨(shift_off_ne c 1).symm, Finset.mem_univ _⟩) ((amount_bar m (shift c (off 1)) c).trans (by decide)) () (owedR c + Bt c 6 + Bt c 5 + Bt c 4 + Bt c 3 + Bt c 2) rfl)
    $$ [HO HtB_1 Hrow_1]
  · isplitr; · iexact HIbp_1
    isplitl [HO]; · iexact HO
    isplitl [HtB_1]; · iexact HtB_1
    isplitl [Hrow_1]
    · rw [payload_bar]; unfold barPay
      isplitl [Hrow_1]; · iexists f0; iexact Hrow_1
      iexact HRr_1
    · iexact HRbp_1
  iintro HO
  -- signal 3: to the barrier of the device 3 places on, handing it row `that device` of this array
  iapply (Rounds.wp_signal 𝒱₀ ER (Rd m) (c : Thread nD τ) none (dst := ((shift c (off 2)) : Thread nD τ)) (κ := K ((shift c (off 2)), 0))
      (d := c) (by rw [duties_bar]; exact Finset.mem_erase.mpr ⟨(shift_off_ne c 2).symm, Finset.mem_univ _⟩) ((amount_bar m (shift c (off 2)) c).trans (by decide)) () (owedR c + Bt c 6 + Bt c 5 + Bt c 4 + Bt c 3) rfl)
    $$ [HO HtB_2 Hrow_2]
  · isplitr; · iexact HIbp_2
    isplitl [HO]; · iexact HO
    isplitl [HtB_2]; · iexact HtB_2
    isplitl [Hrow_2]
    · rw [payload_bar]; unfold barPay
      isplitl [Hrow_2]; · iexists f0; iexact Hrow_2
      iexact HRr_2
    · iexact HRbp_2
  iintro HO
  -- signal 4: to the barrier of the device 4 places on, handing it row `that device` of this array
  iapply (Rounds.wp_signal 𝒱₀ ER (Rd m) (c : Thread nD τ) none (dst := ((shift c (off 3)) : Thread nD τ)) (κ := K ((shift c (off 3)), 0))
      (d := c) (by rw [duties_bar]; exact Finset.mem_erase.mpr ⟨(shift_off_ne c 3).symm, Finset.mem_univ _⟩) ((amount_bar m (shift c (off 3)) c).trans (by decide)) () (owedR c + Bt c 6 + Bt c 5 + Bt c 4) rfl)
    $$ [HO HtB_3 Hrow_3]
  · isplitr; · iexact HIbp_3
    isplitl [HO]; · iexact HO
    isplitl [HtB_3]; · iexact HtB_3
    isplitl [Hrow_3]
    · rw [payload_bar]; unfold barPay
      isplitl [Hrow_3]; · iexists f0; iexact Hrow_3
      iexact HRr_3
    · iexact HRbp_3
  iintro HO
  -- signal 5: to the barrier of the device 5 places on, handing it row `that device` of this array
  iapply (Rounds.wp_signal 𝒱₀ ER (Rd m) (c : Thread nD τ) none (dst := ((shift c (off 4)) : Thread nD τ)) (κ := K ((shift c (off 4)), 0))
      (d := c) (by rw [duties_bar]; exact Finset.mem_erase.mpr ⟨(shift_off_ne c 4).symm, Finset.mem_univ _⟩) ((amount_bar m (shift c (off 4)) c).trans (by decide)) () (owedR c + Bt c 6 + Bt c 5) rfl)
    $$ [HO HtB_4 Hrow_4]
  · isplitr; · iexact HIbp_4
    isplitl [HO]; · iexact HO
    isplitl [HtB_4]; · iexact HtB_4
    isplitl [Hrow_4]
    · rw [payload_bar]; unfold barPay
      isplitl [Hrow_4]; · iexists f0; iexact Hrow_4
      iexact HRr_4
    · iexact HRbp_4
  iintro HO
  -- signal 6: to the barrier of the device 6 places on, handing it row `that device` of this array
  iapply (Rounds.wp_signal 𝒱₀ ER (Rd m) (c : Thread nD τ) none (dst := ((shift c (off 5)) : Thread nD τ)) (κ := K ((shift c (off 5)), 0))
      (d := c) (by rw [duties_bar]; exact Finset.mem_erase.mpr ⟨(shift_off_ne c 5).symm, Finset.mem_univ _⟩) ((amount_bar m (shift c (off 5)) c).trans (by decide)) () (owedR c + Bt c 6) rfl)
    $$ [HO HtB_5 Hrow_5]
  · isplitr; · iexact HIbp_5
    isplitl [HO]; · iexact HO
    isplitl [HtB_5]; · iexact HtB_5
    isplitl [Hrow_5]
    · rw [payload_bar]; unfold barPay
      isplitl [Hrow_5]; · iexists f0; iexact Hrow_5
      iexact HRr_5
    · iexact HRbp_5
  iintro HO
  -- signal 7: to the barrier of the device 7 places on, handing it row `that device` of this array
  iapply (Rounds.wp_signal 𝒱₀ ER (Rd m) (c : Thread nD τ) none (dst := ((shift c (off 6)) : Thread nD τ)) (κ := K ((shift c (off 6)), 0))
      (d := c) (by rw [duties_bar]; exact Finset.mem_erase.mpr ⟨(shift_off_ne c 6).symm, Finset.mem_univ _⟩) ((amount_bar m (shift c (off 6)) c).trans (by decide)) () (owedR c) rfl)
    $$ [HO HtB_6 Hrow_6]
  · isplitr; · iexact HIbp_6
    isplitl [HO]; · iexact HO
    isplitl [HtB_6]; · iexact HtB_6
    isplitl [Hrow_6]
    · rw [payload_bar]; unfold barPay
      isplitl [Hrow_6]; · iexists f0; iexact Hrow_6
      iexact HRr_6
    · iexact HRbp_6
  iintro HO
  -- the wait for the seven other devices: each hands over its row `c`, where this device's copy to it lands
  iapply (Rounds.wp_wait_rest_token 𝒱₀ ER (Rd m) (c : Thread nD τ) none (κ := K (c, 0))
      (wpE_semWait_eq 𝒱₀ (c : Thread nD τ) none Set.univ) (Set.mem_univ _) () (O := owedR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_bar m c).trans (bigSep_fin7 _))) $$ Hpay
  unfold barPay
  icases Hp with ⟨⟨⟨%fd0, Hdst_0⟩, -⟩, ⟨⟨%fd1, Hdst_1⟩, -⟩, ⟨⟨%fd2, Hdst_2⟩, -⟩, ⟨⟨%fd3, Hdst_3⟩, -⟩, ⟨⟨%fd4, Hdst_4⟩, -⟩, ⟨⟨%fd5, Hdst_5⟩, -⟩, ⟨⟨%fd6, Hdst_6⟩, -⟩⟩
  -- the block, and this device's row of column maxima written into its own row
  iapply (wp_load 𝒱₀ (c : Thread nD τ) none Set.univ (m := (Memref.whole cc0_stg0_0 : Memref sig .tc .vmem S4096x1024 .f32)) (Finset.subset_univ _)) $$ Hx; iintro Hx
  rw [read_x]
  ihave Hrow_c := (Entails.of_eq (rows_raw c (rowSet c) fullShare f0)) $$ Hrow_c
  iapply (wp_load 𝒱₀ (c : Thread nD τ) none Set.univ (m := commM) (S := rowSet c) (ownLoad_sub c)) $$ Hrow_c; iintro Hrow_c
  iapply (wp_store 𝒱₀ (c : Thread nD τ) none Set.univ (m := commM) (r := rown c) (Mk := Finset.univ) (S := rowSet c) (by rw [ownStore_set])) $$ Hrow_c; iintro Hrow_c
  ihave Hrow_c := (Entails.of_eq (pointsTo_congr (g := Proto.comm m) fun i hi => by rw [xstg_eq]; exact ownStore_val c (xblk m) f0 i hi)) $$ Hrow_c
  ihave Hrow_c := (Entails.of_eq (rows_acc c (rowSet c) fullShare (Proto.comm m)).symm) $$ Hrow_c
  -- a share of the row for each copy to read
  ihave Hsh := (rows_toks_split c (rowSet c) (comm m)) $$ Hrow_c
  icases Hsh with ⟨Hrem, Hshs⟩
  ihave Hshs' := (Entails.of_eq ((bigSep_fin8_off _).trans (congrArg _ (bigSep_fin7 _)))) $$ Hshs
  icases Hshs' with ⟨Hsrc0, Hsrc_0, Hsrc_1, Hsrc_2, Hsrc_3, Hsrc_4, Hsrc_5, Hsrc_6⟩
  -- copy 1: the row to the device 1 places on
  iapply (wp_send_row m c 0 _ (dev8_eq c) _ _ sendSem_eq_1 (recvSem_own_eq c) fd0 _ (Rt c 6 + Rt c 5 + Rt c 4 + Rt c 3 + Rt c 2 + Rt c 1) rfl _ (K (c, jsend (off 0))) (K ((shift c (off 0)), jrecv c)))
    $$ [Hsrc_0 Hdst_0 HO HtS_0 HtR_0]
  · isplitr; · iexact HIs_0
    isplitr; · iexact HIrp_0
    isplitl [Hsrc_0]; · iexact Hsrc_0
    isplitl [Hdst_0]; · iexact Hdst_0
    isplitl [HO]; · iexact HO
    isplitl [HtS_0]; · iexact HtS_0
    isplitr; · iexact HRs_0
    isplitl [HtR_0]; · iexact HtR_0
    iexact HRrp_0
  iintro ⟨HcS_0, HO⟩
  -- copy 2: the row to the device 2 places on
  iapply (wp_send_row m c 1 _ (dev9_eq c) _ _ sendSem_eq_2 (recvSem_own_eq c) fd1 _ (Rt c 6 + Rt c 5 + Rt c 4 + Rt c 3 + Rt c 2) rfl _ (K (c, jsend (off 1))) (K ((shift c (off 1)), jrecv c)))
    $$ [Hsrc_1 Hdst_1 HO HtS_1 HtR_1]
  · isplitr; · iexact HIs_1
    isplitr; · iexact HIrp_1
    isplitl [Hsrc_1]; · iexact Hsrc_1
    isplitl [Hdst_1]; · iexact Hdst_1
    isplitl [HO]; · iexact HO
    isplitl [HtS_1]; · iexact HtS_1
    isplitr; · iexact HRs_1
    isplitl [HtR_1]; · iexact HtR_1
    iexact HRrp_1
  iintro ⟨HcS_1, HO⟩
  -- copy 3: the row to the device 3 places on
  iapply (wp_send_row m c 2 _ (dev10_eq c) _ _ sendSem_eq_3 (recvSem_own_eq c) fd2 _ (Rt c 6 + Rt c 5 + Rt c 4 + Rt c 3) rfl _ (K (c, jsend (off 2))) (K ((shift c (off 2)), jrecv c)))
    $$ [Hsrc_2 Hdst_2 HO HtS_2 HtR_2]
  · isplitr; · iexact HIs_2
    isplitr; · iexact HIrp_2
    isplitl [Hsrc_2]; · iexact Hsrc_2
    isplitl [Hdst_2]; · iexact Hdst_2
    isplitl [HO]; · iexact HO
    isplitl [HtS_2]; · iexact HtS_2
    isplitr; · iexact HRs_2
    isplitl [HtR_2]; · iexact HtR_2
    iexact HRrp_2
  iintro ⟨HcS_2, HO⟩
  -- copy 4: the row to the device 4 places on
  iapply (wp_send_row m c 3 _ (dev11_eq c) _ _ sendSem_eq_4 (recvSem_own_eq c) fd3 _ (Rt c 6 + Rt c 5 + Rt c 4) rfl _ (K (c, jsend (off 3))) (K ((shift c (off 3)), jrecv c)))
    $$ [Hsrc_3 Hdst_3 HO HtS_3 HtR_3]
  · isplitr; · iexact HIs_3
    isplitr; · iexact HIrp_3
    isplitl [Hsrc_3]; · iexact Hsrc_3
    isplitl [Hdst_3]; · iexact Hdst_3
    isplitl [HO]; · iexact HO
    isplitl [HtS_3]; · iexact HtS_3
    isplitr; · iexact HRs_3
    isplitl [HtR_3]; · iexact HtR_3
    iexact HRrp_3
  iintro ⟨HcS_3, HO⟩
  -- copy 5: the row to the device 5 places on
  iapply (wp_send_row m c 4 _ (dev12_eq c) _ _ sendSem_eq_5 (recvSem_own_eq c) fd4 _ (Rt c 6 + Rt c 5) rfl _ (K (c, jsend (off 4))) (K ((shift c (off 4)), jrecv c)))
    $$ [Hsrc_4 Hdst_4 HO HtS_4 HtR_4]
  · isplitr; · iexact HIs_4
    isplitr; · iexact HIrp_4
    isplitl [Hsrc_4]; · iexact Hsrc_4
    isplitl [Hdst_4]; · iexact Hdst_4
    isplitl [HO]; · iexact HO
    isplitl [HtS_4]; · iexact HtS_4
    isplitr; · iexact HRs_4
    isplitl [HtR_4]; · iexact HtR_4
    iexact HRrp_4
  iintro ⟨HcS_4, HO⟩
  -- copy 6: the row to the device 6 places on
  iapply (wp_send_row m c 5 _ (dev13_eq c) _ _ sendSem_eq_6 (recvSem_own_eq c) fd5 _ (Rt c 6) rfl _ (K (c, jsend (off 5))) (K ((shift c (off 5)), jrecv c)))
    $$ [Hsrc_5 Hdst_5 HO HtS_5 HtR_5]
  · isplitr; · iexact HIs_5
    isplitr; · iexact HIrp_5
    isplitl [Hsrc_5]; · iexact Hsrc_5
    isplitl [Hdst_5]; · iexact Hdst_5
    isplitl [HO]; · iexact HO
    isplitl [HtS_5]; · iexact HtS_5
    isplitr; · iexact HRs_5
    isplitl [HtR_5]; · iexact HtR_5
    iexact HRrp_5
  iintro ⟨HcS_5, HO⟩
  -- copy 7: the row to the device 7 places on
  iapply (wp_send_row m c 6 _ (dev14_eq c) _ _ sendSem_eq_7 (recvSem_own_eq c) fd6 _ (0) (zero_add _).symm _ (K (c, jsend (off 6))) (K ((shift c (off 6)), jrecv c)))
    $$ [Hsrc_6 Hdst_6 HO HtS_6 HtR_6]
  · isplitr; · iexact HIs_6
    isplitr; · iexact HIrp_6
    isplitl [Hsrc_6]; · iexact Hsrc_6
    isplitl [Hdst_6]; · iexact Hdst_6
    isplitl [HO]; · iexact HO
    isplitl [HtS_6]; · iexact HtS_6
    isplitr; · iexact HRs_6
    isplitl [HtR_6]; · iexact HtR_6
    iexact HRrp_6
  iintro ⟨HcS_6, HO⟩
  simp only [recvSem_w0 c, recvSem_w1 c, recvSem_w2 c, recvSem_w3 c, recvSem_w4 c, recvSem_w5 c, recvSem_w6 c]
  -- the wait for the row of the device 1 places on
  iapply (Rounds.wp_wait_rest_token 𝒱₀ ER (Rd m) (c : Thread nD τ) none (κ := K (c, jrecv (shift c (off 0))))
      (wpE_waitDma2_eq 𝒱₀ (c : Thread nD τ) none Set.univ) (Set.mem_univ _) () (O := 0) (R := 0) (m := 0) (T := ∅)
      (by rw [Nat.zero_add, expect_recv m c _ (shift_off_ne c 0)] <;> rfl)) $$ [HcR_0 HO HatR_0]
  · isplitr; · iexact HIr_0
    isplitl [HcR_0]; · iexact HcR_0
    isplitl [HO]; · iexact HO
    isplitr; · rw [MayWait_zero]; iempintro
    iexact HatR_0
  iintro ⟨HO, HatR_0, -, Hpay⟩
  ihave Hrow_0 := (Entails.of_eq (rest_recv m c _ (shift_off_ne c 0))) $$ Hpay
  -- the wait for the row of the device 2 places on
  iapply (Rounds.wp_wait_rest_token 𝒱₀ ER (Rd m) (c : Thread nD τ) none (κ := K (c, jrecv (shift c (off 1))))
      (wpE_waitDma2_eq 𝒱₀ (c : Thread nD τ) none Set.univ) (Set.mem_univ _) () (O := 0) (R := 0) (m := 0) (T := ∅)
      (by rw [Nat.zero_add, expect_recv m c _ (shift_off_ne c 1)] <;> rfl)) $$ [HcR_1 HO HatR_1]
  · isplitr; · iexact HIr_1
    isplitl [HcR_1]; · iexact HcR_1
    isplitl [HO]; · iexact HO
    isplitr; · rw [MayWait_zero]; iempintro
    iexact HatR_1
  iintro ⟨HO, HatR_1, -, Hpay⟩
  ihave Hrow_1 := (Entails.of_eq (rest_recv m c _ (shift_off_ne c 1))) $$ Hpay
  -- the wait for the row of the device 3 places on
  iapply (Rounds.wp_wait_rest_token 𝒱₀ ER (Rd m) (c : Thread nD τ) none (κ := K (c, jrecv (shift c (off 2))))
      (wpE_waitDma2_eq 𝒱₀ (c : Thread nD τ) none Set.univ) (Set.mem_univ _) () (O := 0) (R := 0) (m := 0) (T := ∅)
      (by rw [Nat.zero_add, expect_recv m c _ (shift_off_ne c 2)] <;> rfl)) $$ [HcR_2 HO HatR_2]
  · isplitr; · iexact HIr_2
    isplitl [HcR_2]; · iexact HcR_2
    isplitl [HO]; · iexact HO
    isplitr; · rw [MayWait_zero]; iempintro
    iexact HatR_2
  iintro ⟨HO, HatR_2, -, Hpay⟩
  ihave Hrow_2 := (Entails.of_eq (rest_recv m c _ (shift_off_ne c 2))) $$ Hpay
  -- the wait for the row of the device 4 places on
  iapply (Rounds.wp_wait_rest_token 𝒱₀ ER (Rd m) (c : Thread nD τ) none (κ := K (c, jrecv (shift c (off 3))))
      (wpE_waitDma2_eq 𝒱₀ (c : Thread nD τ) none Set.univ) (Set.mem_univ _) () (O := 0) (R := 0) (m := 0) (T := ∅)
      (by rw [Nat.zero_add, expect_recv m c _ (shift_off_ne c 3)] <;> rfl)) $$ [HcR_3 HO HatR_3]
  · isplitr; · iexact HIr_3
    isplitl [HcR_3]; · iexact HcR_3
    isplitl [HO]; · iexact HO
    isplitr; · rw [MayWait_zero]; iempintro
    iexact HatR_3
  iintro ⟨HO, HatR_3, -, Hpay⟩
  ihave Hrow_3 := (Entails.of_eq (rest_recv m c _ (shift_off_ne c 3))) $$ Hpay
  -- the wait for the row of the device 5 places on
  iapply (Rounds.wp_wait_rest_token 𝒱₀ ER (Rd m) (c : Thread nD τ) none (κ := K (c, jrecv (shift c (off 4))))
      (wpE_waitDma2_eq 𝒱₀ (c : Thread nD τ) none Set.univ) (Set.mem_univ _) () (O := 0) (R := 0) (m := 0) (T := ∅)
      (by rw [Nat.zero_add, expect_recv m c _ (shift_off_ne c 4)] <;> rfl)) $$ [HcR_4 HO HatR_4]
  · isplitr; · iexact HIr_4
    isplitl [HcR_4]; · iexact HcR_4
    isplitl [HO]; · iexact HO
    isplitr; · rw [MayWait_zero]; iempintro
    iexact HatR_4
  iintro ⟨HO, HatR_4, -, Hpay⟩
  ihave Hrow_4 := (Entails.of_eq (rest_recv m c _ (shift_off_ne c 4))) $$ Hpay
  -- the wait for the row of the device 6 places on
  iapply (Rounds.wp_wait_rest_token 𝒱₀ ER (Rd m) (c : Thread nD τ) none (κ := K (c, jrecv (shift c (off 5))))
      (wpE_waitDma2_eq 𝒱₀ (c : Thread nD τ) none Set.univ) (Set.mem_univ _) () (O := 0) (R := 0) (m := 0) (T := ∅)
      (by rw [Nat.zero_add, expect_recv m c _ (shift_off_ne c 5)] <;> rfl)) $$ [HcR_5 HO HatR_5]
  · isplitr; · iexact HIr_5
    isplitl [HcR_5]; · iexact HcR_5
    isplitl [HO]; · iexact HO
    isplitr; · rw [MayWait_zero]; iempintro
    iexact HatR_5
  iintro ⟨HO, HatR_5, -, Hpay⟩
  ihave Hrow_5 := (Entails.of_eq (rest_recv m c _ (shift_off_ne c 5))) $$ Hpay
  -- the wait for the row of the device 7 places on
  iapply (Rounds.wp_wait_rest_token 𝒱₀ ER (Rd m) (c : Thread nD τ) none (κ := K (c, jrecv (shift c (off 6))))
      (wpE_waitDma2_eq 𝒱₀ (c : Thread nD τ) none Set.univ) (Set.mem_univ _) () (O := 0) (R := 0) (m := 0) (T := ∅)
      (by rw [Nat.zero_add, expect_recv m c _ (shift_off_ne c 6)] <;> rfl)) $$ [HcR_6 HO HatR_6]
  · isplitr; · iexact HIr_6
    isplitl [HcR_6]; · iexact HcR_6
    isplitl [HO]; · iexact HO
    isplitr; · rw [MayWait_zero]; iempintro
    iexact HatR_6
  iintro ⟨HO, HatR_6, -, Hpay⟩
  ihave Hrow_6 := (Entails.of_eq (rest_recv m c _ (shift_off_ne c 6))) $$ Hpay
  rw [sendSem_eq_1, sendSem_eq_2, sendSem_eq_3, sendSem_eq_4, sendSem_eq_5, sendSem_eq_6, sendSem_eq_7]
  -- copy 1 has left: its share of the row back
  iapply (Rounds.wp_wait_rest_token 𝒱₀ ER (Rd m) (c : Thread nD τ) none (κ := K (c, jsend (off 0)))
      (wpE_waitDma2_eq 𝒱₀ (c : Thread nD τ) none Set.univ) (Set.mem_univ _) () (O := 0) (R := 0) (m := 0) (T := ∅)
      (by rw [Nat.zero_add, expect_send m c 0] <;> rfl)) $$ [HcS_0 HO HatS_0]
  · isplitr; · iexact HIs_0
    isplitl [HcS_0]; · iexact HcS_0
    isplitl [HO]; · iexact HO
    isplitr; · rw [MayWait_zero]; iempintro
    iexact HatS_0
  iintro ⟨HO, HatS_0, -, Hpay⟩
  ihave Hsrc_0 := (Entails.of_eq (rest_send m c 0)) $$ Hpay
  -- copy 2 has left: its share of the row back
  iapply (Rounds.wp_wait_rest_token 𝒱₀ ER (Rd m) (c : Thread nD τ) none (κ := K (c, jsend (off 1)))
      (wpE_waitDma2_eq 𝒱₀ (c : Thread nD τ) none Set.univ) (Set.mem_univ _) () (O := 0) (R := 0) (m := 0) (T := ∅)
      (by rw [Nat.zero_add, expect_send m c 1] <;> rfl)) $$ [HcS_1 HO HatS_1]
  · isplitr; · iexact HIs_1
    isplitl [HcS_1]; · iexact HcS_1
    isplitl [HO]; · iexact HO
    isplitr; · rw [MayWait_zero]; iempintro
    iexact HatS_1
  iintro ⟨HO, HatS_1, -, Hpay⟩
  ihave Hsrc_1 := (Entails.of_eq (rest_send m c 1)) $$ Hpay
  -- copy 3 has left: its share of the row back
  iapply (Rounds.wp_wait_rest_token 𝒱₀ ER (Rd m) (c : Thread nD τ) none (κ := K (c, jsend (off 2)))
      (wpE_waitDma2_eq 𝒱₀ (c : Thread nD τ) none Set.univ) (Set.mem_univ _) () (O := 0) (R := 0) (m := 0) (T := ∅)
      (by rw [Nat.zero_add, expect_send m c 2] <;> rfl)) $$ [HcS_2 HO HatS_2]
  · isplitr; · iexact HIs_2
    isplitl [HcS_2]; · iexact HcS_2
    isplitl [HO]; · iexact HO
    isplitr; · rw [MayWait_zero]; iempintro
    iexact HatS_2
  iintro ⟨HO, HatS_2, -, Hpay⟩
  ihave Hsrc_2 := (Entails.of_eq (rest_send m c 2)) $$ Hpay
  -- copy 4 has left: its share of the row back
  iapply (Rounds.wp_wait_rest_token 𝒱₀ ER (Rd m) (c : Thread nD τ) none (κ := K (c, jsend (off 3)))
      (wpE_waitDma2_eq 𝒱₀ (c : Thread nD τ) none Set.univ) (Set.mem_univ _) () (O := 0) (R := 0) (m := 0) (T := ∅)
      (by rw [Nat.zero_add, expect_send m c 3] <;> rfl)) $$ [HcS_3 HO HatS_3]
  · isplitr; · iexact HIs_3
    isplitl [HcS_3]; · iexact HcS_3
    isplitl [HO]; · iexact HO
    isplitr; · rw [MayWait_zero]; iempintro
    iexact HatS_3
  iintro ⟨HO, HatS_3, -, Hpay⟩
  ihave Hsrc_3 := (Entails.of_eq (rest_send m c 3)) $$ Hpay
  -- copy 5 has left: its share of the row back
  iapply (Rounds.wp_wait_rest_token 𝒱₀ ER (Rd m) (c : Thread nD τ) none (κ := K (c, jsend (off 4)))
      (wpE_waitDma2_eq 𝒱₀ (c : Thread nD τ) none Set.univ) (Set.mem_univ _) () (O := 0) (R := 0) (m := 0) (T := ∅)
      (by rw [Nat.zero_add, expect_send m c 4] <;> rfl)) $$ [HcS_4 HO HatS_4]
  · isplitr; · iexact HIs_4
    isplitl [HcS_4]; · iexact HcS_4
    isplitl [HO]; · iexact HO
    isplitr; · rw [MayWait_zero]; iempintro
    iexact HatS_4
  iintro ⟨HO, HatS_4, -, Hpay⟩
  ihave Hsrc_4 := (Entails.of_eq (rest_send m c 4)) $$ Hpay
  -- copy 6 has left: its share of the row back
  iapply (Rounds.wp_wait_rest_token 𝒱₀ ER (Rd m) (c : Thread nD τ) none (κ := K (c, jsend (off 5)))
      (wpE_waitDma2_eq 𝒱₀ (c : Thread nD τ) none Set.univ) (Set.mem_univ _) () (O := 0) (R := 0) (m := 0) (T := ∅)
      (by rw [Nat.zero_add, expect_send m c 5] <;> rfl)) $$ [HcS_5 HO HatS_5]
  · isplitr; · iexact HIs_5
    isplitl [HcS_5]; · iexact HcS_5
    isplitl [HO]; · iexact HO
    isplitr; · rw [MayWait_zero]; iempintro
    iexact HatS_5
  iintro ⟨HO, HatS_5, -, Hpay⟩
  ihave Hsrc_5 := (Entails.of_eq (rest_send m c 5)) $$ Hpay
  -- copy 7 has left: its share of the row back
  iapply (Rounds.wp_wait_rest_token 𝒱₀ ER (Rd m) (c : Thread nD τ) none (κ := K (c, jsend (off 6)))
      (wpE_waitDma2_eq 𝒱₀ (c : Thread nD τ) none Set.univ) (Set.mem_univ _) () (O := 0) (R := 0) (m := 0) (T := ∅)
      (by rw [Nat.zero_add, expect_send m c 6] <;> rfl)) $$ [HcS_6 HO HatS_6]
  · isplitr; · iexact HIs_6
    isplitl [HcS_6]; · iexact HcS_6
    isplitl [HO]; · iexact HO
    isplitr; · rw [MayWait_zero]; iempintro
    iexact HatS_6
  iintro ⟨HO, HatS_6, -, Hpay⟩
  ihave Hsrc_6 := (Entails.of_eq (rest_send m c 6)) $$ Hpay
  unfold sendPay recvPay
  -- the shares joined, the eight rows joined: the array whole, holding every device's maxima
  ihave Hrow_c := (Entails.of_eq ((bigSep_fin8_off (fun k : Fin 8 => (rowsPts c (rowSet c) (Transfers.shareTok fullShare 8 k) (comm m) : sProp 𝕄))).trans (congrArg _ (bigSep_fin7 _))).symm) $$ [Hsrc0 Hsrc_0 Hsrc_1 Hsrc_2 Hsrc_3 Hsrc_4 Hsrc_5 Hsrc_6]
  · isplitl [Hsrc0]; · iexact Hsrc0
    isplitl [Hsrc_0]; · iexact Hsrc_0
    isplitl [Hsrc_1]; · iexact Hsrc_1
    isplitl [Hsrc_2]; · iexact Hsrc_2
    isplitl [Hsrc_3]; · iexact Hsrc_3
    isplitl [Hsrc_4]; · iexact Hsrc_4
    isplitl [Hsrc_5]; · iexact Hsrc_5
    iexact Hsrc_6
  ihave Hrow_c := (rows_toks_join c (rowSet c) (comm m)) $$ [Hrem Hrow_c]
  · isplitl [Hrem]; · iexact Hrem
    iexact Hrow_c
  ihave Hcomm := (Entails.of_eq ((rows_split c fullShare (comm m)).trans ((bigSep_fin8_own c _).trans (congrArg _ (bigSep_fin7 _)))).symm) $$ [Hrow_c Hrow_0 Hrow_1 Hrow_2 Hrow_3 Hrow_4 Hrow_5 Hrow_6]
  · isplitl [Hrow_c]; · iexact Hrow_c
    isplitl [Hrow_0]; · iexact Hrow_0
    isplitl [Hrow_1]; · iexact Hrow_1
    isplitl [Hrow_2]; · iexact Hrow_2
    isplitl [Hrow_3]; · iexact Hrow_3
    isplitl [Hrow_4]; · iexact Hrow_4
    isplitl [Hrow_5]; · iexact Hrow_5
    iexact Hrow_6
  -- the maximum over the eight rows, stored as the result
  iapply (wp_load 𝒱₀ (c : Thread nD τ) none Set.univ (m := commM) (Finset.subset_univ _)) $$ Hcomm; iintro Hcomm
  rw [read_comm]
  iapply (wp_load 𝒱₀ (c : Thread nD τ) none Set.univ (m := (Memref.whole cc0_stg1_0 : Memref sig .tc .vmem S1x1024 .f32)) (Finset.subset_univ _)) $$ Hout; iintro Hout
  iapply (wp_store 𝒱₀ (c : Thread nD τ) none Set.univ (m := (Memref.whole cc0_stg1_0 : Memref sig .tc .vmem S1x1024 .f32)) (r := ro) (Mk := Finset.univ) (Finset.subset_univ _)) $$ Hout; iintro Hout
  rw [write_out, wp_ret]
  rw [show Proto.comm m = Spec.commVal (xblk m) from rfl]
  -- the sixteen own cells closed: their semaphores at zero are the device's again
  imod (close_own m c K) $$ [HatS0 HatS_0 HatS_1 HatS_2 HatS_3 HatS_4 HatS_5 HatS_6 HatRc HatR_0 HatR_1 HatR_2 HatR_3 HatR_4 HatR_5 HatR_6] with Hown
  · isplitr; · iexact Hrec
    isplitl [HatS0 HatS_0 HatS_1 HatS_2 HatS_3 HatS_4 HatS_5 HatS_6]
    · rw [bigSep_fin8_off, bigSep_fin7]; simp only [sendFin_zero, sendFin_off]
      isplitl [HatS0]; · iexact HatS0
      isplitl [HatS_0]; · iexact HatS_0
      isplitl [HatS_1]; · iexact HatS_1
      isplitl [HatS_2]; · iexact HatS_2
      isplitl [HatS_3]; · iexact HatS_3
      isplitl [HatS_4]; · iexact HatS_4
      isplitl [HatS_5]; · iexact HatS_5
      iexact HatS_6
    · rw [bigSep_fin8_own c, bigSep_fin7]; simp only [recvFin_own, recvFin_peer]
      isplitl [HatRc]; · iexact HatRc
      isplitl [HatR_0]; · iexact HatR_0
      isplitl [HatR_1]; · iexact HatR_1
      isplitl [HatR_2]; · iexact HatR_2
      isplitl [HatR_3]; · iexact HatR_3
      isplitl [HatR_4]; · iexact HatR_4
      isplitl [HatR_5]; · iexact HatR_5
      iexact HatR_6
  imodintro
  iapply Hk
  unfold bodyPost Φ₁ Dat.owesAt Pipeline.owesWithin
  rw [show (dats m ρ 0 c).owed t₀.succ = 0 from rfl]
  isplitl [Hcomm Hown]
  · isplitl [Hcomm]; · iexists _; iexact Hcomm
    iexact Hown
  isplitl [HO]
  · iexists _
    isplitr
    on_goal 2 => iexact HO
    ipureintro; exact fun _ _ => Or.inl trivial
  isplitl [Hx]
  · iexists _; isplitr; · (ipureintro; rfl)
    iexact Hx
  iexists _; isplitr; · (ipureintro; unfold outAt Spec.outVal; rfl)
  iexact Hout

end Body

/-! ## The library's body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The body obligation on device `c`: the names of the cells' invariants opened, the rest handed to `sound_body`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start G'
  iintro ⟨⟨⟨⟨%K, Hrec, Hlin⟩, Hcr, Hlev⟩, Hscr⟩, Ho, Hx, Hout⟩
  iapply (sound_body m ρ K c fun _ => bodyPost m ρ c)
  unfold bodyPre
  isplitr []
  · isplitl [Hrec Hlin Hcr Hlev Hscr]
    · isplitl [Hrec]; · iexact Hrec
      isplitl [Hlin]; · iexact Hlin
      isplitl [Hcr]; · iexact Hcr
      isplitl [Hlev]; · iexact Hlev
      iexact Hscr
    isplitl [Ho]; · iexact Ho
    isplitl [Hx] <;> iassumption
  · iintro H; iexact H

/-- info: 'Cert.Kernel.Body.body_obligation' depends on axioms: [propext, Classical.choice, Quot.sound] -/
#guard_msgs in #print axioms body_obligation

end Cert.Kernel.Body
end
-- ==== Proof.WLaunch.lean ====
import proofs.«900921_g7700000000000922_dist_max_ax0_shard0_i_m4096_n1024_v7x_i8_f32_1_alg».proof.Proof.WProto
import proofs.«900921_g7700000000000922_dist_max_ax0_shard0_i_m4096_n1024_v7x_i8_f32_1_alg».proof.Proof.Gen.Kernel.Launch
import proofs.«900921_g7700000000000922_dist_max_ax0_shard0_i_m4096_n1024_v7x_i8_f32_1_alg».proof.Proof.Gen.Kernel.Frame

import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch funds -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- A device's own cells' duty tokens as minted, per offset: the barrier duty that the device so many places on pays, the
    send cell's one duty, and the one duty of the receive cell for that device. -/
def tokOf (x : Dev nD × Fin 7 × Fin 3) : GSem nD τ sig × ℕ × Fin 8 := match x.2.2 with
  | 0 => (barCell x.1, 0, shift x.1 (off x.2.1))
  | 1 => (sendCell x.1 (off x.2.1), 0, 0)
  | 2 => (recvCell x.1 (shift x.1 (off x.2.1)), 0, 0)

theorem tokOf_dev : ∀ x : Dev nD × Fin 7 × Fin 3, (tokOf x).1.1.1 = x.1 := by
  rintro ⟨c, r, j⟩; fin_cases j <;> rfl

theorem tokOf_inj_at : ∀ (c : Dev nD) (x y : Fin 7 × Fin 3), ((tokOf (c, x)).1.2, (tokOf (c, x)).2.2) = ((tokOf (c, y)).1.2, (tokOf (c, y)).2.2) → x = y := by
  decide +kernel

theorem tokOf_injective : Function.Injective tokOf := by
  rintro ⟨c, x⟩ ⟨c', y⟩ h
  have h1 : c = c' := by
    have := congrArg (fun t : GSem nD τ sig × ℕ × Fin 8 => t.1.1.1) h
    rw [tokOf_dev, tokOf_dev] at this; exact this
  subst h1
  have : x = y := tokOf_inj_at c x y (by rw [h])
  subst this; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun r : Fin 7 =>
    iprop(dutyTok ER (barCell c) 0 (shift c (off r)) ∗ dutyTok ER (sendCell c (off r)) 0 0 ∗ dutyTok ER (recvCell c (shift c (off r))) 0 0)

/-- What the launch element deals device `c`. -/
def G (c : Dev nD) : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0)) ∗ toks c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    exact bigSep_congr fun r _ => by rw [bigSep_fin3]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants allocated, and the ghost state regrouped -/

theorem csem_zero : csem 0 = .reg barS := rfl
theorem csem_succ : ∀ j : Fin 16, csem j.succ = osem j := by decide
theorem erase_zero : (Finset.univ.erase (0 : Fin 17)) = Finset.univ.map ⟨Fin.succ, Fin.succ_injective 16⟩ := by decide

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [unscopedSems0_eq, bigSep_univ_at (fun k : Fin 17 => (semVal (kcell (c, k)) 0 : sProp 𝕄)) 0, erase_zero, bigSep_map]
  have h : (bigSep Finset.univ fun j : Fin 16 => (semVal (kcell (c, (⟨Fin.succ, Fin.succ_injective 16⟩ : Fin 16 ↪ Fin 17) j)) 0 : sProp 𝕄))
      = Pipeline.ownSems0 (Ix := Unit) (Name := ℕ) (U := UU) (Lvl := ℕ) (Val := Elt F) (τ := τ) osem c := by
    unfold Pipeline.ownSems0
    exact bigSep_congr fun j _ => by show semVal ((c : Thread nD τ), csem j.succ) 0 = _; rw [csem_succ]
  rw [h]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Offsets dealt round the ring: the pair (device, offset) seen from the device that many places on. -/
def deal : Dev nD × Fin 7 ≃ Dev nD × Fin 7 where
  toFun x := (shift x.1 (off x.2), rev7 x.2)
  invFun x := (shift x.1 (off x.2), rev7 x.2)
  left_inv := by intro x; revert x; decide
  right_inv := by intro x; revert x; decide

theorem deal_sep (Φ : Dev nD × Fin 7 → sProp 𝕄) :
    (bigSep Finset.univ fun c : Dev nD => bigSep Finset.univ fun r : Fin 7 => Φ (c, r))
      = bigSep Finset.univ fun d : Dev nD => bigSep Finset.univ fun r : Fin 7 => Φ (shift d (off r), rev7 r) := by
  rw [← bigSep_univ_prod, bigSep_univ_equiv deal Φ, bigSep_univ_prod]; rfl

/-- The tokens dealt round the ring: the barrier duty a device pays and the landing of its copy go to it from the device
    whose cells they are; the departure stays. -/
theorem toks_around : (bigSep Finset.univ fun c : Dev nD => (toks c : sProp 𝕄)) ⊢ bigSep Finset.univ fun c : Dev nD => payToks c := by
  have hA : (bigSep Finset.univ fun c : Dev nD => bigSep Finset.univ fun r : Fin 7 => (dutyTok ER (barCell c) 0 (shift c (off r)) : sProp 𝕄))
      = bigSep Finset.univ fun d : Dev nD => bigSep Finset.univ fun r : Fin 7 => dutyTok ER (barCell (shift d (off r))) 0 d := by
    rw [deal_sep (fun x => (dutyTok ER (barCell x.1) 0 (shift x.1 (off x.2)) : sProp 𝕄))]
    exact bigSep_congr fun d _ => bigSep_congr fun r _ => by rw [shift_off_rev]
  have hC : (bigSep Finset.univ fun c : Dev nD => bigSep Finset.univ fun r : Fin 7 => (dutyTok ER (recvCell c (shift c (off r))) 0 0 : sProp 𝕄))
      = bigSep Finset.univ fun d : Dev nD => bigSep Finset.univ fun r : Fin 7 => dutyTok ER (recvCell (shift d (off r)) d) 0 0 := by
    rw [deal_sep (fun x => (dutyTok ER (recvCell x.1 (shift x.1 (off x.2))) 0 0 : sProp 𝕄))]
    exact bigSep_congr fun d _ => bigSep_congr fun r _ => by rw [shift_off_rev]
  unfold toks payToks
  simp only [bigSep_sep']
  rw [hA, hC]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 17 → ℕ) (c : Dev nD) : iprop(records m K ∗ linear c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {s s' : Fin 8} : Iff (recvCell a s = recvCell b s') (a = b ∧ s = s') :=
  ⟨fun h => ⟨Fin.ext (congrArg (fun g : GSem nD τ sig => g.1.1.val) h), recvSem_inj s s' (SemLoc.dma.inj (congrArg Prod.snd h))⟩,
    fun h => by rw [h.1, h.2]⟩
theorem recv_ne_bar {s : Fin 8} : (SemLoc.dma (recvSem s) : SemLoc sig) ≠ .reg barS := fun h => by cases h

theorem Rt_bar (d c : Dev nD) (r : Fin 7) : Rt d r (barCell c) () = 0 := by
  unfold Rt; rw [tallyAt_apply, if_neg]; rintro ⟨h, -⟩; exact recv_ne_bar (congrArg Prod.snd h).symm
theorem Bt_recv (d c : Dev nD) (s : Fin 8) (r : Fin 7) : Bt d r (recvCell c s) () = 0 := by
  unfold Bt; rw [tallyAt_apply, if_neg]; rintro ⟨h, -⟩; exact recv_ne_bar (congrArg Prod.snd h)
theorem Bt_bar (d c : Dev nD) (r : Fin 7) : Bt d r (barCell c) () = if c = shift d (off r) then 1 else 0 := by
  unfold Bt; rw [tallyAt_apply]
  by_cases h : c = shift d (off r)
  · rw [if_pos ⟨by rw [h], rfl⟩, if_pos h]
  · rw [if_neg (fun h' => h (bar_eq_iff.mp h'.1)), if_neg h]
theorem Rt_recv (d c : Dev nD) (s : Fin 8) (r : Fin 7) : Rt d r (recvCell c s) () = if c = shift d (off r) ∧ s = d then N else 0 := by
  unfold Rt; rw [tallyAt_apply]
  by_cases h : c = shift d (off r) ∧ s = d
  · rw [if_pos ⟨by rw [h.1, h.2], rfl⟩, if_pos h]
  · rw [if_neg (fun h' => h (recv_eq_iff.mp h'.1)), if_neg h]

theorem bar_sum : ∀ d c : Dev nD,
    0 + 0 + 0 + 0 + 0 + 0 + 0 + (if c = shift d (off 6) then 1 else 0) + (if c = shift d (off 5) then 1 else 0) + (if c = shift d (off 4) then 1 else 0)
      + (if c = shift d (off 3) then 1 else 0) + (if c = shift d (off 2) then 1 else 0) + (if c = shift d (off 1) then 1 else 0)
      + (if c = shift d (off 0) then 1 else 0) = (if d = c then 0 else 1 : ℕ) := by decide

theorem recv_sum_one : ∀ d c s : Dev nD,
    (if c = shift d (off 6) ∧ s = d then 1 else 0) + (if c = shift d (off 5) ∧ s = d then 1 else 0) + (if c = shift d (off 4) ∧ s = d then 1 else 0)
      + (if c = shift d (off 3) ∧ s = d then 1 else 0) + (if c = shift d (off 2) ∧ s = d then 1 else 0) + (if c = shift d (off 1) ∧ s = d then 1 else 0)
      + (if c = shift d (off 0) ∧ s = d then 1 else 0) + 0 + 0 + 0 + 0 + 0 + 0 + 0 = (if s = d then (if d = c then 0 else 1) else 0 : ℕ) := by decide

theorem recv_sum (n : ℕ) (d c s : Dev nD) :
    (if c = shift d (off 6) ∧ s = d then n else 0) + (if c = shift d (off 5) ∧ s = d then n else 0) + (if c = shift d (off 4) ∧ s = d then n else 0)
      + (if c = shift d (off 3) ∧ s = d then n else 0) + (if c = shift d (off 2) ∧ s = d then n else 0) + (if c = shift d (off 1) ∧ s = d then n else 0)
      + (if c = shift d (off 0) ∧ s = d then n else 0) + 0 + 0 + 0 + 0 + 0 + 0 + 0 = (if s = d then (if d = c then 0 else n) else 0 : ℕ) := by
  have key := congrArg (fun k => n * k) (recv_sum_one d c s)
  simp only [Nat.mul_add, mul_ite, Nat.mul_one, Nat.mul_zero] at key
  exact key

/-- What device `d` owes device `c`'s barrier cell: a unit, unless it is `c` itself. -/
theorem owed_bar (d c : Dev nD) : O₀ d (barCell c) () = if d = c then 0 else 1 := by
  unfold O₀ owedR
  simp only [Pi.add_apply, Finsupp.add_apply, Rt_bar, Bt_bar]
  exact bar_sum d c

/-- What device `d` owes device `c`'s receive cell `s`: a row's credit when `d` is `s` and not `c`. -/
theorem owed_recv (d c : Dev nD) (s : Fin 8) : O₀ d (recvCell c s) () = if s = d then (if d = c then 0 else N) else 0 := by
  unfold O₀ owedR
  simp only [Pi.add_apply, Finsupp.add_apply, Rt_recv, Bt_recv]
  exact recv_sum N d c s

theorem sum_others : ∀ c : Dev nD, (∑ d : Dev nD, if d = c then 0 else 1) = 7 := by decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_recv (c : Dev nD) (s : Fin 8) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq Finset.univ s fun d => if d = c then 0 else N, if_pos (Finset.mem_univ _), if_neg hs]

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map ⟨fun r : Fin 7 => (SemLoc.dma (recvSem (shift c (off r))) : SemLoc sig),
      fun r r' h => shift_off_inj c r r' (recvSem_inj _ _ (SemLoc.dma.inj h))⟩) ?_).trans ?_
  · intro x hx
    rw [Finset.mem_map] at hx
    obtain ⟨r, -, rfl⟩ := hx
    exact Finset.mem_erase.mpr ⟨recv_ne_bar, Finset.mem_univ _⟩
  · rw [bigSep_map]
    exact Entails.of_eq (bigSep_congr fun r _ => congrArg cred (launch_recv c (shift c (off r)) (shift_off_ne c r)))

/-! ## The levels -/

theorem recv_ge : ∀ s : Fin 8, 10 ≤ (recvSem s).val := by decide

theorem Bt_pos {c : Dev nD} {r : Fin 7} {g : GSem nD τ sig} {i : Unit} (h : 0 < Bt c r g i) : i ∈ L g ∧ 0 < lv g i := by
  unfold Bt at h
  obtain ⟨rfl, rfl⟩ := Pipeline.tallyAt_pos h
  exact ⟨by rw [L_tc]; exact Finset.mem_singleton_self _, Nat.one_pos⟩
theorem Rt_pos {c : Dev nD} {r : Fin 7} {g : GSem nD τ sig} {i : Unit} (h : 0 < Rt c r g i) : i ∈ L g ∧ 0 < lv g i := by
  unfold Rt at h
  obtain ⟨rfl, rfl⟩ := Pipeline.tallyAt_pos h
  refine ⟨by rw [L_tc]; exact Finset.mem_singleton_self _, ?_⟩
  show 0 < (if 10 ≤ (recvSem c).val then 2 else 0)
  rw [if_pos (recv_ge c)]; decide

/-- Everything a device owes at launch is a barrier cell or a receive cell: above level 0. -/
theorem O₀_pos {c : Dev nD} {g : GSem nD τ sig} {i : Unit} (h : 0 < O₀ c g i) : i ∈ L g ∧ 0 < lv g i := by
  unfold O₀ owedR at h
  repeat (rcases Pipeline.add_pos_cases h with h | h; swap; first | exact Bt_pos h | exact Rt_pos h)
  first | exact Bt_pos h | exact Rt_pos h

/-- A wait on a level-0 semaphore (the pipeline's staging semaphores are such) is below all of it. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g i hg => by
      have hp := O₀_pos hg
      refine ⟨hp.1, ?_⟩
      show (if 10 ≤ q.val then 2 else 0) < lv g i
      rw [if_neg (by omega)]; exact hp.2
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Hz⟩
  isplitr; · iempintro
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: given each device's
    body, every weakly fair execution of the program — the eight kernels meeting on the barrier semaphore, then each
    copying its row to the seven others — terminates, and every final state has each device's arrays at the computed
    contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Launch.run_main' depends on axioms: [propext, Classical.choice, Quot.sound] -/
#guard_msgs in #print axioms run_main

end Cert.Kernel.Launch
end
-- ==== Proof.ValueBridge.lean ====
/-
  The value the kernel leaves on every device is the reference's value.

  The input is a 32768 x 1024 array cut along its rows into eight blocks of 4096 rows; device s holds block s. Each
  device takes the column-wise maximum of its block, and then the column-wise maximum of the eight rows so obtained.
  The reference takes the column-wise maximum of the whole array. Every maximum starts from the same value. In
  column j the kernel's number is the maximum over s < 8 of (the maximum over r < 4096 of W (4096 s + r, j)), the
  reference's the maximum over R < 32768 of W (R, j); since every R is 4096 s + r for s = R / 4096 and r = R % 4096,
  a number bounds one from above exactly when it bounds the other, so the two are equal. Nothing is asked of the
  entries: a maximum is a lattice operation on the extended reals.
-/
import proofs.«900921_g7700000000000922_dist_max_ax0_shard0_i_m4096_n1024_v7x_i8_f32_1_alg».proof.Proof.Spec
import proofs.«900921_g7700000000000922_dist_max_ax0_shard0_i_m4096_n1024_v7x_i8_f32_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws
import Mathlib.Data.Finset.Fold
import Mathlib.Order.Basic

noncomputable section

namespace Cert.KernelIdeal.ValueBridge

open Idealize.ShloMosaic Idealize.ShloMosaic.ValueIdx
open Cert.KernelIdeal Cert.KernelIdeal.Gen Cert.KernelIdeal.Spec

/-! ## The mathematics: a maximum over eight blocks of 4096 is the maximum over all 32768 -/

/-- From any start value b, the maximum over s < 8 of the maxima over r < 4096 of g (4096 s + r), each from b, is
    the maximum over R < 32768 of g R from b: the two have the same upper bounds, R being 4096 (R / 4096) + R % 4096. -/
theorem fold_max_blocks (b : EReal) (g : Fin 32768 → EReal) :
    (Finset.univ : Finset (Fin 8)).fold max b
        (fun s => (Finset.univ : Finset (Fin 4096)).fold max b
          (fun r => g ⟨s.val * 4096 + r.val, by have := s.isLt; have := r.isLt; omega⟩))
      = (Finset.univ : Finset (Fin 32768)).fold max b g := by
  refine eq_of_forall_ge_iff fun z => ?_
  rw [Finset.fold_max_le, Finset.fold_max_le]
  constructor
  · rintro ⟨hb, h⟩
    refine ⟨hb, fun R _ => ?_⟩
    have hs : R.val / 4096 < 8 := by have := R.isLt; omega
    have hr : R.val % 4096 < 4096 := Nat.mod_lt _ (by decide)
    have h1 := h ⟨R.val / 4096, hs⟩ (Finset.mem_univ _)
    rw [Finset.fold_max_le] at h1
    have h2 := h1.2 ⟨R.val % 4096, hr⟩ (Finset.mem_univ _)
    have e : (⟨(⟨R.val / 4096, hs⟩ : Fin 8).val * 4096 + (⟨R.val % 4096, hr⟩ : Fin 4096).val,
        by have := R.isLt; show R.val / 4096 * 4096 + R.val % 4096 < 32768; omega⟩ : Fin 32768) = R :=
      Fin.ext (by show R.val / 4096 * 4096 + R.val % 4096 = R.val; omega)
    rw [e] at h2
    exact h2
  · rintro ⟨hb, h⟩
    refine ⟨hb, fun s _ => ?_⟩
    rw [Finset.fold_max_le]
    exact ⟨hb, fun r _ => h _ (Finset.mem_univ _)⟩

/-! ## The kernel's two reductions and the reference's, read at a column -/

/-- The start value of every maximum: the value of the word 0xFF800000. -/
abbrev start : EReal := FloatOps.ofBits (F := Ideal) .f32 0xFF800000#32

/-- The column-wise maximum of a 4096 x 1024 array at column j: the maximum, from the start value, over its 4096 rows. -/
theorem red4096 (v : FVec Ideal S4096x1024 .f32) (hφ : FKind.Formats .f32)
    (hacc : (0xFF800000#32 : BitVec 32) = FKind.maximumf.neutral .f32 hφ) (j : Fin 1024) :
    multiReduction (F := Ideal) .maximumf [0] S1024 v 0xFF800000#32 reduces_S4096x1024_S1024 hφ hacc (ix1 j)
      = (Finset.univ : Finset (Fin 4096)).fold max start (fun r => v (ix2 r j)) := by
  refine (Ideal.multiReduction_maximumf_single (φ := .f32) v 0xFF800000#32 reduces_S4096x1024_S1024 hφ hacc (ix1 j)).trans ?_
  refine congrArg (fun f => (Finset.univ : Finset (Fin 4096)).fold max start f) (funext fun r => ?_)
  show v (reduces_S4096x1024_S1024.lift (ix1 j) r) = v (ix2 r j)
  refine congrArg v (funext fun a => ?_)
  match a with
  | ⟨0, _⟩ => exact Fin.ext rfl
  | ⟨1, _⟩ => exact Fin.ext rfl

/-- The column-wise maximum of an 8 x 1024 array at column j: the maximum, from the start value, over its 8 rows. -/
theorem red8 (v : FVec Ideal S8x1024 .f32) (hφ : FKind.Formats .f32)
    (hacc : (0xFF800000#32 : BitVec 32) = FKind.maximumf.neutral .f32 hφ) (j : Fin 1024) :
    multiReduction (F := Ideal) .maximumf [0] S1024 v 0xFF800000#32 reduces_S8x1024_S1024 hφ hacc (ix1 j)
      = (Finset.univ : Finset (Fin 8)).fold max start (fun s => v (ix2 s j)) := by
  refine (Ideal.multiReduction_maximumf_single (φ := .f32) v 0xFF800000#32 reduces_S8x1024_S1024 hφ hacc (ix1 j)).trans ?_
  refine congrArg (fun f => (Finset.univ : Finset (Fin 8)).fold max start f) (funext fun s => ?_)
  show v (reduces_S8x1024_S1024.lift (ix1 j) s) = v (ix2 s j)
  refine congrArg v (funext fun a => ?_)
  match a with
  | ⟨0, _⟩ => exact Fin.ext rfl
  | ⟨1, _⟩ => exact Fin.ext rfl

/-- Column j of a device's row: the maximum, from the start value, of column j of its block. -/
theorem pay2_apply (X : Vec Ideal S4096x1024 .f32) (j : Fin 1024) :
    k0_pay2 (F := Ideal) X (ix3 (0 : Fin 1) (0 : Fin 1) j)
      = (Finset.univ : Finset (Fin 4096)).fold max start (fun r => X (ix2 r j)) := by
  unfold k0_pay2
  refine (shapeCast_ab_1ab_apply _ shapeCasts_S1x1024_S1x1x1024 (0 : Fin 1) (0 : Fin 1) j).trans ?_
  refine (shapeCast_a_1a_apply _ shapeCasts_S1024_S1x1024 (0 : Fin 1) j).trans ?_
  refine (red4096 _ (.inl rfl) rfl j).trans ?_
  rw [shapeCast_self]

/-- Column j of the final row: the maximum, from the start value, of column j of the eight exchanged rows. -/
theorem pay3_apply (C : Vec Ideal S8x1x1024 .f32) (j : Fin 1024) :
    k0_pay3 (F := Ideal) C (ix1 j)
      = (Finset.univ : Finset (Fin 8)).fold max start (fun s => C (ix3 s (0 : Fin 1) j)) := by
  unfold k0_pay3
  refine (red8 _ (.inl rfl) rfl j).trans ?_
  refine congrArg (fun f => (Finset.univ : Finset (Fin 8)).fold max start f) (funext fun s => ?_)
  refine shapeCast_apply C shapeCasts_S8x1x1024_S8x1024 _ _ ?_
  rw [Shape.rowMajor_val_three, Shape.rowMajor_val_two]
  show (s.val * 1 + 0) * 1024 + j.val = s.val * 1024 + j.val
  omega

/-- The final row as a 1 x 1024 array: entry (0, j) is the row's entry j. -/
theorem pay1_apply (v : FVec Ideal S1024 .f32) (j : Fin 1024) :
    k0_pay1 (F := Ideal) v (ix2 (0 : Fin 1) j) = v (ix1 j) := by
  unfold k0_pay1
  exact shapeCast_a_1a_apply _ shapeCasts_S1024_S1x1024 (0 : Fin 1) j

/-- The whole array's shape reduces along its rows to one row. -/
theorem reduces_S32768x1024_S1024 : Cert.ReferenceIdeal.S32768x1024.Reduces [0] Cert.ReferenceIdeal.S1024 := by decide

/-- The reference's one row as a 1 x 1024 array: entry (0, j) is the row's entry j. -/
theorem idx_v1 (j : Fin 1024) : Cert.ReferenceIdeal.Read.idx_main_v1 (ix2 (0 : Fin 1) j) = ix1 j := by
  funext a
  match a with
  | ⟨0, _⟩ => rfl

/-- Column j of the reference's result: the maximum, from the start value, of column j of the whole array. -/
theorem ref_apply (W : (⟨Cert.ReferenceIdeal.S32768x1024, .f32⟩ : BufTy).Contents (Elt Ideal)) (j : Fin 1024) :
    Cert.ReferenceIdeal.Read.val_main_v1 (F := Ideal) W (ix2 (0 : Fin 1) j)
      = (Finset.univ : Finset (Fin 32768)).fold max start (fun R => W (ix2 R j)) := by
  refine (Cert.ReferenceIdeal.Read.val_main_v1_apply (F := Ideal) W (ix2 (0 : Fin 1) j)).trans ?_
  rw [idx_v1 j]
  unfold Cert.ReferenceIdeal.Read.val_main_v0
  refine (Host.reduce_eq_fold_single (FloatOps.maximumf (F := Ideal) (φ := .f32)) W
    (Cert.ReferenceIdeal.Read.val_main_cst (F := Ideal)) Cert.ReferenceIdeal.Gen.reducesTo_S32768x1024_S1024_d0
    reduces_S32768x1024_S1024 Cert.ReferenceIdeal.Gen.h_S_ (ix1 j)).trans ?_
  refine congrArg (fun f => (Finset.univ : Finset (Fin 32768)).fold max start f) (funext fun R => ?_)
  show W (reduces_S32768x1024_S1024.lift (ix1 j) R) = W (ix2 R j)
  refine congrArg W (funext fun a => ?_)
  match a with
  | ⟨0, _⟩ => exact Fin.ext rfl
  | ⟨1, _⟩ => exact Fin.ext rfl

/-- Where row r, column j of block s lies in the whole array: row 4096 s + r, column j. -/
theorem block_idx (h : Layout.Tiles ⟨2, ![4096, 1024]⟩ ⟨2, ![32768, 1024]⟩ 0 8) (s : Fin 8) (r : Fin 4096) (j : Fin 1024) :
    h.idx s (ix2 r j)
      = ix2 (⟨s.val * 4096 + r.val, by have := s.isLt; have := r.isLt; omega⟩ : Fin 32768) j := by
  funext a
  match a with
  | ⟨0, _⟩ => exact Fin.ext rfl
  | ⟨1, _⟩ => exact Fin.ext rfl

/-- On every device the kernel's result is the reference's: column by column, the maximum of the eight block maxima
    is the maximum over all the rows. -/
theorem outVal_eq_reference (W : (⟨Cert.ReferenceIdeal.S32768x1024, .f32⟩ : BufTy).Contents (Elt Ideal)) :
    Cert.KernelIdeal.Spec.outVal (F := Ideal) (fun c => Layout.block ⟨2, ![4096, 1024]⟩ ⟨2, ![32768, 1024]⟩ 0 8 c W)
      = Cert.ReferenceIdeal.Read.val_main_v1 (F := Ideal) W := by
  funext i
  obtain ⟨j, rfl⟩ : ∃ j : Fin 1024, i = ix2 (0 : Fin 1) j :=
    ⟨i 1, funext fun a => match a with
      | ⟨0, _⟩ => Fin.ext (Nat.lt_one_iff.mp (i 0).isLt)
      | ⟨1, _⟩ => rfl⟩
  refine Eq.trans ?_ (ref_apply W j).symm
  unfold Cert.KernelIdeal.Spec.outVal
  refine (pay1_apply _ j).trans ?_
  refine (pay3_apply _ j).trans ?_
  refine Eq.trans ?_ (fold_max_blocks start (fun R => W (ix2 R j)))
  refine congrArg (fun f => (Finset.univ : Finset (Fin 8)).fold max start f) (funext fun s => ?_)
  refine (pay2_apply _ j).trans ?_
  refine congrArg (fun f => (Finset.univ : Finset (Fin 4096)).fold max start f) (funext fun r => ?_)
  exact congrArg W (block_idx _ s r j)

/-- info: 'Cert.KernelIdeal.ValueBridge.outVal_eq_reference' depends on axioms: [propext, Classical.choice, Quot.sound] -/
#guard_msgs in #print axioms outVal_eq_reference

end Cert.KernelIdeal.ValueBridge

end
-- ==== Proof.Final.lean ====
/-
  The five claims for the eight-device column-maximum kernel, assembled.

  Every device takes the column-wise maximum of its 4096 x 1024 block; the devices meet at a barrier, send
  each other their row of 1024 maxima, and each takes the column-wise maximum of the eight rows it then holds.
  The reference takes the column-wise maximum of the whole 32768 x 1024 array. Over the extended reals the
  maximum of the eight block maxima is the maximum over all rows, so every device ends with the reference's
  result (the value bridge); the argument arrays are never written (the frames).
-/
import proofs.«900921_g7700000000000922_dist_max_ax0_shard0_i_m4096_n1024_v7x_i8_f32_1_alg».proof.Defs
import proofs.«900921_g7700000000000922_dist_max_ax0_shard0_i_m4096_n1024_v7x_i8_f32_1_alg».proof.Proof.Body
import proofs.«900921_g7700000000000922_dist_max_ax0_shard0_i_m4096_n1024_v7x_i8_f32_1_alg».proof.Proof.Launch
import proofs.«900921_g7700000000000922_dist_max_ax0_shard0_i_m4096_n1024_v7x_i8_f32_1_alg».proof.Proof.WBody
import proofs.«900921_g7700000000000922_dist_max_ax0_shard0_i_m4096_n1024_v7x_i8_f32_1_alg».proof.Proof.WLaunch
import proofs.«900921_g7700000000000922_dist_max_ax0_shard0_i_m4096_n1024_v7x_i8_f32_1_alg».proof.Proof.ValueBridge
import proofs.«900921_g7700000000000922_dist_max_ax0_shard0_i_m4096_n1024_v7x_i8_f32_1_alg».proof.Proof.Gen.ReferenceIdeal.Run
import proofs.«900921_g7700000000000922_dist_max_ax0_shard0_i_m4096_n1024_v7x_i8_f32_1_alg».proof.Proof.Gen.ReferenceIdeal.Read
import proofs.«900921_g7700000000000922_dist_max_ax0_shard0_i_m4096_n1024_v7x_i8_f32_1_alg».proof.Proof.Gen.Pre_finite_inputs_Kernel
import proofs.«900921_g7700000000000922_dist_max_ax0_shard0_i_m4096_n1024_v7x_i8_f32_1_alg».proof.Proof.Gen.Pre_finite_inputs_ReferenceIdeal

noncomputable section

open Idealize.ShloMosaic Idealize.ShloMosaic.TcCoe Idealize.SL.Sem
open Idealize.ShloMosaic.Pipeline (Dat)

/-! ## The idealized kernel: its run, and what the arrays hold after it -/

namespace Cert.KernelIdeal.Final

open Cert.KernelIdeal Cert.KernelIdeal.Gen Cert.KernelIdeal.Proto

variable {F : FTy → Type} [FloatOps F]
variable (m : (ℓ : Loc nD τ sig) → Buf (Elt F) ℓ) (ρ : Dev nD → PrngReg)

/-- Every fair execution of the eight kernels ends, and each windowed array then holds what the proof data names. -/
theorem run : θ_run defs (onTc (τ := τ) (main (F := F))) (s₀ m ρ) (Launch.QC m ρ) :=
  Launch.run_main m ρ (Body.body_obligation m ρ)

/-- The input block is never written. -/
theorem finalA_x (c : Dev nD) : Launch.finalA m ρ c (0 : Fin 2) = m ((c : Thread nD τ).loc main_arg0) :=
  (dats (F := F) m ρ 0 c).arrAt_in (0 : Fin 2) rfl _

/-- The result array holds the maximum over the eight rows of block maxima. -/
theorem finalA_out (c : Dev nD) : Launch.finalA m ρ c (1 : Fin 2) = outAt m := by
  unfold Launch.finalA
  have h := (dats (F := F) m ρ 0 c).arrAt_succ (1 : Fin 2) Body.t₀
  rw [if_pos (flush0_1 Body.t₀)] at h
  exact h.trans (Memref.write_access_unit_zero_univ (Elt F) main_v1 (funext fun a => by fin_cases a <;> rfl) _ _ _)

theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c (0 : Fin 2)).trans (finalA_x m ρ c)) (run m ρ)

theorem value : θ_run defs (onTc (τ := τ) (main (F := F))) ⟨m, fun _ => 0, ρ⟩ (fun r => ∀ c : Dev nD,
    r.2.mem ((c.tc : Thread nD τ).loc main_v1) = outAt m
    ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run m ρ)

end Cert.KernelIdeal.Final

/-! ## The kernel as printed: the same run at the word level -/

namespace Cert.Kernel.Final

open Cert.Kernel Cert.Kernel.Gen Cert.Kernel.Proto

variable {F : FTy → Type} [FloatOps F]
variable (m : (ℓ : Loc nD τ sig) → Buf (Elt F) ℓ) (ρ : Dev nD → PrngReg)

theorem run : θ_run defs (onTc (τ := τ) (main (F := F))) (s₀ m ρ) (Launch.QC m ρ) :=
  Launch.run_main m ρ (Body.body_obligation m ρ)

theorem finalA_x (c : Dev nD) : Launch.finalA m ρ c (0 : Fin 2) = m ((c : Thread nD τ).loc main_arg0) :=
  (dats (F := F) m ρ 0 c).arrAt_in (0 : Fin 2) rfl _

theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c (0 : Fin 2)).trans (finalA_x m ρ c)) (run m ρ)

end Cert.Kernel.Final

/-! ## The claims -/

namespace Cert.Proof.Claims

theorem frame_p : Cert.frame_Kernel := fun m ρ _ => Cert.Kernel.Final.frame (F := Bits) m ρ
theorem frame_pi : Cert.frame_KernelIdeal := fun m ρ _ => Cert.KernelIdeal.Final.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- With each device's block its part of the whole array, the exchanged maximum is the reference's column-wise maximum. -/
theorem out_eq (m : (ℓ : Loc Cert.KernelIdeal.nD Cert.KernelIdeal.τ Cert.KernelIdeal.sig) → Buf (Elt Ideal) ℓ)
    (W : (⟨Cert.ReferenceIdeal.S32768x1024, .f32⟩ : BufTy).Contents (Elt Ideal))
    (hagree : ∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c W) :
    Cert.KernelIdeal.Proto.outAt m = Cert.ReferenceIdeal.Read.val_main_v1 (F := Ideal) W := by
  unfold Cert.KernelIdeal.Proto.outAt
  have hx : Cert.KernelIdeal.Proto.xblk m = fun c => Layout.block ⟨2, ![4096, 1024]⟩ ⟨2, ![32768, 1024]⟩ 0 8 c W := funext fun c => hagree c
  rw [hx]
  exact Cert.KernelIdeal.ValueBridge.outVal_eq_reference W

theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h c).1.trans (out_eq m _ hagree), (h c).2⟩) (Cert.KernelIdeal.Final.value (F := Ideal) m ρ)
  · exact (θ_run Cert.ReferenceIdeal.defs _ _).mono (fun _ h => ⟨(h 0).1.trans (Cert.ReferenceIdeal.Read.val_main_v1_eq _), (h 0).2⟩)
      (Cert.ReferenceIdeal.Value.run (F := Ideal) m' ρ')

end Cert.Proof.Claims

end
-- ==== Proof.lean ====
/-
  The certificate for the eight-device column-maximum kernel: the programs' stated side conditions from the
  generated modules, then the five claims (Proof/Final.lean).
-/
import proofs.«900921_g7700000000000922_dist_max_ax0_shard0_i_m4096_n1024_v7x_i8_f32_1_alg».proof.Defs
import proofs.«900921_g7700000000000922_dist_max_ax0_shard0_i_m4096_n1024_v7x_i8_f32_1_alg».proof.Proof.Gen.Kernel
import proofs.«900921_g7700000000000922_dist_max_ax0_shard0_i_m4096_n1024_v7x_i8_f32_1_alg».proof.Proof.Gen.KernelIdeal
import proofs.«900921_g7700000000000922_dist_max_ax0_shard0_i_m4096_n1024_v7x_i8_f32_1_alg».proof.Proof.Gen.ReferenceIdeal
import proofs.«900921_g7700000000000922_dist_max_ax0_shard0_i_m4096_n1024_v7x_i8_f32_1_alg».proof.Proof.Gen.Pre_finite_inputs_Kernel
import proofs.«900921_g7700000000000922_dist_max_ax0_shard0_i_m4096_n1024_v7x_i8_f32_1_alg».proof.Proof.Gen.Pre_finite_inputs_ReferenceIdeal
import proofs.«900921_g7700000000000922_dist_max_ax0_shard0_i_m4096_n1024_v7x_i8_f32_1_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.Claims.frame_p, Cert.Proof.Claims.frame_pi, Cert.Proof.Claims.frame_ri, Cert.Proof.Claims.preserves, Cert.Proof.Claims.algebraic⟩

end Cert.Proof

end
